-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S100000x8 : Shape := ⟨2, ![100000, 8]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S100000x8 : S_.BroadcastsInDim S100000x8 (![] : Fin 0 → Fin S100000x8.rank)
  reducesTo_S100000x8_S_d0_1 : S100000x8.ReducesTo [0, 1] S_

variable [Facts]

def fn {F : FTy → Type} [FloatOps F] (main_arg0 : FVec F S100000x4 .f32) (main_arg1 : FVec F S100000x8 .f32) (main_arg2 : IVec S1 32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S100000x8 .f32 := Host.absf main_arg1
  let main_cst_0 : FVec F S_ .f32 := constant S_ .f32 0x7F800000#32
  let main_v5 : FVec F S100000x8 .f32 := broadcastInDim S100000x8 ![] bcast_S_S100000x8 main_cst_0
  let main_v6 : IVec S100000x8 1 := cmpf .olt main_v4 main_v5
  let main_c_1 : IVec S_ 1 := constantI S_ 1 1#1
  let main_v7 : IVec S_ 1 := (fun x v => Host.reduce IntOp.andi x v reducesTo_S100000x8_S_d0_1 h_S_) main_v6 main_c_1
  let main_v8 : IVec S_ 1 := andi main_v3 main_v7
  main_v8
-- ==== Kernel.lean ====
abbrev S100000x4 : Shape := ⟨2, ![100000, 4]⟩
abbrev S100000x8 : Shape := ⟨2, ![100000, 8]⟩
abbrev S1 : Shape := ⟨1, ![1]⟩
abbrev S100000x3 : Shape := ⟨2, ![100000, 3]⟩
abbrev S_ : Shape := ⟨0, ![]⟩
abbrev S100000x1 : Shape := ⟨2, ![100000, 1]⟩
abbrev S100000 : Shape := ⟨1, ![100000]⟩
abbrev S16777216 : Shape := ⟨1, ![16777216]⟩
abbrev S256x256x256 : Shape := ⟨3, ![256, 256, 256]⟩
abbrev S8x256x256 : Shape := ⟨3, ![8, 256, 256]⟩
abbrev S256x8x256 : Shape := ⟨3, ![256, 8, 256]⟩
abbrev S4x256x256 : Shape := ⟨3, ![4, 256, 256]⟩
abbrev S4x8x256 : Shape := ⟨3, ![4, 8, 256]⟩
abbrev S4x1x256x256 : Shape := ⟨4, ![4, 1, 256, 256]⟩
abbrev S4x8x256x256 : Shape := ⟨4, ![4, 8, 256, 256]⟩
abbrev S1x8x256x256 : Shape := ⟨4, ![1, 8, 256, 256]⟩
abbrev S3x8x256x256 : Shape := ⟨4, ![3, 8, 256, 256]⟩
abbrev S3 : Shape := ⟨1, ![3]⟩

abbrev nBuf : Space → Nat
  | .hbm => 111
  | .vmem => 23
  | .smem => 0
  | _ => 0

abbrev bufTy : (tb : Table) → Fin (tcTables nBuf tb) → BufTy
  | .hbm, ⟨0, _⟩ => ⟨S100000x4, .f32⟩
  | .hbm, ⟨1, _⟩ => ⟨S100000x8, .f32⟩
  | .hbm, ⟨2, _⟩ => ⟨S1, .i32⟩
  | .hbm, ⟨3, _⟩ => ⟨S100000x3, .f32⟩
  | .hbm, ⟨4, _⟩ => ⟨S_, .f32⟩
  | .hbm, ⟨5, _⟩ => ⟨S100000x3, .f32⟩
  | .hbm, ⟨6, _⟩ => ⟨S100000x3, .f32⟩
  | .hbm, ⟨7, _⟩ => ⟨S100000x3, .f32⟩
  | .hbm, ⟨8, _⟩ => ⟨S100000x3, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S100000x3, .i32⟩
  | .hbm, ⟨13, _⟩ => ⟨S100000x3, .i32⟩
  | .hbm, ⟨14, _⟩ => ⟨S_, .i32⟩
  | .hbm, ⟨15, _⟩ => ⟨S100000x3, .i32⟩
  | .hbm, ⟨16, _⟩ => ⟨S100000x3, .i32⟩
  | .hbm, ⟨17, _⟩ => ⟨S100000x1, .f32⟩
  | .hbm, ⟨18, _⟩ => ⟨S100000, .f32⟩
  | .hbm, ⟨19, _⟩ => ⟨S100000, .i32⟩
  | .hbm, ⟨20, _⟩ => ⟨S_, .i32⟩
  | .hbm, ⟨21, _⟩ => ⟨S100000, .i32⟩
  | .hbm, ⟨22, _⟩ => ⟨S100000, .i32⟩
  | .hbm, ⟨23, _⟩ => ⟨S100000x1, .i32⟩
  | .hbm, ⟨24, _⟩ => ⟨S100000, .i32⟩
  | .hbm, ⟨25, _⟩ => ⟨S100000, .i32⟩
  | .hbm, ⟨26, _⟩ => ⟨S_, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S100000, .i32⟩
  | .hbm, ⟨31, _⟩ => ⟨S100000, .i32⟩
  | .hbm, ⟨32, _⟩ => ⟨S_, .i32⟩
  | .hbm, ⟨33, _⟩ => ⟨S100000, .i32⟩
  | .hbm, ⟨34, _⟩ => ⟨S100000, .i32⟩
  | .hbm, ⟨35, _⟩ => ⟨S100000x1, .i32⟩
  | .hbm, ⟨36, _⟩ => ⟨S100000, .i32⟩
  | .hbm, ⟨37, _⟩ => ⟨S100000, .i32⟩
  | .hbm, ⟨38, _⟩ => ⟨S100000x1, .f32⟩
  | .hbm, ⟨39, _⟩ => ⟨S100000, .f32⟩
  | .hbm, ⟨40, _⟩ => ⟨S_, .f32⟩
  | .hbm, ⟨41, _⟩ => ⟨S16777216, .f32⟩
  | .hbm, ⟨42, _⟩ => ⟨S100000x1, .i32⟩
  | .hbm, ⟨43, _⟩ => ⟨S16777216, .f32⟩
  | .hbm, ⟨44, _⟩ => ⟨S256x256x256, .f32⟩
  | .hbm, ⟨45, _⟩ => ⟨S100000x1, .f32⟩
  | .hbm, ⟨46, _⟩ => ⟨S100000, .f32⟩
  | .hbm, ⟨47, _⟩ => ⟨S_, .f32⟩
  | .hbm, ⟨48, _⟩ => ⟨S16777216, .f32⟩
  | .hbm, ⟨49, _⟩ => ⟨S100000x1, .i32⟩
  | .hbm, ⟨50, _⟩ => ⟨S16777216, .f32⟩
  | .hbm, ⟨51, _⟩ => ⟨S256x256x256, .f32⟩
  | .hbm, ⟨52, _⟩ => ⟨S100000x1, .f32⟩
  | .hbm, ⟨53, _⟩ => ⟨S100000, .f32⟩
  | .hbm, ⟨54, _⟩ => ⟨S_, .f32⟩
  | .hbm, ⟨55, _⟩ => ⟨S16777216, .f32⟩
  | .hbm, ⟨56, _⟩ => ⟨S100000x1, .i32⟩
  | .hbm, ⟨57, _⟩ => ⟨S16777216, .f32⟩
  | .hbm, ⟨58, _⟩ => ⟨S256x256x256, .f32⟩
  | .hbm, ⟨59, _⟩ => ⟨S100000x1, .f32⟩
  | .hbm, ⟨60, _⟩ => ⟨S100000, .f32⟩
  | .hbm, ⟨61, _⟩ => ⟨S_, .f32⟩
  | .hbm, ⟨62, _⟩ => ⟨S16777216, .f32⟩
  | .hbm, ⟨63, _⟩ => ⟨S100000x1, .i32⟩
  | .hbm, ⟨64, _⟩ => ⟨S16777216, .f32⟩
  | .hbm, ⟨65, _⟩ => ⟨S256x256x256, .f32⟩
  | .hbm, ⟨66, _⟩ => ⟨S100000x1, .f32⟩
  | .hbm, ⟨67, _⟩ => ⟨S100000, .f32⟩
  | .hbm, ⟨68, _⟩ => ⟨S_, .f32⟩
  | .hbm, ⟨69, _⟩ => ⟨S16777216, .f32⟩
  | .hbm, ⟨70, _⟩ => ⟨S100000x1, .i32⟩
  | .hbm, ⟨71, _⟩ => ⟨S16777216, .f32⟩
  | .hbm, ⟨72, _⟩ => ⟨S256x256x256, .f32⟩
  | .hbm, ⟨73, _⟩ => ⟨S100000x1, .f32⟩
  | .hbm, ⟨74, _⟩ => ⟨S100000, .f32⟩
  | .hbm, ⟨75, _⟩ => ⟨S_, .f32⟩
  | .hbm, ⟨76, _⟩ => ⟨S16777216, .f32⟩
  | .hbm, ⟨77, _⟩ => ⟨S100000x1, .i32⟩
  | .hbm, ⟨78, _⟩ => ⟨S16777216, .f32⟩
  | .hbm, ⟨79, _⟩ => ⟨S256x256x256, .f32⟩
  | .hbm, ⟨80, _⟩ => ⟨S100000x1, .f32⟩
  | .hbm, ⟨81, _⟩ => ⟨S100000, .f32⟩
  | .hbm, ⟨82, _⟩ => ⟨S_, .f32⟩
  | .hbm, ⟨83, _⟩ => ⟨S16777216, .f32⟩
  | .hbm, ⟨84, _⟩ => ⟨S100000x1, .i32⟩
  | .hbm, ⟨85, _⟩ => ⟨S16777216, .f32⟩
  | .hbm, ⟨86, _⟩ => ⟨S256x256x256, .f32⟩
  | .hbm, ⟨87, _⟩ => ⟨S100000x1, .f32⟩
  | .hbm, ⟨88, _⟩ => ⟨S100000, .f32⟩
  | .hbm, ⟨89, _⟩ => ⟨S_, .f32⟩
  | .hbm, ⟨90, _⟩ => ⟨S16777216, .f32⟩
  | .hbm, ⟨91, _⟩ => ⟨S100000x1, .i32⟩
  | .hbm, ⟨92, _⟩ => ⟨S16777216, .f32⟩
  | .hbm, ⟨93, _⟩ => ⟨S256x256x256, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S16777216, .f32⟩
  | .hbm, ⟨98, _⟩ => ⟨S100000x1, .i32⟩
  | .hbm, ⟨99, _⟩ => ⟨S16777216, .f32⟩
  | .hbm, ⟨100, _⟩ => ⟨S256x256x256, .f32⟩
  | .hbm, ⟨101, _⟩ => ⟨S8x256x256, .f32⟩
  | .hbm, ⟨102, _⟩ => ⟨S256x8x256, .f32⟩
  | .hbm, ⟨103, _⟩ => ⟨S256x8x256, .f32⟩
  | .hbm, ⟨104, _⟩ => ⟨S1x8x256x256, .f32⟩
  | .hbm, ⟨105, _⟩ => ⟨S8x256x256, .f32⟩
  | .hbm, ⟨106, _⟩ => ⟨S1x8x256x256, .f32⟩
  | .hbm, ⟨107, _⟩ => ⟨S8x256x256, .f32⟩
  | .hbm, ⟨108, _⟩ => ⟨S1x8x256x256, .f32⟩
  | .hbm, ⟨109, _⟩ => ⟨S3x8x256x256, .f32⟩
  | .hbm, ⟨110, _⟩ => ⟨S3, .i32⟩
  | .local _ .vmem, ⟨0, _⟩ => ⟨S4x256x256, .f32⟩
  | .local _ .vmem, ⟨1, _⟩ => ⟨S4x256x256, .f32⟩
  | .local _ .vmem, ⟨2, _⟩ => ⟨S4x256x256, .f32⟩
  | .local _ .vmem, ⟨3, _⟩ => ⟨S4x256x256, .f32⟩
  | .local _ .vmem, ⟨4, _⟩ => ⟨S4x256x256, .f32⟩
  | .local _ .vmem, ⟨5, _⟩ => ⟨S4x256x256, .f32⟩
  | .local _ .vmem, ⟨6, _⟩ => ⟨S4x256x256, .f32⟩
  | .local _ .vmem, ⟨7, _⟩ => ⟨S4x256x256, .f32⟩
  | .local _ .vmem, ⟨8, _⟩ => ⟨S4x256x256, .f32⟩
  | .local _ .vmem, ⟨9, _⟩ => ⟨S4x256x256, .f32⟩
  | .local _ .vmem, ⟨10, _⟩ => ⟨S4x256x256, .f32⟩
  | .local _ .vmem, ⟨11, _⟩ => ⟨S4x256x256, .f32⟩
  | .local _ .vmem, ⟨12, _⟩ => ⟨S4x256x256, .f32⟩
  | .local _ .vmem, ⟨13, _⟩ => ⟨S4x256x256, .f32⟩
  | .local _ .vmem, ⟨14, _⟩ => ⟨S4x256x256, .f32⟩
  | .local _ .vmem, ⟨15, _⟩ => ⟨S4x256x256, .f32⟩
  | .local _ .vmem, ⟨16, _⟩ => ⟨S4x256x256, .f32⟩
  | .local _ .vmem, ⟨17, _⟩ => ⟨S4x256x256, .f32⟩
  | .local _ .vmem, ⟨18, _⟩ => ⟨S8x256x256, .f32⟩
  | .local _ .vmem, ⟨19, _⟩ => ⟨S4x8x256, .f32⟩
  | .local _ .vmem, ⟨20, _⟩ => ⟨S4x8x256, .f32⟩
  | .local _ .vmem, ⟨21, _⟩ => ⟨S4x8x256, .f32⟩
  | .local _ .vmem, ⟨22, _⟩ => ⟨S4x8x256, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_cst_13 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77_0 : Ref sig .tc := ⟨.hbm, 101, rfl⟩
abbrev main_v77_1 : Ref sig .tc := ⟨.hbm, 102, rfl⟩
abbrev main_v77_2 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S100000x4_S100000x3_0_0 : S100000x4.Slices ![0, 0] S100000x3
  bcast_S_S100000x3 : S_.BroadcastsInDim S100000x3 (![] : Fin 0 → Fin S100000x3.rank)
  slices_S100000x4_S100000x1_0_3 : S100000x4.Slices ![0, 3] S100000x1
  shapeCasts_S100000x1_S100000 : S100000x1.ShapeCasts S100000
  bcast_S_S100000 : S_.BroadcastsInDim S100000 (![] : Fin 0 → Fin S100000.rank)
  slices_S100000x3_S100000x1_0_0 : S100000x3.Slices ![0, 0] S100000x1
  slices_S100000x3_S100000x1_0_1 : S100000x3.Slices ![0, 1] S100000x1
  slices_S100000x3_S100000x1_0_2 : S100000x3.Slices ![0, 2] S100000x1
  slices_S100000x8_S100000x1_0_0 : S100000x8.Slices ![0, 0] S100000x1
  bcast_S_S16777216 : S_.BroadcastsInDim S16777216 (![] : Fin 0 → Fin S16777216.rank)
  bcast_S100000_S100000x1_0 : S100000.BroadcastsInDim S100000x1 (![0] : Fin 1 → Fin S100000x1.rank)
  shapeCasts_S16777216_S256x256x256 : S16777216.ShapeCasts S256x256x256
  slices_S100000x8_S100000x1_0_1 : S100000x8.Slices ![0, 1] S100000x1
  slices_S100000x8_S100000x1_0_2 : S100000x8.Slices ![0, 2] S100000x1
  slices_S100000x8_S100000x1_0_3 : S100000x8.Slices ![0, 3] S100000x1
  slices_S100000x8_S100000x1_0_4 : S100000x8.Slices ![0, 4] S100000x1
  slices_S100000x8_S100000x1_0_5 : S100000x8.Slices ![0, 5] S100000x1
  slices_S100000x8_S100000x1_0_6 : S100000x8.Slices ![0, 6] S100000x1
  slices_S100000x8_S100000x1_0_7 : S100000x8.Slices ![0, 7] S100000x1
  inb_S8x256x256_S8x256x256_0_0_0 : ∀ a, (![0, 0, 0] : Fin 3 → Nat) a + S8x256x256.size a ≤ S8x256x256.size a
  h_S8x256x256 : 0 < S8x256x256.numel
  inb_S4x256x256_S4x256x256_0_0_0 : ∀ a, (![0, 0, 0] : Fin 3 → Nat) a + S4x256x256.size a ≤ S4x256x256.size a
  h_S4x256x256 : 0 < S4x256x256.numel
  shapeCasts_S4x256x256_S4x256x256 : S4x256x256.ShapeCasts S4x256x256
  shapeCasts_S4x256x256_S4x1x256x256 : S4x256x256.ShapeCasts S4x1x256x256
  concatenates_S4x1x256x256_S4x1x256x256_S4x1x256x256_S4x1x256x256_S4x1x256x256_S4x1x256x256_S4x1x256x256_S4x1x256x256_S4x8x256x256_d1 : Shape.Concatenates [S4x1x256x256, S4x1x256x256, S4x1x256x256, S4x1x256x256, S4x1x256x256, S4x1x256x256, S4x1x256x256, S4x1x256x256] S4x8x256x256 1
  broadcasts_S4x1x256x256_S4x8x256x256 : S4x1x256x256.Broadcasts S4x8x256x256
  reduces_S4x8x256x256_S8x256x256 : S4x8x256x256.Reduces [0] S8x256x256
  shapeCasts_S8x256x256_S8x256x256 : S8x256x256.ShapeCasts S8x256x256
  reduces_S4x8x256x256_S4x8x256 : S4x8x256x256.Reduces [2] S4x8x256
  inb_S4x8x256_S4x8x256_0_0_0 : ∀ a, (![0, 0, 0] : Fin 3 → Nat) a + S4x8x256.size a ≤ S4x8x256.size a
  h_S4x8x256 : 0 < S4x8x256.numel
  reduces_S4x8x256x256_S4x8x256_2 : S4x8x256x256.Reduces [3] S4x8x256
  bcast_S8x256x256_S1x8x256x256_1_2_3 : S8x256x256.BroadcastsInDim S1x8x256x256 (![1, 2, 3] : Fin 3 → Fin S1x8x256x256.rank)
  transposes_S256x8x256_S8x256x256_1_0_2 : S256x8x256.Transposes [1, 0, 2] S8x256x256
  concatenates_S1x8x256x256_S1x8x256x256_S1x8x256x256_S3x8x256x256_d0 : Shape.Concatenates [S1x8x256x256, S1x8x256x256, S1x8x256x256] S3x8x256x256 0
  concatenates_S1_S1_S1_S3_d0 : Shape.Concatenates [S1, S1, S1] S3 0
  scatter_S16777216_S100000x1_S100000_n_0_0_1_wf : ScatterDims.WF S16777216 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x256.size a ≤ S256x256x256.size a
  hwx0_0 : ∀ i : grid0.Coords, EltTy.bits .f32 = 32 ∨ (Rect.block (s := S256x256x256) S4x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x256.size a ≤ S256x256x256.size a
  hwx0_1 : ∀ i : grid0.Coords, EltTy.bits .f32 = 32 ∨ (Rect.block (s := S256x256x256) S4x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x256.size a ≤ S256x256x256.size a
  hwx0_2 : ∀ i : grid0.Coords, EltTy.bits .f32 = 32 ∨ (Rect.block (s := S256x256x256) S4x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x256.size a ≤ S256x256x256.size a
  hwx0_3 : ∀ i : grid0.Coords, EltTy.bits .f32 = 32 ∨ (Rect.block (s := S256x256x256) S4x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x256.size a ≤ S256x256x256.size a
  hwx0_4 : ∀ i : grid0.Coords, EltTy.bits .f32 = 32 ∨ (Rect.block (s := S256x256x256) S4x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256x256.size a ≤ S256x256x256.size a
  hwx0_5 : ∀ i : grid0.Coords, EltTy.bits .f32 = 32 ∨ (Rect.block (s := S256x256x256) S4x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x256x256.size a ≤ S256x256x256.size a
  hwx0_6 : ∀ i : grid0.Coords, EltTy.bits .f32 = 32 ∨ (Rect.block (s := S256x256x256) S4x256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x256x256.size a ≤ S256x256x256.size a
  hwx0_7 : ∀ i : grid0.Coords, EltTy.bits .f32 = 32 ∨ (Rect.block (s := S256x256x256) S4x256x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x256x256.size a ≤ S256x256x256.size a
  hwx0_8 : ∀ i : grid0.Coords, EltTy.bits .f32 = 32 ∨ (Rect.block (s := S256x256x256) S4x256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x256x256.size a ≤ S8x256x256.size a
  hwx0_9 : ∀ i : grid0.Coords, EltTy.bits .f32 = 32 ∨ (Rect.block (s := S8x256x256) S8x256x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x8x256.size a ≤ S256x8x256.size a
  hwx0_10 : ∀ i : grid0.Coords, EltTy.bits .f32 = 32 ∨ (Rect.block (s := S256x8x256) S4x8x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x8x256.size a ≤ S256x8x256.size a
  hwx0_11 : ∀ i : grid0.Coords, EltTy.bits .f32 = 32 ∨ (Rect.block (s := S256x8x256) S4x8x256.size (cc0_transform_11 i) (hinb0_11 i)).WholeWords (EltTy.packing .f32)

variable [Facts₀]

def scatter_S16777216_S100000x1_S100000_n_0_0_1 : ScatterDims S16777216 S100000x1 S100000 where
  updateWindowDims := []
  insertedWindowDims := [0]
  scatterDimsToOperandDims := [0]
  indexVectorDim := 1
  wf := scatter_S16777216_S100000x1_S100000_n_0_0_1_wf

abbrev win0_0 : Pipeline.Window sig grid0 :=
  Pipeline.Window.ofSpec (Memref.whole main_v29) S4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S4x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S4x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S4x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v53) S4x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v59) S4x256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v65) S4x256x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v71) S4x256x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v76) S4x256x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v77_0) S8x256x256.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v77_1) S4x8x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v77_2) S4x8x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x4 : Shape := ⟨2, ![100000, 4]⟩
abbrev S100000x8 : Shape := ⟨2, ![100000, 8]⟩
abbrev S1 : Shape := ⟨1, ![1]⟩
abbrev S100000x3 : Shape := ⟨2, ![100000, 3]⟩
abbrev S_ : Shape := ⟨0, ![]⟩
abbrev S100000x1 : Shape := ⟨2, ![100000, 1]⟩
abbrev S100000 : Shape := ⟨1, ![100000]⟩
abbrev S16777216x8 : Shape := ⟨2, ![16777216, 8]⟩
abbrev S16777216x1 : Shape := ⟨2, ![16777216, 1]⟩
abbrev S1x256x256x256x8 : Shape := ⟨5, ![1, 256, 256, 256, 8]⟩
abbrev S1x256x256x8 : Shape := ⟨4, ![1, 256, 256, 8]⟩
abbrev S1x8x256x256 : Shape := ⟨4, ![1, 8, 256, 256]⟩
abbrev S3x8x256x256 : Shape := ⟨4, ![3, 8, 256, 256]⟩
abbrev S3 : Shape := ⟨1, ![3]⟩

abbrev nBuf : Space → Nat
  | .hbm => 66
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S100000x8, .f32⟩
  | .hbm, ⟨2, _⟩ => ⟨S1, .i32⟩
  | .hbm, ⟨3, _⟩ => ⟨S100000x3, .f32⟩
  | .hbm, ⟨4, _⟩ => ⟨S_, .f32⟩
  | .hbm, ⟨5, _⟩ => ⟨S100000x3, .f32⟩
  | .hbm, ⟨6, _⟩ => ⟨S100000x3, .f32⟩
  | .hbm, ⟨7, _⟩ => ⟨S100000x3, .f32⟩
  | .hbm, ⟨8, _⟩ => ⟨S100000x3, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S100000x3, .i32⟩
  | .hbm, ⟨13, _⟩ => ⟨S100000x3, .i32⟩
  | .hbm, ⟨14, _⟩ => ⟨S_, .i32⟩
  | .hbm, ⟨15, _⟩ => ⟨S100000x3, .i32⟩
  | .hbm, ⟨16, _⟩ => ⟨S100000x3, .i32⟩
  | .hbm, ⟨17, _⟩ => ⟨S100000x1, .f32⟩
  | .hbm, ⟨18, _⟩ => ⟨S100000, .f32⟩
  | .hbm, ⟨19, _⟩ => ⟨S100000, .i32⟩
  | .hbm, ⟨20, _⟩ => ⟨S_, .i32⟩
  | .hbm, ⟨21, _⟩ => ⟨S100000, .i32⟩
  | .hbm, ⟨22, _⟩ => ⟨S100000, .i32⟩
  | .hbm, ⟨23, _⟩ => ⟨S100000x1, .i32⟩
  | .hbm, ⟨24, _⟩ => ⟨S100000, .i32⟩
  | .hbm, ⟨25, _⟩ => ⟨S100000, .i32⟩
  | .hbm, ⟨26, _⟩ => ⟨S_, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S100000, .i32⟩
  | .hbm, ⟨31, _⟩ => ⟨S100000, .i32⟩
  | .hbm, ⟨32, _⟩ => ⟨S_, .i32⟩
  | .hbm, ⟨33, _⟩ => ⟨S100000, .i32⟩
  | .hbm, ⟨34, _⟩ => ⟨S100000, .i32⟩
  | .hbm, ⟨35, _⟩ => ⟨S100000x1, .i32⟩
  | .hbm, ⟨36, _⟩ => ⟨S100000, .i32⟩
  | .hbm, ⟨37, _⟩ => ⟨S100000, .i32⟩
  | .hbm, ⟨38, _⟩ => ⟨S_, .f32⟩
  | .hbm, ⟨39, _⟩ => ⟨S16777216x8, .f32⟩
  | .hbm, ⟨40, _⟩ => ⟨S100000x1, .i32⟩
  | .hbm, ⟨41, _⟩ => ⟨S16777216x8, .f32⟩
  | .hbm, ⟨42, _⟩ => ⟨S100000x1, .f32⟩
  | .hbm, ⟨43, _⟩ => ⟨S_, .f32⟩
  | .hbm, ⟨44, _⟩ => ⟨S100000x1, .f32⟩
  | .hbm, ⟨45, _⟩ => ⟨S_, .f32⟩
  | .hbm, ⟨46, _⟩ => ⟨S16777216x1, .f32⟩
  | .hbm, ⟨47, _⟩ => ⟨S100000x1, .i32⟩
  | .hbm, ⟨48, _⟩ => ⟨S16777216x1, .f32⟩
  | .hbm, ⟨49, _⟩ => ⟨S_, .f32⟩
  | .hbm, ⟨50, _⟩ => ⟨S16777216x1, .f32⟩
  | .hbm, ⟨51, _⟩ => ⟨S16777216x1, .f32⟩
  | .hbm, ⟨52, _⟩ => ⟨S16777216x8, .f32⟩
  | .hbm, ⟨53, _⟩ => ⟨S16777216x8, .f32⟩
  | .hbm, ⟨54, _⟩ => ⟨S1x256x256x256x8, .f32⟩
  | .hbm, ⟨55, _⟩ => ⟨S_, .f32⟩
  | .hbm, ⟨56, _⟩ => ⟨S1x256x256x8, .f32⟩
  | .hbm, ⟨57, _⟩ => ⟨S1x8x256x256, .f32⟩
  | .hbm, ⟨58, _⟩ => ⟨S_, .f32⟩
  | .hbm, ⟨59, _⟩ => ⟨S1x256x256x8, .f32⟩
  | .hbm, ⟨60, _⟩ => ⟨S1x8x256x256, .f32⟩
  | .hbm, ⟨61, _⟩ => ⟨S_, .f32⟩
  | .hbm, ⟨62, _⟩ => ⟨S1x256x256x8, .f32⟩
  | .hbm, ⟨63, _⟩ => ⟨S1x8x256x256, .f32⟩
  | .hbm, ⟨64, _⟩ => ⟨S3x8x256x256, .f32⟩
  | .hbm, ⟨65, _⟩ => ⟨S3, .i32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  slices_S100000x4_S100000x3_0_0 : S100000x4.Slices ![0, 0] S100000x3
  bcast_S_S100000x3 : S_.BroadcastsInDim S100000x3 (![] : Fin 0 → Fin S100000x3.rank)
  slices_S100000x4_S100000x1_0_3 : S100000x4.Slices ![0, 3] S100000x1
  shapeCasts_S100000x1_S100000 : S100000x1.ShapeCasts S100000
  bcast_S_S100000 : S_.BroadcastsInDim S100000 (![] : Fin 0 → Fin S100000.rank)
  slices_S100000x3_S100000x1_0_0 : S100000x3.Slices ![0, 0] S100000x1
  slices_S100000x3_S100000x1_0_1 : S100000x3.Slices ![0, 1] S100000x1
  slices_S100000x3_S100000x1_0_2 : S100000x3.Slices ![0, 2] S100000x1
  bcast_S_S16777216x8 : S_.BroadcastsInDim S16777216x8 (![] : Fin 0 → Fin S16777216x8.rank)
  bcast_S100000_S100000x1_0 : S100000.BroadcastsInDim S100000x1 (![0] : Fin 1 → Fin S100000x1.rank)
  slices_S100000x8_S100000x1_0_0 : S100000x8.Slices ![0, 0] S100000x1
  bcast_S_S100000x1 : S_.BroadcastsInDim S100000x1 (![] : Fin 0 → Fin S100000x1.rank)
  bcast_S_S16777216x1 : S_.BroadcastsInDim S16777216x1 (![] : Fin 0 → Fin S16777216x1.rank)
  bcast_S16777216x1_S16777216x8_0_1 : S16777216x1.BroadcastsInDim S16777216x8 (![0, 1] : Fin 2 → Fin S16777216x8.rank)
  shapeCasts_S16777216x8_S1x256x256x256x8 : S16777216x8.ShapeCasts S1x256x256x256x8
  reducesTo_S1x256x256x256x8_S1x256x256x8_d1 : S1x256x256x256x8.ReducesTo [1] S1x256x256x8
  h_S_ : 0 < S_.numel
  transposes_S1x256x256x8_S1x8x256x256_0_3_1_2 : S1x256x256x8.Transposes [0, 3, 1, 2] S1x8x256x256
  reducesTo_S1x256x256x256x8_S1x256x256x8_d2 : S1x256x256x256x8.ReducesTo [2] S1x256x256x8
  reducesTo_S1x256x256x256x8_S1x256x256x8_d3 : S1x256x256x256x8.ReducesTo [3] S1x256x256x8
  concatenates_S1x8x256x256_S1x8x256x256_S1x8x256x256_S3x8x256x256_d0 : Shape.Concatenates [S1x8x256x256, S1x8x256x256, S1x8x256x256] S3x8x256x256 0
  concatenates_S1_S1_S1_S3_d0 : Shape.Concatenates [S1, S1, S1] S3 0
  scatter_S16777216x8_S100000x1_S100000x8_1_0_0_1_wf : ScatterDims.WF S16777216x8 S100000x1 S100000x8 [1] [0] [0] 1
  scatter_S16777216x1_S100000x1_S100000x1_1_0_0_1_wf : ScatterDims.WF S16777216x1 S100000x1 S100000x1 [1] [0] [0] 1

variable [Facts₀]

def scatter_S16777216x8_S100000x1_S100000x8_1_0_0_1 : ScatterDims S16777216x8 S100000x1 S100000x8 where
  updateWindowDims := [1]
  insertedWindowDims := [0]
  scatterDimsToOperandDims := [0]
  indexVectorDim := 1
  wf := scatter_S16777216x8_S100000x1_S100000x8_1_0_0_1_wf
def scatter_S16777216x1_S100000x1_S100000x1_1_0_0_1 : ScatterDims S16777216x1 S100000x1 S100000x1 where
  updateWindowDims := [1]
  insertedWindowDims := [0]
  scatterDimsToOperandDims := [0]
  indexVectorDim := 1
  wf := scatter_S16777216x1_S100000x1_S100000x1_1_0_0_1_wf

class Facts : Prop extends Facts₀ where

variable [Facts]
-- ==== Proof.KFrameDefs.lean ====
/-
  What the voxel kernel's body leaves in each window's staging buffer at each grid point, as pure functions of
  the arrays the region finds. The nine input windows (eight channel grids of sums and the grid of counts) are
  left as fetched: the point's block of four planes. Of the three outputs, the per-point ones hold the
  row maxima of the block's voxel values (along the second and the third spatial axis); the resident one holds
  the running maximum along the first axis: minus infinity joined with the first block's maximum at the first
  point, the previous point's contents joined with this block's maximum afterwards.
-/
import proofs.«163846_j35338990912022_1_alg».proof.Proof.Gen.Kernel.Launch
import proofs.«163846_j35338990912022_1_alg».proof.Proof.Gen.Kernel.Skeleton
import proofs.«163846_j35338990912022_1_alg».proof.Proof.Gen.Kernel.Points
import Idealize.ShloMosaic.Lib.Pipeline.FrameSuffix
import Idealize.ShloMosaic.Lib.Pipeline.FrameBody

set_option maxRecDepth 16384

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the region is entered: after the host operations before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The resident output after point `t`, from what it held before: joined with the maximum of the point's voxel
    values along the block's four planes. -/
def stepX (c : Dev nD) (t : Fin cfg0.N) (prev : Vec F S8x256x256 .f32) : Vec F S8x256x256 .f32 :=
  k0_pay2 (k0_pay6 (iblk m c 8 t)) (k0_pay7 (iblk m c 0 t)) (k0_pay8 (iblk m c 1 t)) (k0_pay9 (iblk m c 2 t)) (k0_pay10 (iblk m c 3 t)) (k0_pay11 (iblk m c 4 t)) (k0_pay12 (iblk m c 5 t)) (k0_pay13 (iblk m c 6 t)) (iblk m c 7 t) prev
/-- The point's voxel values' maxima along the second spatial axis. -/
def rowsY (c : Dev nD) (t : Fin cfg0.N) : Vec F S4x8x256 .f32 :=
  k0_pay3 (k0_pay6 (iblk m c 8 t)) (k0_pay7 (iblk m c 0 t)) (k0_pay8 (iblk m c 1 t)) (k0_pay9 (iblk m c 2 t)) (k0_pay10 (iblk m c 3 t)) (k0_pay11 (iblk m c 4 t)) (k0_pay12 (iblk m c 5 t)) (k0_pay13 (iblk m c 6 t)) (iblk m c 7 t)
/-- The point's voxel values' maxima along the third spatial axis. -/
def rowsZ (c : Dev nD) (t : Fin cfg0.N) : Vec F S4x8x256 .f32 :=
  k0_pay4 (k0_pay6 (iblk m c 8 t)) (k0_pay7 (iblk m c 0 t)) (k0_pay8 (iblk m c 1 t)) (k0_pay9 (iblk m c 2 t)) (k0_pay10 (iblk m c 3 t)) (k0_pay11 (iblk m c 4 t)) (k0_pay12 (iblk m c 5 t)) (k0_pay13 (iblk m c 6 t)) (iblk m c 7 t)

/-- The resident output after the body at position `n`: the first point starts from minus infinity, every later one
    from what the point before left (the buffer is written back only after the last point). -/
def accX (c : Dev nD) : (n : ℕ) → n < cfg0.N → Vec F S8x256x256 .f32
  | 0, h => stepX m c ⟨0, h⟩ (k0_pay5 (F := F))
  | n + 1, h => stepX m c ⟨n + 1, h⟩ (accX c n (Nat.lt_of_succ_lt h))

theorem accX_zero (c : Dev nD) (h : 0 < cfg0.N) : accX m c 0 h = stepX m c ⟨0, h⟩ (k0_pay5 (F := F)) := rfl
theorem accX_succ (c : Dev nD) (n : ℕ) (h : n + 1 < cfg0.N) :
    accX m c (n + 1) h = stepX m c ⟨n + 1, h⟩ (accX m c n (Nat.lt_of_succ_lt h)) := rfl

/-- The proof data of the one pipeline on core `c`: the arrays as the region finds them; after the body at point `t`
    each input's buffer at its block, the outputs' at the functions above; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => accX m c t.val t.isLt
    | ⟨10, _⟩ => rowsY m c t
    | ⟨11, _⟩ => rowsZ m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = accX m c t.val t.isLt := by dsimp only [dats]
theorem after0_10 (c : Dev nD) (t : Fin cfg0.N) : (dats m 0 c).after 10 t = rowsY m c t := by dsimp only [dats]
theorem after0_11 (c : Dev nD) (t : Fin cfg0.N) : (dats m 0 c).after 11 t = rowsZ m c t := by dsimp only [dats]

end Cert.Kernel.Fr

end
-- ==== Proof.KFrameKit.lean ====
/-
  The voxel program around its one region. The host lines before the region (three stretches) touch TensorCore
  references only and allocate nothing, so the program reduces to the region continued by the lines after it, at
  the contents the earlier lines leave. The later lines touch only the region's arrays and the buffers that bypass
  it, allocate nothing, and write no window's array. No host line writes an argument array, and no argument array
  is a window's array: each is found, and left, as launched. Every input window is fetched at every grid point,
  so its staging buffer holds the point's block when the body is called. The body's one branch, the reset of
  the resident output, is taken at the first grid point and nowhere else.
-/
import proofs.«163846_j35338990912022_1_alg».proof.Proof.KFrameDefs
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the three stretches of host lines, the region, and the last stretch: it reduces to the region
    continued by the last stretch, entered at the contents the first three leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch unscoped TensorCore references only; with nothing prefetched, those are exactly
    the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes its own result buffer only, and no result buffer of theirs is a window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays -/

set_option maxHeartbeats 4000000 in
/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host line after the region writes it, and it is no window's array: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host line after the region writes it, and it is no window's array: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host line after the region writes it, and it is no window's array: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The input windows at a point -/

theorem before0_0 (c : Dev nD) (t : Fin cfg0.N) (d) : (dats m 0 c).before 0 t d = iblk m c 0 t :=
  ((dats m 0 c).before_fetched 0 t (fetch0_0 t) d).trans
    (by unfold Dat.fetched Dat.blockOf iblk; rw [A_eq]; try rfl)
theorem before0_1 (c : Dev nD) (t : Fin cfg0.N) (d) : (dats m 0 c).before 1 t d = iblk m c 1 t :=
  ((dats m 0 c).before_fetched 1 t (fetch0_1 t) d).trans
    (by unfold Dat.fetched Dat.blockOf iblk; rw [A_eq]; try rfl)
theorem before0_2 (c : Dev nD) (t : Fin cfg0.N) (d) : (dats m 0 c).before 2 t d = iblk m c 2 t :=
  ((dats m 0 c).before_fetched 2 t (fetch0_2 t) d).trans
    (by unfold Dat.fetched Dat.blockOf iblk; rw [A_eq]; try rfl)
theorem before0_3 (c : Dev nD) (t : Fin cfg0.N) (d) : (dats m 0 c).before 3 t d = iblk m c 3 t :=
  ((dats m 0 c).before_fetched 3 t (fetch0_3 t) d).trans
    (by unfold Dat.fetched Dat.blockOf iblk; rw [A_eq]; try rfl)
theorem before0_4 (c : Dev nD) (t : Fin cfg0.N) (d) : (dats m 0 c).before 4 t d = iblk m c 4 t :=
  ((dats m 0 c).before_fetched 4 t (fetch0_4 t) d).trans
    (by unfold Dat.fetched Dat.blockOf iblk; rw [A_eq]; try rfl)
theorem before0_5 (c : Dev nD) (t : Fin cfg0.N) (d) : (dats m 0 c).before 5 t d = iblk m c 5 t :=
  ((dats m 0 c).before_fetched 5 t (fetch0_5 t) d).trans
    (by unfold Dat.fetched Dat.blockOf iblk; rw [A_eq]; try rfl)
theorem before0_6 (c : Dev nD) (t : Fin cfg0.N) (d) : (dats m 0 c).before 6 t d = iblk m c 6 t :=
  ((dats m 0 c).before_fetched 6 t (fetch0_6 t) d).trans
    (by unfold Dat.fetched Dat.blockOf iblk; rw [A_eq]; try rfl)
theorem before0_7 (c : Dev nD) (t : Fin cfg0.N) (d) : (dats m 0 c).before 7 t d = iblk m c 7 t :=
  ((dats m 0 c).before_fetched 7 t (fetch0_7 t) d).trans
    (by unfold Dat.fetched Dat.blockOf iblk; rw [A_eq]; try rfl)
theorem before0_8 (c : Dev nD) (t : Fin cfg0.N) (d) : (dats m 0 c).before 8 t d = iblk m c 8 t :=
  ((dats m 0 c).before_fetched 8 t (fetch0_8 t) d).trans
    (by unfold Dat.fetched Dat.blockOf iblk; rw [A_eq]; try rfl)

/-! ## A store of a whole block -/

/-- The three zero offsets, as a constant function. -/
theorem hz3 : (![0, 0, 0] : Fin 3 → Nat) = fun _ => 0 := by funext a; fin_cases a <;> rfl

/-- A buffer whose LAST write is a store of the whole block (the unit rectangle at zero offsets of the block's own
    sizes) reads as that store's payload, whatever it held and whatever was written before. -/
theorem read_last_whole {sg : RefSig} {κ : Kind} {sp : Space} {S : Shape} {e : EltTy} (v : View sg κ sp S e)
    (f : v.ty.Contents (Elt F)) {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero hz inb y⟩).trans
    (View.canon_cons_unit_zero hz inb w L)

/-! ## The body's branch -/

/-- The condition of the body's one branch (the reset of the resident output), from the grid coordinates. -/
abbrev cond0_0 (i : grid0.Coords) : Prop := (Scalar.cmpi .ne (Scalar.extui (Scalar.cmpi .eq (BitVec.ofNat 32 (i 0).val) 0#32)) 0#32) = 1#1
/-- It holds at the first of the 64 points only. -/
theorem hcond0_0 : ∀ t : Fin cfg0.N, cond0_0 (grid0.coords t) ↔ t.val % 64 = 0 :=
  (by decide +kernel : ∀ t : Fin grid0.N, cond0_0 (grid0.coords t) ↔ t.val % 64 = 0)

end Cert.Kernel.Fr

end
-- ==== Proof.KFrameRunA.lean ====
/-
  The voxel kernel's body at the FIRST grid point, on whole staging buffers. The branch is taken: the resident
  output is first stored with minus infinity; the nine input blocks are loaded; the resident output is loaded back
  (it reads the minus infinity just stored) and stored with its maximum against the block's maximum over the four
  planes; the two per-point outputs are stored with the block's row maxima. Each output's last store covers its
  whole block, so each ends at that store's value, whatever it held on entry; the inputs are only read.
-/
import proofs.«163846_j35338990912022_1_alg».proof.Proof.KFrameKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the reset condition holds: from the inputs' buffers at `x0 … x8` (the eight channel blocks, then
    the counts) and the outputs' at anything, to the inputs' as they were, the resident output at the join of minus
    infinity with the block's maximum, and the per-point outputs at the block's row maxima. -/
theorem kernelRun0_A (c : Dev nD) (i : grid0.Coords) (arg1 : Memref sig .tc .vmem S4x256x256 .f32) (harg1 : arg1.IsWhole) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S8x256x256 .f32) (harg10 : arg10.IsWhole) (arg11 : Memref sig .tc .vmem S4x8x256 .f32) (harg11 : arg11.IsWhole) (arg12 : Memref sig .tc .vmem S4x8x256 .f32) (harg12 : arg12.IsWhole) (hc0 : cond0_0 i)
    (x0 x1 x2 x3 x4 x5 x6 x7 x8 : Vec F S4x256x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay2 (k0_pay6 x8) (k0_pay7 x0) (k0_pay8 x1) (k0_pay9 x2) (k0_pay10 x3) (k0_pay11 x4) (k0_pay12 x5) (k0_pay13 x6) x7 (k0_pay5 (F := F)))
            ∗ owns (c : Thread nD τ) arg11 fullShare (k0_pay3 (k0_pay6 x8) (k0_pay7 x0) (k0_pay8 x1) (k0_pay9 x2) (k0_pay10 x3) (k0_pay11 x4) (k0_pay12 x5) (k0_pay13 x6) x7) ∗ owns (c : Thread nD τ) arg12 fullShare (k0_pay4 (k0_pay6 x8) (k0_pay7 x0) (k0_pay8 x1) (k0_pay9 x2) (k0_pay10 x3) (k0_pay11 x4) (k0_pay12 x5) (k0_pay13 x6) x7)) -∗ K ⟨⟩))
      ⊢ wp frame (wpE (defs₀ (F := F)) Variants.none c none) E (cc0__voxel_kernel i arg1 harg1 arg2 harg2 arg3 harg3 arg4 harg4 arg5 harg5 arg6 harg6 arg7 harg7 arg8 harg8 arg9 harg9 arg10 harg10 arg11 harg11 arg12 harg12) K := by
  simp only [cc0__voxel_kernel_eq_skeleton]; unfold cc0__voxel_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec (disch := first | exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr
    swap; · iexact H9
    ipureintro
    refine (read_last_whole _ _ hz3 _ _ _).trans ?_
    sl_unfold_words
    simp only [View.readAt_eq_ld, View.ld_unit_zero (S := S4x256x256) hz3, View.ld_unit_zero (S := S8x256x256) hz3, View.readCov_unit_zero (S := S8x256x256) _ hz3]
  isplitl [H10]
  · iexists _; isplitr
    swap; · iexact H10
    ipureintro
    refine (read_last_whole _ _ hz3 _ _ _).trans ?_
    sl_unfold_words
    simp only [View.readAt_eq_ld, View.ld_unit_zero (S := S4x256x256) hz3, View.ld_unit_zero (S := S8x256x256) hz3]
  · iexists _; isplitr
    swap; · iexact H11
    ipureintro
    refine (read_last_whole _ _ hz3 _ _ _).trans ?_
    sl_unfold_words
    simp only [View.readAt_eq_ld, View.ld_unit_zero (S := S4x256x256) hz3, View.ld_unit_zero (S := S8x256x256) hz3]

end Cert.Kernel.Fr

end
-- ==== Proof.KFrameRunB.lean ====
/-
  The voxel kernel's body at a grid point that is NOT the first, on whole staging buffers. The branch is not taken:
  the nine input blocks are loaded; the resident output is loaded (it reads what it held on entry, the running
  maximum) and stored with its maximum against the block's maximum over the four planes; the two per-point outputs
  are stored with the block's row maxima. Each output's one store covers its whole block; the inputs are only read.
-/
import proofs.«163846_j35338990912022_1_alg».proof.Proof.KFrameRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the reset condition fails: from the inputs' buffers at `x0 … x8` (the eight channel blocks, then
    the counts), the resident output's at `xo` and the per-point outputs' at anything, to the inputs' as they were, the
    resident output at the join of `xo` with the block's maximum, and the per-point outputs at the block's row maxima. -/
theorem kernelRun0_B (c : Dev nD) (i : grid0.Coords) (arg1 : Memref sig .tc .vmem S4x256x256 .f32) (harg1 : arg1.IsWhole) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S8x256x256 .f32) (harg10 : arg10.IsWhole) (arg11 : Memref sig .tc .vmem S4x8x256 .f32) (harg11 : arg11.IsWhole) (arg12 : Memref sig .tc .vmem S4x8x256 .f32) (harg12 : arg12.IsWhole) (hc0 : ¬cond0_0 i)
    (x0 x1 x2 x3 x4 x5 x6 x7 x8 : Vec F S4x256x256 .f32) (xo : Vec F S8x256x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay2 (k0_pay6 x8) (k0_pay7 x0) (k0_pay8 x1) (k0_pay9 x2) (k0_pay10 x3) (k0_pay11 x4) (k0_pay12 x5) (k0_pay13 x6) x7 xo)
            ∗ owns (c : Thread nD τ) arg11 fullShare (k0_pay3 (k0_pay6 x8) (k0_pay7 x0) (k0_pay8 x1) (k0_pay9 x2) (k0_pay10 x3) (k0_pay11 x4) (k0_pay12 x5) (k0_pay13 x6) x7) ∗ owns (c : Thread nD τ) arg12 fullShare (k0_pay4 (k0_pay6 x8) (k0_pay7 x0) (k0_pay8 x1) (k0_pay9 x2) (k0_pay10 x3) (k0_pay11 x4) (k0_pay12 x5) (k0_pay13 x6) x7)) -∗ K ⟨⟩))
      ⊢ wp frame (wpE (defs₀ (F := F)) Variants.none c none) E (cc0__voxel_kernel i arg1 harg1 arg2 harg2 arg3 harg3 arg4 harg4 arg5 harg5 arg6 harg6 arg7 harg7 arg8 harg8 arg9 harg9 arg10 harg10 arg11 harg11 arg12 harg12) K := by
  simp only [cc0__voxel_kernel_eq_skeleton]; unfold cc0__voxel_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec (disch := first | exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr
    swap; · iexact H9
    ipureintro
    refine (read_last_whole _ _ hz3 _ _ _).trans ?_
    sl_unfold_words
    simp only [View.readAt_eq_ld, View.ld_unit_zero (S := S4x256x256) hz3, View.ld_unit_zero (S := S8x256x256) hz3]
  isplitl [H10]
  · iexists _; isplitr
    swap; · iexact H10
    ipureintro
    refine (read_last_whole _ _ hz3 _ _ _).trans ?_
    sl_unfold_words
    simp only [View.readAt_eq_ld, View.ld_unit_zero (S := S4x256x256) hz3, View.ld_unit_zero (S := S8x256x256) hz3]
  · iexists _; isplitr
    swap; · iexact H11
    ipureintro
    refine (read_last_whole _ _ hz3 _ _ _).trans ?_
    sl_unfold_words
    simp only [View.readAt_eq_ld, View.ld_unit_zero (S := S4x256x256) hz3, View.ld_unit_zero (S := S8x256x256) hz3]

end Cert.Kernel.Fr

end
-- ==== Proof.KFrame.lean ====
/-
  The frame of the voxel program. At a grid point after the first the resident output's staging buffer holds what
  the body left at the point before (it is written back only after the last point), so the body there joins the
  running maximum with the point's block; at the first point the body starts it from minus infinity. With every
  input window at its block and the per-point outputs overwritten whole, the body's two cases give the body
  obligation at every point, and the launch theorem for host lines, one region, host lines gives the run: every
  window's array ends at what the write-backs leave, every other unscoped buffer at what the lines after the region
  leave from the region's entry contents. The argument arrays are among the latter and no line writes them.
-/
import proofs.«163846_j35338990912022_1_alg».proof.Proof.KFrameRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The resident output from point to point -/

/-- At the first point the resident output is started from minus infinity. -/
theorem accX_first (c : Dev nD) (t : Fin cfg0.N) (h0 : t.val % 64 = 0) :
    accX m c t.val t.isLt = stepX m c t (k0_pay5 (F := F)) := by
  have hN : t.val < 64 := lt_of_lt_of_eq t.isLt (show cfg0.N = 64 from N_0)
  obtain ⟨n, hn⟩ := t
  cases n with
  | zero => exact rfl
  | succ n => exact (by exfalso; dsimp only at h0 hN; omega)

/-- At a later point it is continued from what the point before left. -/
theorem accX_later (c : Dev nD) (t : Fin cfg0.N) (h0 : ¬t.val % 64 = 0) :
    accX m c t.val t.isLt = stepX m c t (accX m c (t.val - 1) (Nat.lt_of_le_of_lt (Nat.sub_le _ _) t.isLt)) := by
  obtain ⟨n, hn⟩ := t
  cases n with
  | zero => exact (by exfalso; dsimp only at h0; exact absurd (Nat.zero_mod _) h0)
  | succ n => exact rfl

/-- At a point after the first the resident output's staging buffer holds what the body left at the point before: the
    point before is not the last, so the buffer was not written back between; the window is never idle and its block
    is never cut. -/
theorem before0_9_later (c : Dev nD) (t : Fin cfg0.N) (h0 : ¬t.val % 64 = 0) (d) :
    (dats m 0 c).before 9 t d = accX m c (t.val - 1) (Nat.lt_of_le_of_lt (Nat.sub_le _ _) t.isLt) := by
  have hN : t.val < 64 := lt_of_lt_of_eq t.isLt (show cfg0.N = 64 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation at a point -/

/-- What the body is called with at point `t`: the region's invariant, nothing owed, and every window's current staging
    buffer whole at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it returns: the same, every buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1600000 in
/-- The body at any point. The inputs' buffers hold their blocks; the first point is the reset case, every other
    point the accumulating case with the resident output's buffer at the point before's result; the invariant and
    the owed counters pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  by_cases h0 : t.val % 64 = 0
  · rw [accX_first m c t h0]
    unfold stepX rowsY rowsZ
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (kernelRun0_A c (grid0.coords t) _ _ _ _ _ _ _ _ _ _ _ _ _ _ _ _ _ _ _ _ _ _ _ _ ((hcond0_0 t).mpr h0)
      (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [accX_later m c t h0]
    simp only [before0_9_later m c t h0]
    unfold stepX rowsY rowsZ
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (kernelRun0_B c (grid0.coords t) _ _ _ _ _ _ _ _ _ _ _ _ _ _ _ _ _ _ _ _ _ _ _ _ (fun h => h0 ((hcond0_0 t).mp h))
      (iblk m c 0 t) (iblk m c 1 t) (iblk m c 2 t) (iblk m c 3 t) (iblk m c 4 t) (iblk m c 5 t) (iblk m c 6 t) (iblk m c 7 t) (iblk m c 8 t) (accX m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of the program on the TensorCores terminates, and in
    every final state each window's array holds what its write-backs leave and every other unscoped buffer what the
    lines after the region compute from the region's exit contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## Reading the run's post -/

/-- Any unscoped buffer that is no window's array ends at what the lines after the region leave in it. -/
theorem mem_rest {r : PUnit × MemSt nD τ sig (Elt F)}
    (h : Pipeline.FramePost cfgs (dats m) 0 (Pipeline.afterTail₀ cfgs (dats m) 0 (V0 m) [hostOps1]) r) (c : Dev nD)
    (b : Ref sig .tc) (hs : b.isScoped = false) (ha : ∀ w, ((cfgs 0).spec w).arr.view.ref ≠ b) :
    r.2.mem ((c : Thread nD τ).loc b) = Pipeline.afterTail₀ cfgs (dats m) 0 (V0 m) [hostOps1] c b :=
  (h c).2 b (Pipeline.mem_restRefs_of b hs ha)

/-- The two results and the three arguments: the results at what the last stretch of host lines computes, the arguments
    as launched. -/
theorem post_rest {r : PUnit × MemSt nD τ sig (Elt F)}
    (h : Pipeline.FramePost cfgs (dats m) 0 (Pipeline.afterTail₀ cfgs (dats m) 0 (V0 m) [hostOps1]) r) (c : Dev nD) :
    r.2.mem ((c : Thread nD τ).loc main_v83) = Pipeline.afterTail₀ cfgs (dats m) 0 (V0 m) [hostOps1] c main_v83
    ∧ r.2.mem ((c : Thread nD τ).loc main_v84) = Pipeline.afterTail₀ cfgs (dats m) 0 (V0 m) [hostOps1] c main_v84
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨mem_rest m h c main_v83 (by decide) (by decide), mem_rest m h c main_v84 (by decide) (by decide),
    (mem_rest m h c main_arg0 (by decide) (by decide)).trans (W_main_arg0 m c),
    (mem_rest m h c main_arg1 (by decide) (by decide)).trans (W_main_arg1 m c),
    (mem_rest m h c main_arg2 (by decide) (by decide)).trans (W_main_arg2 m c)⟩

/-- THE FRAME: the program terminates without fault from any memory with zero counters, and its three argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(post_rest m h c).2.2.1, (post_rest m h c).2.2.2.1, (post_rest m h c).2.2.2.2⟩) (run_main m ρ)

end Cert.Kernel.Fr

end
-- ==== Proof.KIFrameDefs.lean ====
/-
  What the voxel kernel's body leaves in each window's staging buffer at each grid point, as pure functions of
  the arrays the region finds. The nine input windows (eight channel grids of sums and the grid of counts) are
  left as fetched: the point's block of four planes. Of the three outputs, the per-point ones hold the
  row maxima of the block's voxel values (along the second and the third spatial axis); the resident one holds
  the running maximum along the first axis: minus infinity joined with the first block's maximum at the first
  point, the previous point's contents joined with this block's maximum afterwards.
-/
import proofs.«163846_j35338990912022_1_alg».proof.Proof.Gen.KernelIdeal.Launch
import proofs.«163846_j35338990912022_1_alg».proof.Proof.Gen.KernelIdeal.Skeleton
import proofs.«163846_j35338990912022_1_alg».proof.Proof.Gen.KernelIdeal.Points
import Idealize.ShloMosaic.Lib.Pipeline.FrameSuffix
import Idealize.ShloMosaic.Lib.Pipeline.FrameBody

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the region is entered: after the host operations before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The resident output after point `t`, from what it held before: joined with the maximum of the point's voxel
    values along the block's four planes. -/
def stepX (c : Dev nD) (t : Fin cfg0.N) (prev : Vec F S8x256x256 .f32) : Vec F S8x256x256 .f32 :=
  k0_pay2 (k0_pay6 (iblk m c 8 t)) (k0_pay7 (iblk m c 0 t)) (k0_pay8 (iblk m c 1 t)) (k0_pay9 (iblk m c 2 t)) (k0_pay10 (iblk m c 3 t)) (k0_pay11 (iblk m c 4 t)) (k0_pay12 (iblk m c 5 t)) (k0_pay13 (iblk m c 6 t)) (iblk m c 7 t) prev
/-- The point's voxel values' maxima along the second spatial axis. -/
def rowsY (c : Dev nD) (t : Fin cfg0.N) : Vec F S4x8x256 .f32 :=
  k0_pay3 (k0_pay6 (iblk m c 8 t)) (k0_pay7 (iblk m c 0 t)) (k0_pay8 (iblk m c 1 t)) (k0_pay9 (iblk m c 2 t)) (k0_pay10 (iblk m c 3 t)) (k0_pay11 (iblk m c 4 t)) (k0_pay12 (iblk m c 5 t)) (k0_pay13 (iblk m c 6 t)) (iblk m c 7 t)
/-- The point's voxel values' maxima along the third spatial axis. -/
def rowsZ (c : Dev nD) (t : Fin cfg0.N) : Vec F S4x8x256 .f32 :=
  k0_pay4 (k0_pay6 (iblk m c 8 t)) (k0_pay7 (iblk m c 0 t)) (k0_pay8 (iblk m c 1 t)) (k0_pay9 (iblk m c 2 t)) (k0_pay10 (iblk m c 3 t)) (k0_pay11 (iblk m c 4 t)) (k0_pay12 (iblk m c 5 t)) (k0_pay13 (iblk m c 6 t)) (iblk m c 7 t)

/-- The resident output after the body at position `n`: the first point starts from minus infinity, every later one
    from what the point before left (the buffer is written back only after the last point). -/
def accX (c : Dev nD) : (n : ℕ) → n < cfg0.N → Vec F S8x256x256 .f32
  | 0, h => stepX m c ⟨0, h⟩ (k0_pay5 (F := F))
  | n + 1, h => stepX m c ⟨n + 1, h⟩ (accX c n (Nat.lt_of_succ_lt h))

theorem accX_zero (c : Dev nD) (h : 0 < cfg0.N) : accX m c 0 h = stepX m c ⟨0, h⟩ (k0_pay5 (F := F)) := rfl
theorem accX_succ (c : Dev nD) (n : ℕ) (h : n + 1 < cfg0.N) :
    accX m c (n + 1) h = stepX m c ⟨n + 1, h⟩ (accX m c n (Nat.lt_of_succ_lt h)) := rfl

/-- The proof data of the one pipeline on core `c`: the arrays as the region finds them; after the body at point `t`
    each input's buffer at its block, the outputs' at the functions above; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => accX m c t.val t.isLt
    | ⟨10, _⟩ => rowsY m c t
    | ⟨11, _⟩ => rowsZ m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = accX m c t.val t.isLt := by dsimp only [dats]
theorem after0_10 (c : Dev nD) (t : Fin cfg0.N) : (dats m 0 c).after 10 t = rowsY m c t := by dsimp only [dats]
theorem after0_11 (c : Dev nD) (t : Fin cfg0.N) : (dats m 0 c).after 11 t = rowsZ m c t := by dsimp only [dats]

end Cert.KernelIdeal.Fr

end
-- ==== Proof.KIFrameKit.lean ====
/-
  The voxel program around its one region. The host lines before the region (three stretches) touch TensorCore
  references only and allocate nothing, so the program reduces to the region continued by the lines after it, at
  the contents the earlier lines leave. The later lines touch only the region's arrays and the buffers that bypass
  it, allocate nothing, and write no window's array. No host line writes an argument array, and no argument array
  is a window's array: each is found, and left, as launched. Every input window is fetched at every grid point,
  so its staging buffer holds the point's block when the body is called. The body's one branch, the reset of
  the resident output, is taken at the first grid point and nowhere else.
-/
import proofs.«163846_j35338990912022_1_alg».proof.Proof.KIFrameDefs
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the three stretches of host lines, the region, and the last stretch: it reduces to the region
    continued by the last stretch, entered at the contents the first three leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch unscoped TensorCore references only; with nothing prefetched, those are exactly
    the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes its own result buffer only, and no result buffer of theirs is a window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays -/

set_option maxHeartbeats 4000000 in
/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host line after the region writes it, and it is no window's array: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host line after the region writes it, and it is no window's array: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host line after the region writes it, and it is no window's array: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The input windows at a point -/

theorem before0_0 (c : Dev nD) (t : Fin cfg0.N) (d) : (dats m 0 c).before 0 t d = iblk m c 0 t :=
  ((dats m 0 c).before_fetched 0 t (fetch0_0 t) d).trans
    (by unfold Dat.fetched Dat.blockOf iblk; rw [A_eq]; try rfl)
theorem before0_1 (c : Dev nD) (t : Fin cfg0.N) (d) : (dats m 0 c).before 1 t d = iblk m c 1 t :=
  ((dats m 0 c).before_fetched 1 t (fetch0_1 t) d).trans
    (by unfold Dat.fetched Dat.blockOf iblk; rw [A_eq]; try rfl)
theorem before0_2 (c : Dev nD) (t : Fin cfg0.N) (d) : (dats m 0 c).before 2 t d = iblk m c 2 t :=
  ((dats m 0 c).before_fetched 2 t (fetch0_2 t) d).trans
    (by unfold Dat.fetched Dat.blockOf iblk; rw [A_eq]; try rfl)
theorem before0_3 (c : Dev nD) (t : Fin cfg0.N) (d) : (dats m 0 c).before 3 t d = iblk m c 3 t :=
  ((dats m 0 c).before_fetched 3 t (fetch0_3 t) d).trans
    (by unfold Dat.fetched Dat.blockOf iblk; rw [A_eq]; try rfl)
theorem before0_4 (c : Dev nD) (t : Fin cfg0.N) (d) : (dats m 0 c).before 4 t d = iblk m c 4 t :=
  ((dats m 0 c).before_fetched 4 t (fetch0_4 t) d).trans
    (by unfold Dat.fetched Dat.blockOf iblk; rw [A_eq]; try rfl)
theorem before0_5 (c : Dev nD) (t : Fin cfg0.N) (d) : (dats m 0 c).before 5 t d = iblk m c 5 t :=
  ((dats m 0 c).before_fetched 5 t (fetch0_5 t) d).trans
    (by unfold Dat.fetched Dat.blockOf iblk; rw [A_eq]; try rfl)
theorem before0_6 (c : Dev nD) (t : Fin cfg0.N) (d) : (dats m 0 c).before 6 t d = iblk m c 6 t :=
  ((dats m 0 c).before_fetched 6 t (fetch0_6 t) d).trans
    (by unfold Dat.fetched Dat.blockOf iblk; rw [A_eq]; try rfl)
theorem before0_7 (c : Dev nD) (t : Fin cfg0.N) (d) : (dats m 0 c).before 7 t d = iblk m c 7 t :=
  ((dats m 0 c).before_fetched 7 t (fetch0_7 t) d).trans
    (by unfold Dat.fetched Dat.blockOf iblk; rw [A_eq]; try rfl)
theorem before0_8 (c : Dev nD) (t : Fin cfg0.N) (d) : (dats m 0 c).before 8 t d = iblk m c 8 t :=
  ((dats m 0 c).before_fetched 8 t (fetch0_8 t) d).trans
    (by unfold Dat.fetched Dat.blockOf iblk; rw [A_eq]; try rfl)

/-! ## A store of a whole block -/

/-- The three zero offsets, as a constant function. -/
theorem hz3 : (![0, 0, 0] : Fin 3 → Nat) = fun _ => 0 := by funext a; fin_cases a <;> rfl

/-- A buffer whose LAST write is a store of the whole block (the unit rectangle at zero offsets of the block's own
    sizes) reads as that store's payload, whatever it held and whatever was written before. -/
theorem read_last_whole {sg : RefSig} {κ : Kind} {sp : Space} {S : Shape} {e : EltTy} (v : View sg κ sp S e)
    (f : v.ty.Contents (Elt F)) {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero hz inb y⟩).trans
    (View.canon_cons_unit_zero hz inb w L)

/-! ## The body's branch -/

/-- The condition of the body's one branch (the reset of the resident output), from the grid coordinates. -/
abbrev cond0_0 (i : grid0.Coords) : Prop := (Scalar.cmpi .ne (Scalar.extui (Scalar.cmpi .eq (BitVec.ofNat 32 (i 0).val) 0#32)) 0#32) = 1#1
/-- It holds at the first of the 64 points only. -/
theorem hcond0_0 : ∀ t : Fin cfg0.N, cond0_0 (grid0.coords t) ↔ t.val % 64 = 0 :=
  (by decide +kernel : ∀ t : Fin grid0.N, cond0_0 (grid0.coords t) ↔ t.val % 64 = 0)

end Cert.KernelIdeal.Fr

end
-- ==== Proof.KIFrameRunA.lean ====
/-
  The voxel kernel's body at the FIRST grid point, on whole staging buffers. The branch is taken: the resident
  output is first stored with minus infinity; the nine input blocks are loaded; the resident output is loaded back
  (it reads the minus infinity just stored) and stored with its maximum against the block's maximum over the four
  planes; the two per-point outputs are stored with the block's row maxima. Each output's last store covers its
  whole block, so each ends at that store's value, whatever it held on entry; the inputs are only read.
-/
import proofs.«163846_j35338990912022_1_alg».proof.Proof.KIFrameKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the reset condition holds: from the inputs' buffers at `x0 … x8` (the eight channel blocks, then
    the counts) and the outputs' at anything, to the inputs' as they were, the resident output at the join of minus
    infinity with the block's maximum, and the per-point outputs at the block's row maxima. -/
theorem kernelRun0_A (c : Dev nD) (i : grid0.Coords) (arg1 : Memref sig .tc .vmem S4x256x256 .f32) (harg1 : arg1.IsWhole) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S8x256x256 .f32) (harg10 : arg10.IsWhole) (arg11 : Memref sig .tc .vmem S4x8x256 .f32) (harg11 : arg11.IsWhole) (arg12 : Memref sig .tc .vmem S4x8x256 .f32) (harg12 : arg12.IsWhole) (hc0 : cond0_0 i)
    (x0 x1 x2 x3 x4 x5 x6 x7 x8 : Vec F S4x256x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay2 (k0_pay6 x8) (k0_pay7 x0) (k0_pay8 x1) (k0_pay9 x2) (k0_pay10 x3) (k0_pay11 x4) (k0_pay12 x5) (k0_pay13 x6) x7 (k0_pay5 (F := F)))
            ∗ owns (c : Thread nD τ) arg11 fullShare (k0_pay3 (k0_pay6 x8) (k0_pay7 x0) (k0_pay8 x1) (k0_pay9 x2) (k0_pay10 x3) (k0_pay11 x4) (k0_pay12 x5) (k0_pay13 x6) x7) ∗ owns (c : Thread nD τ) arg12 fullShare (k0_pay4 (k0_pay6 x8) (k0_pay7 x0) (k0_pay8 x1) (k0_pay9 x2) (k0_pay10 x3) (k0_pay11 x4) (k0_pay12 x5) (k0_pay13 x6) x7)) -∗ K ⟨⟩))
      ⊢ wp frame (wpE (defs₀ (F := F)) Variants.none c none) E (cc0__voxel_kernel i arg1 harg1 arg2 harg2 arg3 harg3 arg4 harg4 arg5 harg5 arg6 harg6 arg7 harg7 arg8 harg8 arg9 harg9 arg10 harg10 arg11 harg11 arg12 harg12) K := by
  simp only [cc0__voxel_kernel_eq_skeleton]; unfold cc0__voxel_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec (disch := first | exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr
    swap; · iexact H9
    ipureintro
    refine (read_last_whole _ _ hz3 _ _ _).trans ?_
    sl_unfold_words
    simp only [View.readAt_eq_ld, View.ld_unit_zero (S := S4x256x256) hz3, View.ld_unit_zero (S := S8x256x256) hz3, View.readCov_unit_zero (S := S8x256x256) _ hz3]
  isplitl [H10]
  · iexists _; isplitr
    swap; · iexact H10
    ipureintro
    refine (read_last_whole _ _ hz3 _ _ _).trans ?_
    sl_unfold_words
    simp only [View.readAt_eq_ld, View.ld_unit_zero (S := S4x256x256) hz3, View.ld_unit_zero (S := S8x256x256) hz3]
  · iexists _; isplitr
    swap; · iexact H11
    ipureintro
    refine (read_last_whole _ _ hz3 _ _ _).trans ?_
    sl_unfold_words
    simp only [View.readAt_eq_ld, View.ld_unit_zero (S := S4x256x256) hz3, View.ld_unit_zero (S := S8x256x256) hz3]

end Cert.KernelIdeal.Fr

end
-- ==== Proof.KIFrameRunB.lean ====
/-
  The voxel kernel's body at a grid point that is NOT the first, on whole staging buffers. The branch is not taken:
  the nine input blocks are loaded; the resident output is loaded (it reads what it held on entry, the running
  maximum) and stored with its maximum against the block's maximum over the four planes; the two per-point outputs
  are stored with the block's row maxima. Each output's one store covers its whole block; the inputs are only read.
-/
import proofs.«163846_j35338990912022_1_alg».proof.Proof.KIFrameRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the reset condition fails: from the inputs' buffers at `x0 … x8` (the eight channel blocks, then
    the counts), the resident output's at `xo` and the per-point outputs' at anything, to the inputs' as they were, the
    resident output at the join of `xo` with the block's maximum, and the per-point outputs at the block's row maxima. -/
theorem kernelRun0_B (c : Dev nD) (i : grid0.Coords) (arg1 : Memref sig .tc .vmem S4x256x256 .f32) (harg1 : arg1.IsWhole) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S8x256x256 .f32) (harg10 : arg10.IsWhole) (arg11 : Memref sig .tc .vmem S4x8x256 .f32) (harg11 : arg11.IsWhole) (arg12 : Memref sig .tc .vmem S4x8x256 .f32) (harg12 : arg12.IsWhole) (hc0 : ¬cond0_0 i)
    (x0 x1 x2 x3 x4 x5 x6 x7 x8 : Vec F S4x256x256 .f32) (xo : Vec F S8x256x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay2 (k0_pay6 x8) (k0_pay7 x0) (k0_pay8 x1) (k0_pay9 x2) (k0_pay10 x3) (k0_pay11 x4) (k0_pay12 x5) (k0_pay13 x6) x7 xo)
            ∗ owns (c : Thread nD τ) arg11 fullShare (k0_pay3 (k0_pay6 x8) (k0_pay7 x0) (k0_pay8 x1) (k0_pay9 x2) (k0_pay10 x3) (k0_pay11 x4) (k0_pay12 x5) (k0_pay13 x6) x7) ∗ owns (c : Thread nD τ) arg12 fullShare (k0_pay4 (k0_pay6 x8) (k0_pay7 x0) (k0_pay8 x1) (k0_pay9 x2) (k0_pay10 x3) (k0_pay11 x4) (k0_pay12 x5) (k0_pay13 x6) x7)) -∗ K ⟨⟩))
      ⊢ wp frame (wpE (defs₀ (F := F)) Variants.none c none) E (cc0__voxel_kernel i arg1 harg1 arg2 harg2 arg3 harg3 arg4 harg4 arg5 harg5 arg6 harg6 arg7 harg7 arg8 harg8 arg9 harg9 arg10 harg10 arg11 harg11 arg12 harg12) K := by
  simp only [cc0__voxel_kernel_eq_skeleton]; unfold cc0__voxel_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec (disch := first | exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr
    swap; · iexact H9
    ipureintro
    refine (read_last_whole _ _ hz3 _ _ _).trans ?_
    sl_unfold_words
    simp only [View.readAt_eq_ld, View.ld_unit_zero (S := S4x256x256) hz3, View.ld_unit_zero (S := S8x256x256) hz3]
  isplitl [H10]
  · iexists _; isplitr
    swap; · iexact H10
    ipureintro
    refine (read_last_whole _ _ hz3 _ _ _).trans ?_
    sl_unfold_words
    simp only [View.readAt_eq_ld, View.ld_unit_zero (S := S4x256x256) hz3, View.ld_unit_zero (S := S8x256x256) hz3]
  · iexists _; isplitr
    swap; · iexact H11
    ipureintro
    refine (read_last_whole _ _ hz3 _ _ _).trans ?_
    sl_unfold_words
    simp only [View.readAt_eq_ld, View.ld_unit_zero (S := S4x256x256) hz3, View.ld_unit_zero (S := S8x256x256) hz3]

end Cert.KernelIdeal.Fr

end
-- ==== Proof.KIFrame.lean ====
/-
  The frame of the voxel program. At a grid point after the first the resident output's staging buffer holds what
  the body left at the point before (it is written back only after the last point), so the body there joins the
  running maximum with the point's block; at the first point the body starts it from minus infinity. With every
  input window at its block and the per-point outputs overwritten whole, the body's two cases give the body
  obligation at every point, and the launch theorem for host lines, one region, host lines gives the run: every
  window's array ends at what the write-backs leave, every other unscoped buffer at what the lines after the region
  leave from the region's entry contents. The argument arrays are among the latter and no line writes them.
-/
import proofs.«163846_j35338990912022_1_alg».proof.Proof.KIFrameRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The resident output from point to point -/

/-- At the first point the resident output is started from minus infinity. -/
theorem accX_first (c : Dev nD) (t : Fin cfg0.N) (h0 : t.val % 64 = 0) :
    accX m c t.val t.isLt = stepX m c t (k0_pay5 (F := F)) := by
  have hN : t.val < 64 := lt_of_lt_of_eq t.isLt (show cfg0.N = 64 from N_0)
  obtain ⟨n, hn⟩ := t
  cases n with
  | zero => exact rfl
  | succ n => exact (by exfalso; dsimp only at h0 hN; omega)

/-- At a later point it is continued from what the point before left. -/
theorem accX_later (c : Dev nD) (t : Fin cfg0.N) (h0 : ¬t.val % 64 = 0) :
    accX m c t.val t.isLt = stepX m c t (accX m c (t.val - 1) (Nat.lt_of_le_of_lt (Nat.sub_le _ _) t.isLt)) := by
  obtain ⟨n, hn⟩ := t
  cases n with
  | zero => exact (by exfalso; dsimp only at h0; exact absurd (Nat.zero_mod _) h0)
  | succ n => exact rfl

/-- At a point after the first the resident output's staging buffer holds what the body left at the point before: the
    point before is not the last, so the buffer was not written back between; the window is never idle and its block
    is never cut. -/
theorem before0_9_later (c : Dev nD) (t : Fin cfg0.N) (h0 : ¬t.val % 64 = 0) (d) :
    (dats m 0 c).before 9 t d = accX m c (t.val - 1) (Nat.lt_of_le_of_lt (Nat.sub_le _ _) t.isLt) := by
  have hN : t.val < 64 := lt_of_lt_of_eq t.isLt (show cfg0.N = 64 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation at a point -/

/-- What the body is called with at point `t`: the region's invariant, nothing owed, and every window's current staging
    buffer whole at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it returns: the same, every buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1600000 in
/-- The body at any point. The inputs' buffers hold their blocks; the first point is the reset case, every other
    point the accumulating case with the resident output's buffer at the point before's result; the invariant and
    the owed counters pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  by_cases h0 : t.val % 64 = 0
  · rw [accX_first m c t h0]
    unfold stepX rowsY rowsZ
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (kernelRun0_A c (grid0.coords t) _ _ _ _ _ _ _ _ _ _ _ _ _ _ _ _ _ _ _ _ _ _ _ _ ((hcond0_0 t).mpr h0)
      (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [accX_later m c t h0]
    simp only [before0_9_later m c t h0]
    unfold stepX rowsY rowsZ
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (kernelRun0_B c (grid0.coords t) _ _ _ _ _ _ _ _ _ _ _ _ _ _ _ _ _ _ _ _ _ _ _ _ (fun h => h0 ((hcond0_0 t).mp h))
      (iblk m c 0 t) (iblk m c 1 t) (iblk m c 2 t) (iblk m c 3 t) (iblk m c 4 t) (iblk m c 5 t) (iblk m c 6 t) (iblk m c 7 t) (iblk m c 8 t) (accX m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of the program on the TensorCores terminates, and in
    every final state each window's array holds what its write-backs leave and every other unscoped buffer what the
    lines after the region compute from the region's exit contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## Reading the run's post -/

/-- Any unscoped buffer that is no window's array ends at what the lines after the region leave in it. -/
theorem mem_rest {r : PUnit × MemSt nD τ sig (Elt F)}
    (h : Pipeline.FramePost cfgs (dats m) 0 (Pipeline.afterTail₀ cfgs (dats m) 0 (V0 m) [hostOps1]) r) (c : Dev nD)
    (b : Ref sig .tc) (hs : b.isScoped = false) (ha : ∀ w, ((cfgs 0).spec w).arr.view.ref ≠ b) :
    r.2.mem ((c : Thread nD τ).loc b) = Pipeline.afterTail₀ cfgs (dats m) 0 (V0 m) [hostOps1] c b :=
  (h c).2 b (Pipeline.mem_restRefs_of b hs ha)

/-- The two results and the three arguments: the results at what the last stretch of host lines computes, the arguments
    as launched. -/
theorem post_rest {r : PUnit × MemSt nD τ sig (Elt F)}
    (h : Pipeline.FramePost cfgs (dats m) 0 (Pipeline.afterTail₀ cfgs (dats m) 0 (V0 m) [hostOps1]) r) (c : Dev nD) :
    r.2.mem ((c : Thread nD τ).loc main_v83) = Pipeline.afterTail₀ cfgs (dats m) 0 (V0 m) [hostOps1] c main_v83
    ∧ r.2.mem ((c : Thread nD τ).loc main_v84) = Pipeline.afterTail₀ cfgs (dats m) 0 (V0 m) [hostOps1] c main_v84
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨mem_rest m h c main_v83 (by decide) (by decide), mem_rest m h c main_v84 (by decide) (by decide),
    (mem_rest m h c main_arg0 (by decide) (by decide)).trans (W_main_arg0 m c),
    (mem_rest m h c main_arg1 (by decide) (by decide)).trans (W_main_arg1 m c),
    (mem_rest m h c main_arg2 (by decide) (by decide)).trans (W_main_arg2 m c)⟩

/-- THE FRAME: the program terminates without fault from any memory with zero counters, and its three argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(post_rest m h c).2.2.1, (post_rest m h c).2.2.2.1, (post_rest m h c).2.2.2.2⟩) (run_main m ρ)

end Cert.KernelIdeal.Fr

end
-- ==== Proof.VoxelSpec.lean ====
/-
  The voxel grid and its three projections, as plain functions of the point cloud.

  A point `n` of the cloud falls in the voxel whose flat index is the signed value of its word `lin n`,
  when that value is a flat index of the 256 x 256 x 256 grid; otherwise it falls nowhere. `binSum` adds a
  per-point quantity over the points of one voxel; a voxel's value in channel `c` is the sum of the points'
  features over the larger of the point count and one; and each projection is the maximum of the voxel values
  along one spatial axis, taken from minus infinity. Both programs compute `viewMask` of these.
-/
import Idealize.ShloMosaic.PureOps.Ideal
import Idealize.ShloMosaic.Lib.ValueIdx

noncomputable section

namespace Cert.VoxelSpec

open Idealize.ShloMosaic Idealize.ShloMosaic.ValueIdx

/-- The points of the cloud. -/
abbrev SN : Shape := ⟨1, ![100000]⟩
/-- A point's eight features. -/
abbrev SN8 : Shape := ⟨2, ![100000, 8]⟩
/-- The result: three projections, eight channels, 256 x 256 each. -/
abbrev SOut : Shape := ⟨4, ![3, 8, 256, 256]⟩

/-- The float word of `1.0`, kept as its word. -/
abbrev one : EReal := Ideal.ofBits .f32 0x3F800000#32

/-- The voxel a point falls in: the signed value of its word when that is a flat index of the grid. -/
def cell (lin : SN.Idx → BitVec 32) (n : SN.Idx) : Option (Fin 16777216) :=
  if h : 0 ≤ (lin n).toInt ∧ (lin n).toInt < 16777216 then some ⟨(lin n).toInt.toNat, by omega⟩ else none

/-- The sum of `f` over the points that fall in voxel `v`. -/
def binSum (lin : SN.Idx → BitVec 32) (f : SN.Idx → EReal) (v : Fin 16777216) : EReal :=
  ∑ n ∈ Finset.univ.filter (fun n => cell lin n = some v), f n

/-- The flat index of the voxel at `(x, y, z)`. -/
def flat (x y z : Fin 256) : Fin 16777216 := ⟨x.val * 65536 + y.val * 256 + z.val, by omega⟩

/-- The grid as an array. -/
abbrev SG : Shape := ⟨3, ![256, 256, 256]⟩

/-- A voxel's value from the grids of per-channel sums and of counts: the sum over the larger of the count and one. -/
def voxOf (sums : Fin 8 → SG.Idx → EReal) (cnt : SG.Idx → EReal) (x : Fin 256) (c : Fin 8) (y z : Fin 256) : EReal :=
  Ideal.div (sums c (ix3 x y z)) (max (cnt (ix3 x y z)) one)

/-- Channel `c`'s grid of sums of the points' features. -/
def sumsOf (lin : SN.Idx → BitVec 32) (feats : SN8.Idx → EReal) (c : Fin 8) : SG.Idx → EReal :=
  fun i => binSum lin (fun n => feats (ix2 (n 0) c)) (flat (i 0) (i 1) (i 2))
/-- The grid of point counts (each point counted as the float one). -/
def cntOf (lin : SN.Idx → BitVec 32) : SG.Idx → EReal :=
  fun i => binSum lin (fun _ => one) (flat (i 0) (i 1) (i 2))

/-- The voxel's value in channel `c`: the mean of the features of the points in it (an empty voxel: zero over one). -/
def vox (lin : SN.Idx → BitVec 32) (feats : SN8.Idx → EReal) : Fin 256 → Fin 8 → Fin 256 → Fin 256 → EReal :=
  voxOf (sumsOf lin feats) (cntOf lin)

/-- The maximum along the first spatial axis. -/
def projX (v : Fin 256 → Fin 8 → Fin 256 → Fin 256 → EReal) (c : Fin 8) (y z : Fin 256) : EReal :=
  (Finset.univ : Finset (Fin 256)).fold max ⊥ (fun x => v x c y z)
/-- The maximum along the second spatial axis. -/
def projY (v : Fin 256 → Fin 8 → Fin 256 → Fin 256 → EReal) (c : Fin 8) (x z : Fin 256) : EReal :=
  (Finset.univ : Finset (Fin 256)).fold max ⊥ (fun y => v x c y z)
/-- The maximum along the third spatial axis. -/
def projZ (v : Fin 256 → Fin 8 → Fin 256 → Fin 256 → EReal) (c : Fin 8) (x y : Fin 256) : EReal :=
  (Finset.univ : Finset (Fin 256)).fold max ⊥ (fun z => v x c y z)

/-- The three projections stacked on a leading axis. -/
def viewMask (v : Fin 256 → Fin 8 → Fin 256 → Fin 256 → EReal) : SOut.Idx → EReal := fun i =>
  match i 0 with
  | ⟨0, _⟩ => projX v (i 1) (i 2) (i 3)
  | ⟨1, _⟩ => projY v (i 1) (i 2) (i 3)
  | ⟨2, _⟩ => projZ v (i 1) (i 2) (i 3)

end Cert.VoxelSpec

end
-- ==== Proof.KIGrids.lean ====
/-
  The nine grids the voxel kernel reads, as the region finds them: channel `ch`'s grid of feature sums and the
  grid of point counts, each a 256 x 256 x 256 array of extended reals.
-/
import proofs.«163846_j35338990912022_1_alg».proof.Proof.KIFrameDefs
import proofs.«163846_j35338990912022_1_alg».proof.Proof.VoxelSpec

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ)

/-- Channel `ch`'s grid of sums. -/
def sumsK (c : Dev nD) : Fin 8 → (Cert.VoxelSpec.SG.Idx → EReal)
  | ⟨0, _⟩ => Fr.V m c main_v29
  | ⟨1, _⟩ => Fr.V m c main_v35
  | ⟨2, _⟩ => Fr.V m c main_v41
  | ⟨3, _⟩ => Fr.V m c main_v47
  | ⟨4, _⟩ => Fr.V m c main_v53
  | ⟨5, _⟩ => Fr.V m c main_v59
  | ⟨6, _⟩ => Fr.V m c main_v65
  | ⟨7, _⟩ => Fr.V m c main_v71

/-- The grid of counts. -/
def cntK (c : Dev nD) : Cert.VoxelSpec.SG.Idx → EReal := Fr.V m c main_v76

end Cert.KernelIdeal.Val

end
-- ==== Proof.KIArraysBlock.lean ====
/-
  One grid point's block of voxel values, read at an index.

  At a grid point the body holds nine blocks of four planes: eight of per-channel sums and one of counts. It casts
  each to a block with a unit channel axis, joins the eight sum blocks along that axis, and divides by the larger
  of the count and one, spread over the eight channels. Read at plane `dx`, channel `ch`, row `y`, column `z`,
  the result is channel `ch`'s sum at `(dx, y, z)` over the larger of the count at `(dx, y, z)` and one.
-/
import proofs.«163846_j35338990912022_1_alg».proof.Proof.KIGrids
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.ValueIdx

/-- A block of four planes cast to one with a unit channel axis reads, at `(dx, 0, y, z)`, the block at `(dx, y, z)`:
    the two indices have the same row-major position. -/
theorem cast_unit_at (x : Vec Ideal S4x256x256 .f32) (h : S4x256x256.ShapeCasts S4x1x256x256)
    (dx : Fin 4) (u : Fin 1) (y z : Fin 256) :
    shapeCast S4x1x256x256 x h (ix4 dx u y z) = x (ix3 dx y z) := by
  refine shapeCast_apply x h _ _ ?_
  rw [Shape.rowMajor_val_three, Shape.rowMajor_val_four]
  have hu : u.val = 0 := by omega
  show ((dx.val * 256 + y.val) * 256 + z.val) = (((dx.val * 1 + u.val) * 256 + y.val) * 256 + z.val)
  rw [hu]; omega

/-- The re-laid block: the identity cast followed by the cast that adds the unit channel axis. -/
theorem relay_at (x : Vec Ideal S4x256x256 .f32) (h0 : S4x256x256.ShapeCasts S4x256x256) (h : S4x256x256.ShapeCasts S4x1x256x256)
    (dx : Fin 4) (u : Fin 1) (y z : Fin 256) :
    shapeCast S4x1x256x256 (shapeCast S4x256x256 x h0) h (ix4 dx u y z) = x (ix3 dx y z) := by
  rw [shapeCast_self]
  exact cast_unit_at x h dx u y z

/-- One of eight things, by channel. -/
def pick8 {α : Type} (a0 a1 a2 a3 a4 a5 a6 a7 : α) : Fin 8 → α
  | ⟨0, _⟩ => a0 | ⟨1, _⟩ => a1 | ⟨2, _⟩ => a2 | ⟨3, _⟩ => a3
  | ⟨4, _⟩ => a4 | ⟨5, _⟩ => a5 | ⟨6, _⟩ => a6 | ⟨7, _⟩ => a7

/-- The eight blocks as the list the join takes. -/
abbrev pieces8 (v0 v1 v2 v3 v4 v5 v6 v7 : FVec Ideal S4x1x256x256 .f32) : List ((s : Shape) × (s.Idx → Ideal .f32)) :=
  [⟨S4x1x256x256, v0⟩, ⟨S4x1x256x256, v1⟩, ⟨S4x1x256x256, v2⟩, ⟨S4x1x256x256, v3⟩, ⟨S4x1x256x256, v4⟩, ⟨S4x1x256x256, v5⟩, ⟨S4x1x256x256, v6⟩, ⟨S4x1x256x256, v7⟩]

/-- Eight blocks with a unit channel axis joined along that axis: at channel `ch` the join reads block `ch`
    (the blocks before it take up `ch` channels, one each). -/
theorem concat8_at (v0 v1 v2 v3 v4 v5 v6 v7 : FVec Ideal S4x1x256x256 .f32)
    (h : Shape.Concatenates [S4x1x256x256, S4x1x256x256, S4x1x256x256, S4x1x256x256, S4x1x256x256, S4x1x256x256, S4x1x256x256, S4x1x256x256] S4x8x256x256 1)
    (dx : Fin 4) (ch : Fin 8) (y z : Fin 256) :
    concatenate S4x8x256x256 1 [⟨S4x1x256x256, v0⟩, ⟨S4x1x256x256, v1⟩, ⟨S4x1x256x256, v2⟩, ⟨S4x1x256x256, v3⟩, ⟨S4x1x256x256, v4⟩, ⟨S4x1x256x256, v5⟩, ⟨S4x1x256x256, v6⟩, ⟨S4x1x256x256, v7⟩] h (ix4 dx ch y z)
      = pick8 v0 v1 v2 v3 v4 v5 v6 v7 ch (ix4 dx (0 : Fin 1) y z) := by
  have hi : ∀ b : Fin S4x1x256x256.rank, b.cast (rfl : S4x1x256x256.rank = S4x8x256x256.rank) ≠ (1 : Fin S4x8x256x256.rank) →
      ((ix4 dx (0 : Fin 1) y z : S4x1x256x256.Idx) b).val = ((ix4 dx ch y z : S4x8x256x256.Idx) (b.cast rfl)).val := by
    intro b hb
    match b with
    | ⟨0, _⟩ => rfl
    | ⟨1, _⟩ => exact absurd rfl hb
    | ⟨2, _⟩ => rfl
    | ⟨3, _⟩ => rfl
  match ch with
  | ⟨0, _⟩ => exact concatenate_apply_piece (t := S4x8x256x256) 1 (pieces8 v0 v1 v2 v3 v4 v5 v6 v7) h _ 0 (show 0 < 8 by decide) S4x1x256x256 v0 rfl rfl 0 rfl (ix4 dx (0 : Fin 1) y z) hi rfl
  | ⟨1, _⟩ => exact concatenate_apply_piece (t := S4x8x256x256) 1 (pieces8 v0 v1 v2 v3 v4 v5 v6 v7) h _ 1 (show 1 < 8 by decide) S4x1x256x256 v1 rfl rfl 1 rfl (ix4 dx (0 : Fin 1) y z) hi rfl
  | ⟨2, _⟩ => exact concatenate_apply_piece (t := S4x8x256x256) 1 (pieces8 v0 v1 v2 v3 v4 v5 v6 v7) h _ 2 (show 2 < 8 by decide) S4x1x256x256 v2 rfl rfl 2 rfl (ix4 dx (0 : Fin 1) y z) hi rfl
  | ⟨3, _⟩ => exact concatenate_apply_piece (t := S4x8x256x256) 1 (pieces8 v0 v1 v2 v3 v4 v5 v6 v7) h _ 3 (show 3 < 8 by decide) S4x1x256x256 v3 rfl rfl 3 rfl (ix4 dx (0 : Fin 1) y z) hi rfl
  | ⟨4, _⟩ => exact concatenate_apply_piece (t := S4x8x256x256) 1 (pieces8 v0 v1 v2 v3 v4 v5 v6 v7) h _ 4 (show 4 < 8 by decide) S4x1x256x256 v4 rfl rfl 4 rfl (ix4 dx (0 : Fin 1) y z) hi rfl
  | ⟨5, _⟩ => exact concatenate_apply_piece (t := S4x8x256x256) 1 (pieces8 v0 v1 v2 v3 v4 v5 v6 v7) h _ 5 (show 5 < 8 by decide) S4x1x256x256 v5 rfl rfl 5 rfl (ix4 dx (0 : Fin 1) y z) hi rfl
  | ⟨6, _⟩ => exact concatenate_apply_piece (t := S4x8x256x256) 1 (pieces8 v0 v1 v2 v3 v4 v5 v6 v7) h _ 6 (show 6 < 8 by decide) S4x1x256x256 v6 rfl rfl 6 rfl (ix4 dx (0 : Fin 1) y z) hi rfl
  | ⟨7, _⟩ => exact concatenate_apply_piece (t := S4x8x256x256) 1 (pieces8 v0 v1 v2 v3 v4 v5 v6 v7) h _ 7 (show 7 < 8 by decide) S4x1x256x256 v7 rfl rfl 7 rfl (ix4 dx (0 : Fin 1) y z) hi rfl

/-- The counts' block spread over the eight channels reads, at any channel, its own entry at channel 0. -/
theorem bcast8_at (v : FVec Ideal S4x1x256x256 .f32) (h : S4x1x256x256.Broadcasts S4x8x256x256)
    (dx : Fin 4) (ch : Fin 8) (y z : Fin 256) :
    broadcastTo S4x8x256x256 v h (ix4 dx ch y z) = v (ix4 dx (0 : Fin 1) y z) := by
  refine broadcastTo_apply v h _ _ ?_
  intro a
  match a with
  | ⟨0, _⟩ => rfl
  | ⟨1, _⟩ => rfl
  | ⟨2, _⟩ => rfl
  | ⟨3, _⟩ => rfl

/-- The larger of the count and one, re-laid with the unit channel axis, at an index. -/
theorem pay6_at (x8 : Vec Ideal S4x256x256 .f32) (dx : Fin 4) (u : Fin 1) (y z : Fin 256) :
    k0_pay6 x8 (ix4 dx u y z) = max (x8 (ix3 dx y z)) Cert.VoxelSpec.one := by
  unfold k0_pay6
  refine (cast_unit_at _ _ dx u y z).trans ?_
  rw [maximumf_apply, shapeCast_self, broadcast_apply]
  rfl

/-- A channel's block of sums, re-laid with the unit channel axis, at an index (seven of the eight are named payloads). -/
theorem pay7_at (x : Vec Ideal S4x256x256 .f32) (dx : Fin 4) (u : Fin 1) (y z : Fin 256) :
    k0_pay7 x (ix4 dx u y z) = x (ix3 dx y z) := by
  unfold k0_pay7; exact relay_at x _ _ dx u y z
theorem pay8_at (x : Vec Ideal S4x256x256 .f32) (dx : Fin 4) (u : Fin 1) (y z : Fin 256) :
    k0_pay8 x (ix4 dx u y z) = x (ix3 dx y z) := by
  unfold k0_pay8; exact relay_at x _ _ dx u y z
theorem pay9_at (x : Vec Ideal S4x256x256 .f32) (dx : Fin 4) (u : Fin 1) (y z : Fin 256) :
    k0_pay9 x (ix4 dx u y z) = x (ix3 dx y z) := by
  unfold k0_pay9; exact relay_at x _ _ dx u y z
theorem pay10_at (x : Vec Ideal S4x256x256 .f32) (dx : Fin 4) (u : Fin 1) (y z : Fin 256) :
    k0_pay10 x (ix4 dx u y z) = x (ix3 dx y z) := by
  unfold k0_pay10; exact relay_at x _ _ dx u y z
theorem pay11_at (x : Vec Ideal S4x256x256 .f32) (dx : Fin 4) (u : Fin 1) (y z : Fin 256) :
    k0_pay11 x (ix4 dx u y z) = x (ix3 dx y z) := by
  unfold k0_pay11; exact relay_at x _ _ dx u y z
theorem pay12_at (x : Vec Ideal S4x256x256 .f32) (dx : Fin 4) (u : Fin 1) (y z : Fin 256) :
    k0_pay12 x (ix4 dx u y z) = x (ix3 dx y z) := by
  unfold k0_pay12; exact relay_at x _ _ dx u y z
theorem pay13_at (x : Vec Ideal S4x256x256 .f32) (dx : Fin 4) (u : Fin 1) (y z : Fin 256) :
    k0_pay13 x (ix4 dx u y z) = x (ix3 dx y z) := by
  unfold k0_pay13; exact relay_at x _ _ dx u y z

/-- THE BLOCK OF VOXEL VALUES at an index: channel `ch`'s sum over the larger of the count and one, both at
    `(dx, y, z)` of their blocks. -/
theorem pay1_at (x8 x0 x1 x2 x3 x4 x5 x6 x7 : Vec Ideal S4x256x256 .f32) (dx : Fin 4) (ch : Fin 8) (y z : Fin 256) :
    k0_pay1 (k0_pay6 x8) (k0_pay7 x0) (k0_pay8 x1) (k0_pay9 x2) (k0_pay10 x3) (k0_pay11 x4) (k0_pay12 x5) (k0_pay13 x6) x7 (ix4 dx ch y z)
      = Ideal.div (pick8 x0 x1 x2 x3 x4 x5 x6 x7 ch (ix3 dx y z)) (max (x8 (ix3 dx y z)) Cert.VoxelSpec.one) := by
  unfold k0_pay1
  refine congrArg₂ Ideal.div ?_ ?_
  · refine (concat8_at _ _ _ _ _ _ _ _ _ dx ch y z).trans ?_
    match ch with
    | ⟨0, _⟩ => exact pay7_at x0 dx 0 y z
    | ⟨1, _⟩ => exact pay8_at x1 dx 0 y z
    | ⟨2, _⟩ => exact pay9_at x2 dx 0 y z
    | ⟨3, _⟩ => exact pay10_at x3 dx 0 y z
    | ⟨4, _⟩ => exact pay11_at x4 dx 0 y z
    | ⟨5, _⟩ => exact pay12_at x5 dx 0 y z
    | ⟨6, _⟩ => exact pay13_at x6 dx 0 y z
    | ⟨7, _⟩ => exact relay_at x7 _ _ dx 0 y z
  · exact (bcast8_at _ _ dx ch y z).trans (pay6_at x8 dx 0 y z)

end Cert.KernelIdeal.Val

end
-- ==== Proof.KIArraysRows.lean ====
/-
  One grid point's three maxima of its block of voxel values, read at an index.

  The body reduces the block of voxel values (four planes, eight channels, 256 rows, 256 columns) by maximum along
  the rows, along the columns, and along the four planes; the last is joined with what the resident output held.
  Each one-axis reduction is the fold of `max` over that axis's coordinates, from minus infinity.
-/
import proofs.«163846_j35338990912022_1_alg».proof.Proof.KIArraysBlock

noncomputable section

namespace Cert.KernelIdeal.Val

open Cert.KernelIdeal Cert.KernelIdeal.Gen Idealize.ShloMosaic Idealize.ShloMosaic.TcCoe Idealize.SL.Sem
open Idealize.ShloMosaic.ValueIdx

/-- The reductions' start word is minus infinity. -/
theorem neg_inf_word : FloatOps.ofBits (F := Ideal) .f32 0xFF800000#32 = (⊥ : EReal) := by
  show Ideal.ofBits .f32 0xFF800000#32 = ⊥
  simp [Ideal.ofBits, Ideal.ieee]

/-- Two folds of `max` over the same coordinates agree when their starts and their terms do. -/
theorem fold_max_congr {n : Nat} (b b' : EReal) (f g : Fin n → EReal) (hb : b = b') (hfg : ∀ k, f k = g k) :
    (Finset.univ : Finset (Fin n)).fold max b f = (Finset.univ : Finset (Fin n)).fold max b' g := by
  subst hb
  exact congrArg (fun F => (Finset.univ : Finset (Fin n)).fold max b F) (funext hfg)

/-- The maxima along the rows, at plane `dx`, channel `ch`, column `z`. -/
theorem pay3_at (x8 x0 x1 x2 x3 x4 x5 x6 x7 : Vec Ideal S4x256x256 .f32) (dx : Fin 4) (ch : Fin 8) (z : Fin 256) :
    k0_pay3 (k0_pay6 x8) (k0_pay7 x0) (k0_pay8 x1) (k0_pay9 x2) (k0_pay10 x3) (k0_pay11 x4) (k0_pay12 x5) (k0_pay13 x6) x7 (ix3 dx ch z)
      = (Finset.univ : Finset (Fin 256)).fold max ⊥ (fun y => Ideal.div (pick8 x0 x1 x2 x3 x4 x5 x6 x7 ch (ix3 dx y z)) (max (x8 (ix3 dx y z)) Cert.VoxelSpec.one)) := by
  unfold k0_pay3
  refine (Ideal.multiReduction_maximumf_single _ _ _ _ _ (ix3 dx ch z)).trans ?_
  refine fold_max_congr (n := 256) _ _ _ _ neg_inf_word (fun y => ?_)
  have e : reduces_S4x8x256x256_S4x8x256.lift (ix3 dx ch z) y = ix4 dx ch y z := funext fun a => by
    match a with
    | ⟨0, _⟩ => rfl
    | ⟨1, _⟩ => rfl
    | ⟨2, _⟩ => rfl
    | ⟨3, _⟩ => rfl
  show k0_pay1 (k0_pay6 x8) (k0_pay7 x0) (k0_pay8 x1) (k0_pay9 x2) (k0_pay10 x3) (k0_pay11 x4) (k0_pay12 x5) (k0_pay13 x6) x7 (reduces_S4x8x256x256_S4x8x256.lift (ix3 dx ch z) y) = _
  rw [e]
  exact pay1_at x8 x0 x1 x2 x3 x4 x5 x6 x7 dx ch y z

/-- The maxima along the columns, at plane `dx`, channel `ch`, row `y`. -/
theorem pay4_at (x8 x0 x1 x2 x3 x4 x5 x6 x7 : Vec Ideal S4x256x256 .f32) (dx : Fin 4) (ch : Fin 8) (y : Fin 256) :
    k0_pay4 (k0_pay6 x8) (k0_pay7 x0) (k0_pay8 x1) (k0_pay9 x2) (k0_pay10 x3) (k0_pay11 x4) (k0_pay12 x5) (k0_pay13 x6) x7 (ix3 dx ch y)
      = (Finset.univ : Finset (Fin 256)).fold max ⊥ (fun z => Ideal.div (pick8 x0 x1 x2 x3 x4 x5 x6 x7 ch (ix3 dx y z)) (max (x8 (ix3 dx y z)) Cert.VoxelSpec.one)) := by
  unfold k0_pay4
  refine (Ideal.multiReduction_maximumf_single _ _ _ _ _ (ix3 dx ch y)).trans ?_
  refine fold_max_congr (n := 256) _ _ _ _ neg_inf_word (fun z => ?_)
  have e : reduces_S4x8x256x256_S4x8x256_2.lift (ix3 dx ch y) z = ix4 dx ch y z := funext fun a => by
    match a with
    | ⟨0, _⟩ => rfl
    | ⟨1, _⟩ => rfl
    | ⟨2, _⟩ => rfl
    | ⟨3, _⟩ => rfl
  show k0_pay1 (k0_pay6 x8) (k0_pay7 x0) (k0_pay8 x1) (k0_pay9 x2) (k0_pay10 x3) (k0_pay11 x4) (k0_pay12 x5) (k0_pay13 x6) x7 (reduces_S4x8x256x256_S4x8x256_2.lift (ix3 dx ch y) z) = _
  rw [e]
  exact pay1_at x8 x0 x1 x2 x3 x4 x5 x6 x7 dx ch y z

/-- The resident output after the body: what it held, joined with the maximum over the block's four planes, at
    channel `ch`, row `y`, column `z`. -/
theorem pay2_at (x8 x0 x1 x2 x3 x4 x5 x6 x7 : Vec Ideal S4x256x256 .f32) (prev : Vec Ideal S8x256x256 .f32)
    (ch : Fin 8) (y z : Fin 256) :
    k0_pay2 (k0_pay6 x8) (k0_pay7 x0) (k0_pay8 x1) (k0_pay9 x2) (k0_pay10 x3) (k0_pay11 x4) (k0_pay12 x5) (k0_pay13 x6) x7 prev (ix3 ch y z)
      = max (prev (ix3 ch y z)) ((Finset.univ : Finset (Fin 4)).fold max ⊥ (fun dx => Ideal.div (pick8 x0 x1 x2 x3 x4 x5 x6 x7 ch (ix3 dx y z)) (max (x8 (ix3 dx y z)) Cert.VoxelSpec.one))) := by
  unfold k0_pay2
  refine congrArg₂ max ?_ ?_
  · exact congrFun (shapeCast_self prev _) (ix3 ch y z)
  · refine (Ideal.multiReduction_maximumf_single _ _ _ _ _ (ix3 ch y z)).trans ?_
    refine fold_max_congr (n := 4) _ _ _ _ neg_inf_word (fun dx => ?_)
    have e : reduces_S4x8x256x256_S8x256x256.lift (ix3 ch y z) dx = ix4 dx ch y z := funext fun a => by
      match a with
      | ⟨0, _⟩ => rfl
      | ⟨1, _⟩ => rfl
      | ⟨2, _⟩ => rfl
      | ⟨3, _⟩ => rfl
    show k0_pay1 (k0_pay6 x8) (k0_pay7 x0) (k0_pay8 x1) (k0_pay9 x2) (k0_pay10 x3) (k0_pay11 x4) (k0_pay12 x5) (k0_pay13 x6) x7 (reduces_S4x8x256x256_S8x256x256.lift (ix3 ch y z) dx) = _
    rw [e]
    exact pay1_at x8 x0 x1 x2 x3 x4 x5 x6 x7 dx ch y z

/-- The reset value of the resident output: minus infinity everywhere. -/
theorem pay5_at (i : S8x256x256.Idx) : (k0_pay5 (F := Ideal)) i = (⊥ : EReal) := by
  unfold k0_pay5
  exact neg_inf_word

end Cert.KernelIdeal.Val

end
-- ==== Proof.KIArraysIn.lean ====
/-
  The nine input windows' blocks, read at an index.

  Every input window's index map sends grid point `t` to block `(t, 0, 0)` of four planes, so entry
  `(dx, y, z)` of the block at point `t` is entry `(4 t + dx, y, z)` of the window's array.
-/
import proofs.«163846_j35338990912022_1_alg».proof.Proof.KIGrids
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The grid has 64 points, so four planes per point stay inside the 256. -/
theorem plane_lt (t : Fin cfg0.N) (dx : Fin 4) : 4 * t.val + dx.val < 256 := by
  have hN : cfg0.N = 64 := N_0
  have := t.isLt
  omega

/-- The plane of the grid that plane `dx` of point `t`'s block is. -/
abbrev plane (t : Fin cfg0.N) (dx : Fin 4) : Fin 256 := ⟨4 * t.val + dx.val, plane_lt t dx⟩

/-- Window 0's index map, decided over the grid: block `(t, 0, 0)`. -/
theorem idx_in0 : ∀ t : Fin cfg0.N, win0_0.index t 0 = t.val ∧ win0_0.index t 1 = 0 ∧ win0_0.index t 2 = 0 :=
  (by decide +kernel : ∀ t : Fin grid0.N, _)

/-- Window 0's block at point `t`, at `(dx, y, z)`, is its array at `(4 t + dx, y, z)`. -/
theorem iblk0_at (c : Dev nD) (t : Fin cfg0.N) (dx : Fin 4) (y z : Fin 256) :
    (Fr.iblk m c 0 t : Vec Ideal S4x256x256 .f32) (ix3 dx y z)
      = (Fr.V m c main_v29 : S256x256x256.Idx → EReal) (ix3 (plane t dx) y z) := by
  obtain ⟨e0, e1, e2⟩ := idx_in0 t
  unfold Fr.iblk
  rw [View.read_apply]
  show Fr.V m c main_v29 (((cfg0.win 0).blk t).view.emb (ix3 dx y z)) = _
  refine congrArg _ (funext fun a => Fin.ext ?_)
  match a with
  | ⟨0, _⟩ => show win0_0.index t 0 * 4 + 1 * dx.val = 4 * t.val + dx.val; rw [e0]; omega
  | ⟨1, _⟩ => show win0_0.index t 1 * 256 + 1 * y.val = y.val; rw [e1]; omega
  | ⟨2, _⟩ => show win0_0.index t 2 * 256 + 1 * z.val = z.val; rw [e2]; omega

/-- Window 1's index map, decided over the grid: block `(t, 0, 0)`. -/
theorem idx_in1 : ∀ t : Fin cfg0.N, win0_1.index t 0 = t.val ∧ win0_1.index t 1 = 0 ∧ win0_1.index t 2 = 0 :=
  (by decide +kernel : ∀ t : Fin grid0.N, _)

/-- Window 1's block at point `t`, at `(dx, y, z)`, is its array at `(4 t + dx, y, z)`. -/
theorem iblk1_at (c : Dev nD) (t : Fin cfg0.N) (dx : Fin 4) (y z : Fin 256) :
    (Fr.iblk m c 1 t : Vec Ideal S4x256x256 .f32) (ix3 dx y z)
      = (Fr.V m c main_v35 : S256x256x256.Idx → EReal) (ix3 (plane t dx) y z) := by
  obtain ⟨e0, e1, e2⟩ := idx_in1 t
  unfold Fr.iblk
  rw [View.read_apply]
  show Fr.V m c main_v35 (((cfg0.win 1).blk t).view.emb (ix3 dx y z)) = _
  refine congrArg _ (funext fun a => Fin.ext ?_)
  match a with
  | ⟨0, _⟩ => show win0_1.index t 0 * 4 + 1 * dx.val = 4 * t.val + dx.val; rw [e0]; omega
  | ⟨1, _⟩ => show win0_1.index t 1 * 256 + 1 * y.val = y.val; rw [e1]; omega
  | ⟨2, _⟩ => show win0_1.index t 2 * 256 + 1 * z.val = z.val; rw [e2]; omega

/-- Window 2's index map, decided over the grid: block `(t, 0, 0)`. -/
theorem idx_in2 : ∀ t : Fin cfg0.N, win0_2.index t 0 = t.val ∧ win0_2.index t 1 = 0 ∧ win0_2.index t 2 = 0 :=
  (by decide +kernel : ∀ t : Fin grid0.N, _)

/-- Window 2's block at point `t`, at `(dx, y, z)`, is its array at `(4 t + dx, y, z)`. -/
theorem iblk2_at (c : Dev nD) (t : Fin cfg0.N) (dx : Fin 4) (y z : Fin 256) :
    (Fr.iblk m c 2 t : Vec Ideal S4x256x256 .f32) (ix3 dx y z)
      = (Fr.V m c main_v41 : S256x256x256.Idx → EReal) (ix3 (plane t dx) y z) := by
  obtain ⟨e0, e1, e2⟩ := idx_in2 t
  unfold Fr.iblk
  rw [View.read_apply]
  show Fr.V m c main_v41 (((cfg0.win 2).blk t).view.emb (ix3 dx y z)) = _
  refine congrArg _ (funext fun a => Fin.ext ?_)
  match a with
  | ⟨0, _⟩ => show win0_2.index t 0 * 4 + 1 * dx.val = 4 * t.val + dx.val; rw [e0]; omega
  | ⟨1, _⟩ => show win0_2.index t 1 * 256 + 1 * y.val = y.val; rw [e1]; omega
  | ⟨2, _⟩ => show win0_2.index t 2 * 256 + 1 * z.val = z.val; rw [e2]; omega

/-- Window 3's index map, decided over the grid: block `(t, 0, 0)`. -/
theorem idx_in3 : ∀ t : Fin cfg0.N, win0_3.index t 0 = t.val ∧ win0_3.index t 1 = 0 ∧ win0_3.index t 2 = 0 :=
  (by decide +kernel : ∀ t : Fin grid0.N, _)

/-- Window 3's block at point `t`, at `(dx, y, z)`, is its array at `(4 t + dx, y, z)`. -/
theorem iblk3_at (c : Dev nD) (t : Fin cfg0.N) (dx : Fin 4) (y z : Fin 256) :
    (Fr.iblk m c 3 t : Vec Ideal S4x256x256 .f32) (ix3 dx y z)
      = (Fr.V m c main_v47 : S256x256x256.Idx → EReal) (ix3 (plane t dx) y z) := by
  obtain ⟨e0, e1, e2⟩ := idx_in3 t
  unfold Fr.iblk
  rw [View.read_apply]
  show Fr.V m c main_v47 (((cfg0.win 3).blk t).view.emb (ix3 dx y z)) = _
  refine congrArg _ (funext fun a => Fin.ext ?_)
  match a with
  | ⟨0, _⟩ => show win0_3.index t 0 * 4 + 1 * dx.val = 4 * t.val + dx.val; rw [e0]; omega
  | ⟨1, _⟩ => show win0_3.index t 1 * 256 + 1 * y.val = y.val; rw [e1]; omega
  | ⟨2, _⟩ => show win0_3.index t 2 * 256 + 1 * z.val = z.val; rw [e2]; omega

/-- Window 4's index map, decided over the grid: block `(t, 0, 0)`. -/
theorem idx_in4 : ∀ t : Fin cfg0.N, win0_4.index t 0 = t.val ∧ win0_4.index t 1 = 0 ∧ win0_4.index t 2 = 0 :=
  (by decide +kernel : ∀ t : Fin grid0.N, _)

/-- Window 4's block at point `t`, at `(dx, y, z)`, is its array at `(4 t + dx, y, z)`. -/
theorem iblk4_at (c : Dev nD) (t : Fin cfg0.N) (dx : Fin 4) (y z : Fin 256) :
    (Fr.iblk m c 4 t : Vec Ideal S4x256x256 .f32) (ix3 dx y z)
      = (Fr.V m c main_v53 : S256x256x256.Idx → EReal) (ix3 (plane t dx) y z) := by
  obtain ⟨e0, e1, e2⟩ := idx_in4 t
  unfold Fr.iblk
  rw [View.read_apply]
  show Fr.V m c main_v53 (((cfg0.win 4).blk t).view.emb (ix3 dx y z)) = _
  refine congrArg _ (funext fun a => Fin.ext ?_)
  match a with
  | ⟨0, _⟩ => show win0_4.index t 0 * 4 + 1 * dx.val = 4 * t.val + dx.val; rw [e0]; omega
  | ⟨1, _⟩ => show win0_4.index t 1 * 256 + 1 * y.val = y.val; rw [e1]; omega
  | ⟨2, _⟩ => show win0_4.index t 2 * 256 + 1 * z.val = z.val; rw [e2]; omega

/-- Window 5's index map, decided over the grid: block `(t, 0, 0)`. -/
theorem idx_in5 : ∀ t : Fin cfg0.N, win0_5.index t 0 = t.val ∧ win0_5.index t 1 = 0 ∧ win0_5.index t 2 = 0 :=
  (by decide +kernel : ∀ t : Fin grid0.N, _)

/-- Window 5's block at point `t`, at `(dx, y, z)`, is its array at `(4 t + dx, y, z)`. -/
theorem iblk5_at (c : Dev nD) (t : Fin cfg0.N) (dx : Fin 4) (y z : Fin 256) :
    (Fr.iblk m c 5 t : Vec Ideal S4x256x256 .f32) (ix3 dx y z)
      = (Fr.V m c main_v59 : S256x256x256.Idx → EReal) (ix3 (plane t dx) y z) := by
  obtain ⟨e0, e1, e2⟩ := idx_in5 t
  unfold Fr.iblk
  rw [View.read_apply]
  show Fr.V m c main_v59 (((cfg0.win 5).blk t).view.emb (ix3 dx y z)) = _
  refine congrArg _ (funext fun a => Fin.ext ?_)
  match a with
  | ⟨0, _⟩ => show win0_5.index t 0 * 4 + 1 * dx.val = 4 * t.val + dx.val; rw [e0]; omega
  | ⟨1, _⟩ => show win0_5.index t 1 * 256 + 1 * y.val = y.val; rw [e1]; omega
  | ⟨2, _⟩ => show win0_5.index t 2 * 256 + 1 * z.val = z.val; rw [e2]; omega

/-- Window 6's index map, decided over the grid: block `(t, 0, 0)`. -/
theorem idx_in6 : ∀ t : Fin cfg0.N, win0_6.index t 0 = t.val ∧ win0_6.index t 1 = 0 ∧ win0_6.index t 2 = 0 :=
  (by decide +kernel : ∀ t : Fin grid0.N, _)

/-- Window 6's block at point `t`, at `(dx, y, z)`, is its array at `(4 t + dx, y, z)`. -/
theorem iblk6_at (c : Dev nD) (t : Fin cfg0.N) (dx : Fin 4) (y z : Fin 256) :
    (Fr.iblk m c 6 t : Vec Ideal S4x256x256 .f32) (ix3 dx y z)
      = (Fr.V m c main_v65 : S256x256x256.Idx → EReal) (ix3 (plane t dx) y z) := by
  obtain ⟨e0, e1, e2⟩ := idx_in6 t
  unfold Fr.iblk
  rw [View.read_apply]
  show Fr.V m c main_v65 (((cfg0.win 6).blk t).view.emb (ix3 dx y z)) = _
  refine congrArg _ (funext fun a => Fin.ext ?_)
  match a with
  | ⟨0, _⟩ => show win0_6.index t 0 * 4 + 1 * dx.val = 4 * t.val + dx.val; rw [e0]; omega
  | ⟨1, _⟩ => show win0_6.index t 1 * 256 + 1 * y.val = y.val; rw [e1]; omega
  | ⟨2, _⟩ => show win0_6.index t 2 * 256 + 1 * z.val = z.val; rw [e2]; omega

/-- Window 7's index map, decided over the grid: block `(t, 0, 0)`. -/
theorem idx_in7 : ∀ t : Fin cfg0.N, win0_7.index t 0 = t.val ∧ win0_7.index t 1 = 0 ∧ win0_7.index t 2 = 0 :=
  (by decide +kernel : ∀ t : Fin grid0.N, _)

/-- Window 7's block at point `t`, at `(dx, y, z)`, is its array at `(4 t + dx, y, z)`. -/
theorem iblk7_at (c : Dev nD) (t : Fin cfg0.N) (dx : Fin 4) (y z : Fin 256) :
    (Fr.iblk m c 7 t : Vec Ideal S4x256x256 .f32) (ix3 dx y z)
      = (Fr.V m c main_v71 : S256x256x256.Idx → EReal) (ix3 (plane t dx) y z) := by
  obtain ⟨e0, e1, e2⟩ := idx_in7 t
  unfold Fr.iblk
  rw [View.read_apply]
  show Fr.V m c main_v71 (((cfg0.win 7).blk t).view.emb (ix3 dx y z)) = _
  refine congrArg _ (funext fun a => Fin.ext ?_)
  match a with
  | ⟨0, _⟩ => show win0_7.index t 0 * 4 + 1 * dx.val = 4 * t.val + dx.val; rw [e0]; omega
  | ⟨1, _⟩ => show win0_7.index t 1 * 256 + 1 * y.val = y.val; rw [e1]; omega
  | ⟨2, _⟩ => show win0_7.index t 2 * 256 + 1 * z.val = z.val; rw [e2]; omega

/-- Window 8's index map, decided over the grid: block `(t, 0, 0)`. -/
theorem idx_in8 : ∀ t : Fin cfg0.N, win0_8.index t 0 = t.val ∧ win0_8.index t 1 = 0 ∧ win0_8.index t 2 = 0 :=
  (by decide +kernel : ∀ t : Fin grid0.N, _)

/-- Window 8's block at point `t`, at `(dx, y, z)`, is its array at `(4 t + dx, y, z)`. -/
theorem iblk8_at (c : Dev nD) (t : Fin cfg0.N) (dx : Fin 4) (y z : Fin 256) :
    (Fr.iblk m c 8 t : Vec Ideal S4x256x256 .f32) (ix3 dx y z)
      = (Fr.V m c main_v76 : S256x256x256.Idx → EReal) (ix3 (plane t dx) y z) := by
  obtain ⟨e0, e1, e2⟩ := idx_in8 t
  unfold Fr.iblk
  rw [View.read_apply]
  show Fr.V m c main_v76 (((cfg0.win 8).blk t).view.emb (ix3 dx y z)) = _
  refine congrArg _ (funext fun a => Fin.ext ?_)
  match a with
  | ⟨0, _⟩ => show win0_8.index t 0 * 4 + 1 * dx.val = 4 * t.val + dx.val; rw [e0]; omega
  | ⟨1, _⟩ => show win0_8.index t 1 * 256 + 1 * y.val = y.val; rw [e1]; omega
  | ⟨2, _⟩ => show win0_8.index t 2 * 256 + 1 * z.val = z.val; rw [e2]; omega

end Cert.KernelIdeal.Val

end
-- ==== Proof.KIArraysPoint.lean ====
/-
  One grid point's outputs as the specification's voxel values.

  Grid point `t` holds planes `4 t … 4 t + 3` of the nine grids, so its block of voxel values at plane `dx` is
  the specification's voxel value at plane `4 t + dx`; its two per-point outputs are the specification's maxima
  along the rows and along the columns at those planes, and the resident output is joined with the maximum over
  those four planes.
-/
import proofs.«163846_j35338990912022_1_alg».proof.Proof.KIArraysRows
import proofs.«163846_j35338990912022_1_alg».proof.Proof.KIArraysIn

noncomputable section

namespace Cert.KernelIdeal.Val

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The specification's voxel values over the nine grids the region finds. -/
abbrev voxK (c : Dev nD) : Fin 256 → Fin 8 → Fin 256 → Fin 256 → EReal :=
  Cert.VoxelSpec.voxOf (sumsK m c) (cntK m c)

/-- The point's block of voxel values at `(dx, ch, y, z)` is the voxel value at plane `4 t + dx`. -/
theorem vox_at (c : Dev nD) (t : Fin cfg0.N) (dx : Fin 4) (ch : Fin 8) (y z : Fin 256) :
    Ideal.div (pick8 (α := Vec Ideal S4x256x256 .f32) (Fr.iblk m c 0 t) (Fr.iblk m c 1 t) (Fr.iblk m c 2 t) (Fr.iblk m c 3 t) (Fr.iblk m c 4 t) (Fr.iblk m c 5 t) (Fr.iblk m c 6 t) (Fr.iblk m c 7 t) ch (ix3 dx y z))
        (max ((Fr.iblk m c 8 t : Vec Ideal S4x256x256 .f32) (ix3 dx y z)) Cert.VoxelSpec.one)
      = voxK m c (plane t dx) ch y z := by
  unfold voxK Cert.VoxelSpec.voxOf
  refine congrArg₂ Ideal.div ?_ (congrArg₂ max (iblk8_at m c t dx y z) rfl)
  match ch with
  | ⟨0, _⟩ => exact iblk0_at m c t dx y z
  | ⟨1, _⟩ => exact iblk1_at m c t dx y z
  | ⟨2, _⟩ => exact iblk2_at m c t dx y z
  | ⟨3, _⟩ => exact iblk3_at m c t dx y z
  | ⟨4, _⟩ => exact iblk4_at m c t dx y z
  | ⟨5, _⟩ => exact iblk5_at m c t dx y z
  | ⟨6, _⟩ => exact iblk6_at m c t dx y z
  | ⟨7, _⟩ => exact iblk7_at m c t dx y z

/-- The point's maxima along the rows: the specification's, at planes `4 t + dx`. -/
theorem rowsY_at (c : Dev nD) (t : Fin cfg0.N) (dx : Fin 4) (ch : Fin 8) (z : Fin 256) :
    (Fr.rowsY m c t : Vec Ideal S4x8x256 .f32) (ix3 dx ch z) = Cert.VoxelSpec.projY (voxK m c) ch (plane t dx) z := by
  unfold Fr.rowsY
  refine (pay3_at (Fr.iblk m c 8 t) (Fr.iblk m c 0 t) (Fr.iblk m c 1 t) (Fr.iblk m c 2 t) (Fr.iblk m c 3 t) (Fr.iblk m c 4 t) (Fr.iblk m c 5 t) (Fr.iblk m c 6 t) (Fr.iblk m c 7 t) dx ch z).trans ?_
  unfold Cert.VoxelSpec.projY
  exact fold_max_congr (n := 256) _ _ _ _ rfl (fun y => vox_at m c t dx ch y z)

/-- The point's maxima along the columns: the specification's, at planes `4 t + dx`. -/
theorem rowsZ_at (c : Dev nD) (t : Fin cfg0.N) (dx : Fin 4) (ch : Fin 8) (y : Fin 256) :
    (Fr.rowsZ m c t : Vec Ideal S4x8x256 .f32) (ix3 dx ch y) = Cert.VoxelSpec.projZ (voxK m c) ch (plane t dx) y := by
  unfold Fr.rowsZ
  refine (pay4_at (Fr.iblk m c 8 t) (Fr.iblk m c 0 t) (Fr.iblk m c 1 t) (Fr.iblk m c 2 t) (Fr.iblk m c 3 t) (Fr.iblk m c 4 t) (Fr.iblk m c 5 t) (Fr.iblk m c 6 t) (Fr.iblk m c 7 t) dx ch y).trans ?_
  unfold Cert.VoxelSpec.projZ
  exact fold_max_congr (n := 256) _ _ _ _ rfl (fun z => vox_at m c t dx ch y z)

/-- The resident output after the body at point `t`: what it held, joined with the maximum of the voxel values
    over planes `4 t … 4 t + 3`. -/
theorem stepX_at (c : Dev nD) (t : Fin cfg0.N) (prev : Vec Ideal S8x256x256 .f32) (ch : Fin 8) (y z : Fin 256) :
    (Fr.stepX m c t prev : Vec Ideal S8x256x256 .f32) (ix3 ch y z)
      = max (prev (ix3 ch y z)) ((Finset.univ : Finset (Fin 4)).fold max ⊥ (fun dx => voxK m c (plane t dx) ch y z)) := by
  unfold Fr.stepX
  refine (pay2_at (Fr.iblk m c 8 t) (Fr.iblk m c 0 t) (Fr.iblk m c 1 t) (Fr.iblk m c 2 t) (Fr.iblk m c 3 t) (Fr.iblk m c 4 t) (Fr.iblk m c 5 t) (Fr.iblk m c 6 t) (Fr.iblk m c 7 t) prev ch y z).trans ?_
  exact congrArg (max (prev (ix3 ch y z))) (fold_max_congr (n := 4) _ _ _ _ rfl (fun dx => vox_at m c t dx ch y z))

end Cert.KernelIdeal.Val

end
-- ==== Proof.FoldTiles.lean ====
/-
  A maximum over 256 values taken sixty-four tiles of four at a time.

  Starting from minus infinity and joining, tile after tile, the running value with the tile's own maximum gives
  the maximum of all the values: `max` on the extended reals is associative, commutative and idempotent with
  minus infinity its identity, so the grouping does not matter.
-/
import Mathlib.Data.Finset.Fold
import Mathlib.Data.Fintype.Basic
import Mathlib.Data.Fin.Basic
import Mathlib.Data.Fintype.Fin
import Mathlib.Data.EReal.Basic

namespace Cert.VoxelSpec

/-- A tile's maximum is below a bound exactly when each of its four values is. -/
theorem tile_le_iff (f : Fin 256 → EReal) (m : ℕ) (hm : m < 64) (c : EReal) :
    (Finset.univ : Finset (Fin 4)).fold max ⊥ (fun d => f ⟨4 * m + d.val, by omega⟩) ≤ c
      ↔ ∀ x : Fin 256, 4 * m ≤ x.val → x.val < 4 * (m + 1) → f x ≤ c := by
  rw [Finset.fold_max_le]
  constructor
  · rintro ⟨-, h⟩ x hx1 hx2
    have := h ⟨x.val - 4 * m, by omega⟩ (Finset.mem_univ _)
    have e : (⟨4 * m + (x.val - 4 * m), by omega⟩ : Fin 256) = x := Fin.ext (by simp; omega)
    simpa [e] using this
  · intro h
    refine ⟨bot_le, fun d _ => h _ ?_ ?_⟩
    · simp
    · have := d.isLt
      simp only
      omega

/-- The running maximum after tile `n` is below a bound exactly when every value of the tiles so far is. -/
theorem acc_le_iff (f : Fin 256 → EReal) (acc : (n : ℕ) → n < 64 → EReal)
    (h0 : ∀ h, acc 0 h = max ⊥ ((Finset.univ : Finset (Fin 4)).fold max ⊥ (fun d => f ⟨4 * 0 + d.val, by omega⟩)))
    (hs : ∀ n (h : n + 1 < 64), acc (n + 1) h
      = max (acc n (Nat.lt_of_succ_lt h)) ((Finset.univ : Finset (Fin 4)).fold max ⊥ (fun d => f ⟨4 * (n + 1) + d.val, by omega⟩)))
    (c : EReal) : ∀ n (h : n < 64), acc n h ≤ c ↔ ∀ x : Fin 256, x.val < 4 * (n + 1) → f x ≤ c := by
  intro n
  induction n with
  | zero =>
    intro h
    rw [h0 h, max_le_iff, tile_le_iff f 0 (by omega) c]
    constructor
    · rintro ⟨-, hh⟩ x hx
      exact hh x (by omega) hx
    · intro hh
      exact ⟨bot_le, fun x _ hx => hh x hx⟩
  | succ n ih =>
    intro h
    rw [hs n h, max_le_iff, ih (Nat.lt_of_succ_lt h), tile_le_iff f (n + 1) (by omega) c]
    constructor
    · rintro ⟨ha, hb⟩ x hx
      by_cases hlt : x.val < 4 * (n + 1)
      · exact ha x hlt
      · exact hb x (by omega) hx
    · intro hh
      exact ⟨fun x hx => hh x (by omega), fun x _ hx => hh x hx⟩

/-- The running maximum over tiles of four, from minus infinity, ends at the maximum of all 256 values. -/
theorem fold_max_tiles (f : Fin 256 → EReal) (acc : (n : ℕ) → n < 64 → EReal)
    (h0 : ∀ h, acc 0 h = max ⊥ ((Finset.univ : Finset (Fin 4)).fold max ⊥ (fun d => f ⟨4 * 0 + d.val, by omega⟩)))
    (hs : ∀ n (h : n + 1 < 64), acc (n + 1) h
      = max (acc n (Nat.lt_of_succ_lt h)) ((Finset.univ : Finset (Fin 4)).fold max ⊥ (fun d => f ⟨4 * (n + 1) + d.val, by omega⟩))) :
    acc 63 (by omega) = (Finset.univ : Finset (Fin 256)).fold max ⊥ f := by
  apply eq_of_forall_ge_iff
  intro c
  rw [acc_le_iff f acc h0 hs c 63 (by omega), Finset.fold_max_le]
  constructor
  · intro hh
    exact ⟨bot_le, fun x _ => hh x (by have := x.isLt; omega)⟩
  · rintro ⟨-, hh⟩ x _
    exact hh x (Finset.mem_univ _)

end Cert.VoxelSpec
-- ==== Proof.KIArraysX.lean ====
/-
  The first output array: the maximum of the voxel values along the first spatial axis.

  The resident output starts at minus infinity and is joined, point after point, with the maximum over the point's
  four planes, so after the last of the 64 points it holds the maximum over all 256 planes. Its block is the
  whole array and it is written back once, after the last point.
-/
import proofs.«163846_j35338990912022_1_alg».proof.Proof.KIArraysPoint
import proofs.«163846_j35338990912022_1_alg».proof.Proof.FoldTiles

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- What the first output array ends holding: at `(ch, y, z)`, the maximum over the planes. -/
abbrev GX (c : Dev nD) : S8x256x256.Idx → EReal :=
  fun i => Cert.VoxelSpec.projX (voxK m c) (i 0) (i 1) (i 2)

/-- After the last point the resident output holds the maximum over all 256 planes. -/
theorem accX_last (c : Dev nD) (h : 63 < cfg0.N) (ch : Fin 8) (y z : Fin 256) :
    (Fr.accX m c 63 h : Vec Ideal S8x256x256 .f32) (ix3 ch y z) = Cert.VoxelSpec.projX (voxK m c) ch y z := by
  have hN : cfg0.N = 64 := N_0
  unfold Cert.VoxelSpec.projX
  refine Cert.VoxelSpec.fold_max_tiles (fun x => voxK m c x ch y z)
    (fun n hn => (Fr.accX m c n (by omega) : Vec Ideal S8x256x256 .f32) (ix3 ch y z)) ?_ ?_
  · intro h0
    show (Fr.accX m c 0 _ : Vec Ideal S8x256x256 .f32) (ix3 ch y z) = _
    rw [Fr.accX_zero, stepX_at, pay5_at]
  · intro n hn
    show (Fr.accX m c (n + 1) _ : Vec Ideal S8x256x256 .f32) (ix3 ch y z) = _
    rw [Fr.accX_succ, stepX_at]

/-- The grid has a 64th point. -/
theorem last_lt : 63 < cfg0.N := by rw [show cfg0.N = 64 from N_0]; decide

/-- The last grid point. -/
abbrev tLast : Fin cfg0.N := ⟨63, last_lt⟩

/-- Window 9's index map, decided over the grid: always block `(0, 0, 0)`. -/
theorem idx_out9 : ∀ t : Fin cfg0.N, win0_9.index t 0 = 0 ∧ win0_9.index t 1 = 0 ∧ win0_9.index t 2 = 0 :=
  (by decide +kernel : ∀ t : Fin grid0.N, _)

/-- Window 9's block at any point is the whole array: an entry of the block sits at its own index. -/
theorem emb9 (t : Fin cfg0.N) (ch : Fin 8) (y z : Fin 256) :
    ((cfg0.win 9).blk t).view.emb (ix3 ch y z) = (ix3 ch y z : S8x256x256.Idx) := by
  obtain ⟨e0, e1, e2⟩ := idx_out9 t
  refine funext fun a => Fin.ext ?_
  match a with
  | ⟨0, _⟩ => show win0_9.index t 0 * 8 + 1 * ch.val = ch.val; rw [e0]; omega
  | ⟨1, _⟩ => show win0_9.index t 1 * 256 + 1 * y.val = y.val; rw [e1]; omega
  | ⟨2, _⟩ => show win0_9.index t 2 * 256 + 1 * z.val = z.val; rw [e2]; omega

/-- The one write-back, after the last point, writes the maxima over the planes. -/
theorem flushed9_eq (c : Dev nD) (t : Fin cfg0.N) (hf : (cfg0.win 9).flush t = true) :
    (Fr.dats m 0 c).flushed 9 t = ((cfg0.win 9).blk t).view.read (Elt Ideal) (GX m c) := by
  have h63 : t.val = 63 := by
    have hN : cfg0.N = 64 := N_0
    have := (flush0_9 t).mp hf
    have := t.isLt
    omega
  obtain rfl : t = tLast := Fin.ext h63
  show (cfg0.win 9).cut (grid0.coords tLast) ((Fr.dats m 0 c).after 9 tLast) = _
  rw [Fr.after0_9]
  have key : ∀ j : S8x256x256.Idx, (Fr.accX m c 63 last_lt : Vec Ideal S8x256x256 .f32) j
      = (((cfg0.win 9).blk tLast).view.read (Elt Ideal) (GX m c) : S8x256x256.Idx → EReal) j := by
    intro j
    obtain ⟨ch, y, z, rfl⟩ : ∃ (ch : Fin 8) (y z : Fin 256), j = ix3 ch y z := ⟨j 0, j 1, j 2, eq_ix3 j⟩
    rw [accX_last, View.read_apply]
    show _ = GX m c (((cfg0.win 9).blk tLast).view.emb (ix3 ch y z))
    rw [emb9]
  exact funext key

/-- THE FIRST OUTPUT ARRAY after the region: the maxima over the planes, at `(channel, y, z)`. -/
theorem arrX (c : Dev nD) : (Fr.dats m 0 c).arrAt 9 cfg0.N
    = fun i : S8x256x256.Idx => Cert.VoxelSpec.projX (Cert.VoxelSpec.voxOf (sumsK m c) (cntK m c)) (i 0) (i 1) (i 2) := by
  refine (Fr.dats m 0 c).arrAt_eq_of_cover 9 (GX m c) (flushed9_eq m c) fun i => ?_
  refine ⟨tLast, (flush0_9 tLast).mpr rfl, ?_⟩
  show i ∈ ((View.whole main_v77_0).slice (win0_9.rect tLast)).set
  rw [View.set_slice_whole, Rect.mem_set_unit]
  obtain ⟨e0, e1, e2⟩ := idx_out9 tLast
  intro a
  have h0 : (i 0 : Nat) < 8 := (i 0).isLt
  have h1 : (i 1 : Nat) < 256 := (i 1).isLt
  have h2 : (i 2 : Nat) < 256 := (i 2).isLt
  match a with
  | ⟨0, _⟩ => show win0_9.index tLast 0 * 8 ≤ (i 0 : Nat) ∧ (i 0 : Nat) < win0_9.index tLast 0 * 8 + 8; rw [e0]; omega
  | ⟨1, _⟩ => show win0_9.index tLast 1 * 256 ≤ (i 1 : Nat) ∧ (i 1 : Nat) < win0_9.index tLast 1 * 256 + 256; rw [e1]; omega
  | ⟨2, _⟩ => show win0_9.index tLast 2 * 256 ≤ (i 2 : Nat) ∧ (i 2 : Nat) < win0_9.index tLast 2 * 256 + 256; rw [e2]; omega

end Cert.KernelIdeal.Val

end
-- ==== Proof.KIArraysY.lean ====
/-
  The second output array: the maximum of the voxel values along the second spatial axis.

  Each grid point writes back the row maxima of its four planes as block `t` of the array, indexed
  (plane, channel, column); the 64 blocks tile the 256 planes.
-/
import proofs.«163846_j35338990912022_1_alg».proof.Proof.KIArraysPoint

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Window 10's index map, decided over the grid: block `(t, 0, 0)`. -/
theorem idx_out10 : ∀ t : Fin cfg0.N, win0_10.index t 0 = t.val ∧ win0_10.index t 1 = 0 ∧ win0_10.index t 2 = 0 :=
  (by decide +kernel : ∀ t : Fin grid0.N, _)

/-- An entry `(dx, ch, z)` of window 10's block at point `t` sits at `(4 t + dx, ch, z)` of its array. -/
theorem emb10 (t : Fin cfg0.N) (dx : Fin 4) (ch : Fin 8) (k : Fin 256) :
    ((cfg0.win 10).blk t).view.emb (ix3 dx ch k) = (ix3 (plane t dx) ch k : S256x8x256.Idx) := by
  obtain ⟨e0, e1, e2⟩ := idx_out10 t
  refine funext fun a => Fin.ext ?_
  match a with
  | ⟨0, _⟩ => show win0_10.index t 0 * 4 + 1 * dx.val = 4 * t.val + dx.val; rw [e0]; omega
  | ⟨1, _⟩ => show win0_10.index t 1 * 8 + 1 * ch.val = ch.val; rw [e1]; omega
  | ⟨2, _⟩ => show win0_10.index t 2 * 256 + 1 * k.val = k.val; rw [e2]; omega

/-- What the array ends holding: at `(x, ch, z)`, the maximum along the rows. -/
abbrev GY (c : Dev nD) : S256x8x256.Idx → EReal :=
  fun i => Cert.VoxelSpec.projY (voxK m c) (i 1) (i 0) (i 2)

/-- What point `t` writes back is block `t` of those maxima: planes `4 t … 4 t + 3`. -/
theorem flushed10_eq (c : Dev nD) (t : Fin cfg0.N) :
    (Fr.dats m 0 c).flushed 10 t = ((cfg0.win 10).blk t).view.read (Elt Ideal) (GY m c) := by
  show (cfg0.win 10).cut (grid0.coords t) ((Fr.dats m 0 c).after 10 t) = _
  rw [Fr.after0_10]
  have key : ∀ j : S4x8x256.Idx, (Fr.rowsY m c t : Vec Ideal S4x8x256 .f32) j
      = (((cfg0.win 10).blk t).view.read (Elt Ideal) (GY m c) : S4x8x256.Idx → EReal) j := by
    intro j
    obtain ⟨dx, ch, k, rfl⟩ : ∃ (dx : Fin 4) (ch : Fin 8) (k : Fin 256), j = ix3 dx ch k := ⟨j 0, j 1, j 2, eq_ix3 j⟩
    rw [rowsY_at, View.read_apply]
    show _ = GY m c (((cfg0.win 10).blk t).view.emb (ix3 dx ch k))
    rw [emb10]
  exact funext key

/-- THE ARRAY after the region: the 64 blocks of four planes tile it, the block of plane `x` being point `x / 4`'s. -/
theorem arrY (c : Dev nD) : (Fr.dats m 0 c).arrAt 10 cfg0.N
    = fun i : S256x8x256.Idx => Cert.VoxelSpec.projY (Cert.VoxelSpec.voxOf (sumsK m c) (cntK m c)) (i 1) (i 0) (i 2) := by
  have hN : cfg0.N = 64 := N_0
  refine (Fr.dats m 0 c).arrAt_eq_of_cover 10 (GY m c) (fun t _ => flushed10_eq m c t) fun i => ?_
  have h0 : (i 0 : Nat) < 256 := (i 0).isLt
  have h1 : (i 1 : Nat) < 8 := (i 1).isLt
  have h2 : (i 2 : Nat) < 256 := (i 2).isLt
  have ht : (i 0 : Nat) / 4 < cfg0.N := by rw [hN]; omega
  refine ⟨⟨(i 0 : Nat) / 4, ht⟩, flush0_10 _, ?_⟩
  show i ∈ ((View.whole main_v77_1).slice (win0_10.rect ⟨(i 0 : Nat) / 4, ht⟩)).set
  rw [View.set_slice_whole, Rect.mem_set_unit]
  obtain ⟨e0, e1, e2⟩ := idx_out10 ⟨(i 0 : Nat) / 4, ht⟩
  intro a
  match a with
  | ⟨0, _⟩ => show win0_10.index ⟨(i 0 : Nat) / 4, ht⟩ 0 * 4 ≤ (i 0 : Nat) ∧ (i 0 : Nat) < win0_10.index ⟨(i 0 : Nat) / 4, ht⟩ 0 * 4 + 4; rw [e0]; show (i 0 : Nat) / 4 * 4 ≤ (i 0 : Nat) ∧ (i 0 : Nat) < (i 0 : Nat) / 4 * 4 + 4; omega
  | ⟨1, _⟩ => show win0_10.index ⟨(i 0 : Nat) / 4, ht⟩ 1 * 8 ≤ (i 1 : Nat) ∧ (i 1 : Nat) < win0_10.index ⟨(i 0 : Nat) / 4, ht⟩ 1 * 8 + 8; rw [e1]; omega
  | ⟨2, _⟩ => show win0_10.index ⟨(i 0 : Nat) / 4, ht⟩ 2 * 256 ≤ (i 2 : Nat) ∧ (i 2 : Nat) < win0_10.index ⟨(i 0 : Nat) / 4, ht⟩ 2 * 256 + 256; rw [e2]; omega

end Cert.KernelIdeal.Val

end
-- ==== Proof.KIArraysZ.lean ====
/-
  The third output array: the maximum of the voxel values along the third spatial axis.

  Each grid point writes back the column maxima of its four planes as block `t` of the array, indexed
  (plane, channel, row); the 64 blocks tile the 256 planes.
-/
import proofs.«163846_j35338990912022_1_alg».proof.Proof.KIArraysPoint

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Window 11's index map, decided over the grid: block `(t, 0, 0)`. -/
theorem idx_out11 : ∀ t : Fin cfg0.N, win0_11.index t 0 = t.val ∧ win0_11.index t 1 = 0 ∧ win0_11.index t 2 = 0 :=
  (by decide +kernel : ∀ t : Fin grid0.N, _)

/-- An entry `(dx, ch, y)` of window 11's block at point `t` sits at `(4 t + dx, ch, y)` of its array. -/
theorem emb11 (t : Fin cfg0.N) (dx : Fin 4) (ch : Fin 8) (k : Fin 256) :
    ((cfg0.win 11).blk t).view.emb (ix3 dx ch k) = (ix3 (plane t dx) ch k : S256x8x256.Idx) := by
  obtain ⟨e0, e1, e2⟩ := idx_out11 t
  refine funext fun a => Fin.ext ?_
  match a with
  | ⟨0, _⟩ => show win0_11.index t 0 * 4 + 1 * dx.val = 4 * t.val + dx.val; rw [e0]; omega
  | ⟨1, _⟩ => show win0_11.index t 1 * 8 + 1 * ch.val = ch.val; rw [e1]; omega
  | ⟨2, _⟩ => show win0_11.index t 2 * 256 + 1 * k.val = k.val; rw [e2]; omega

/-- What the array ends holding: at `(x, ch, y)`, the maximum along the columns. -/
abbrev GZ (c : Dev nD) : S256x8x256.Idx → EReal :=
  fun i => Cert.VoxelSpec.projZ (voxK m c) (i 1) (i 0) (i 2)

/-- What point `t` writes back is block `t` of those maxima: planes `4 t … 4 t + 3`. -/
theorem flushed11_eq (c : Dev nD) (t : Fin cfg0.N) :
    (Fr.dats m 0 c).flushed 11 t = ((cfg0.win 11).blk t).view.read (Elt Ideal) (GZ m c) := by
  show (cfg0.win 11).cut (grid0.coords t) ((Fr.dats m 0 c).after 11 t) = _
  rw [Fr.after0_11]
  have key : ∀ j : S4x8x256.Idx, (Fr.rowsZ m c t : Vec Ideal S4x8x256 .f32) j
      = (((cfg0.win 11).blk t).view.read (Elt Ideal) (GZ m c) : S4x8x256.Idx → EReal) j := by
    intro j
    obtain ⟨dx, ch, k, rfl⟩ : ∃ (dx : Fin 4) (ch : Fin 8) (k : Fin 256), j = ix3 dx ch k := ⟨j 0, j 1, j 2, eq_ix3 j⟩
    rw [rowsZ_at, View.read_apply]
    show _ = GZ m c (((cfg0.win 11).blk t).view.emb (ix3 dx ch k))
    rw [emb11]
  exact funext key

/-- THE ARRAY after the region: the 64 blocks of four planes tile it, the block of plane `x` being point `x / 4`'s. -/
theorem arrZ (c : Dev nD) : (Fr.dats m 0 c).arrAt 11 cfg0.N
    = fun i : S256x8x256.Idx => Cert.VoxelSpec.projZ (Cert.VoxelSpec.voxOf (sumsK m c) (cntK m c)) (i 1) (i 0) (i 2) := by
  have hN : cfg0.N = 64 := N_0
  refine (Fr.dats m 0 c).arrAt_eq_of_cover 11 (GZ m c) (fun t _ => flushed11_eq m c t) fun i => ?_
  have h0 : (i 0 : Nat) < 256 := (i 0).isLt
  have h1 : (i 1 : Nat) < 8 := (i 1).isLt
  have h2 : (i 2 : Nat) < 256 := (i 2).isLt
  have ht : (i 0 : Nat) / 4 < cfg0.N := by rw [hN]; omega
  refine ⟨⟨(i 0 : Nat) / 4, ht⟩, flush0_11 _, ?_⟩
  show i ∈ ((View.whole main_v77_2).slice (win0_11.rect ⟨(i 0 : Nat) / 4, ht⟩)).set
  rw [View.set_slice_whole, Rect.mem_set_unit]
  obtain ⟨e0, e1, e2⟩ := idx_out11 ⟨(i 0 : Nat) / 4, ht⟩
  intro a
  match a with
  | ⟨0, _⟩ => show win0_11.index ⟨(i 0 : Nat) / 4, ht⟩ 0 * 4 ≤ (i 0 : Nat) ∧ (i 0 : Nat) < win0_11.index ⟨(i 0 : Nat) / 4, ht⟩ 0 * 4 + 4; rw [e0]; show (i 0 : Nat) / 4 * 4 ≤ (i 0 : Nat) ∧ (i 0 : Nat) < (i 0 : Nat) / 4 * 4 + 4; omega
  | ⟨1, _⟩ => show win0_11.index ⟨(i 0 : Nat) / 4, ht⟩ 1 * 8 ≤ (i 1 : Nat) ∧ (i 1 : Nat) < win0_11.index ⟨(i 0 : Nat) / 4, ht⟩ 1 * 8 + 8; rw [e1]; omega
  | ⟨2, _⟩ => show win0_11.index ⟨(i 0 : Nat) / 4, ht⟩ 2 * 256 ≤ (i 2 : Nat) ∧ (i 2 : Nat) < win0_11.index ⟨(i 0 : Nat) / 4, ht⟩ 2 * 256 + 256; rw [e2]; omega

end Cert.KernelIdeal.Val

end
-- ==== Proof.KIArrays.lean ====
/-
  The three output arrays after the region, as the specification's projections of the nine grids the region finds:
  the maxima of the voxel values along the first, the second and the third spatial axis (`arrX`, `arrY`, `arrZ`,
  each in its own module; the first array is indexed (channel, y, z), the other two (x, channel, z) and (x, channel, y)).
-/
import proofs.«163846_j35338990912022_1_alg».proof.Proof.KIArraysX
import proofs.«163846_j35338990912022_1_alg».proof.Proof.KIArraysY
import proofs.«163846_j35338990912022_1_alg».proof.Proof.KIArraysZ
-- ==== Proof.ScatterRows.lean ====
/-
  The host's accumulating scatter along the leading axis, read at an element.

  The three scatters of this program pair all add, into row `v` of the operand, the updates of the points whose
  index word (read signed) is `v`; a point whose word is no row is dropped. With the index array a column holding
  one word per point, an element of the result is the operand's element plus the sum of the matching updates:
  `binSum`. For a flat operand the update is one number per point; for an operand with a trailing axis of
  channels the update's row goes to the operand's row, channel by channel.

  The road: an update lands at an operand index exactly when, on every axis, the window's start plus the window
  coordinate is that index's coordinate. On the leading axis the start is the point's index word read signed and
  the window coordinate is zero; on a trailing channel axis the start is zero and the window coordinate is the
  update's channel. So the updates that land at `(v, c)` are those of the points in voxel `v`, at channel `c`,
  and the two sums are matched point by point.
-/
import proofs.«163846_j35338990912022_1_alg».proof.Proof.VoxelSpec

noncomputable section

namespace Cert.VoxelSpec

open Idealize.ShloMosaic Idealize.ShloMosaic.ValueIdx

/-- The flat grid. -/
abbrev SV : Shape := ⟨1, ![16777216]⟩
/-- The flat grid with eight channels. -/
abbrev SV8 : Shape := ⟨2, ![16777216, 8]⟩
/-- The flat grid with one channel. -/
abbrev SV1 : Shape := ⟨2, ![16777216, 1]⟩
/-- One column per point. -/
abbrev SN1 : Shape := ⟨2, ![100000, 1]⟩

namespace Scatter

/-! ## Generalities -/

/-- A one-point range has only its zero. -/
theorem fin1_eq (k : Fin 1) : k = 0 := Subsingleton.elim _ _

/-- An entry of a one-element list is that element. -/
theorem getElem_of_eq_singleton {α : Type} (l : List α) (a : α) (hl : l = [a]) (n : ℕ) (h : n < l.length) :
    l[n]'h = a := by
  subst hl
  have : n = 0 := by simpa using h
  subst this
  rfl

/-- An update lands at operand index `i` exactly when, on every axis, the window's start plus the window
    coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      have := h a
      rw [← hf]
      simp only
      omega
    · intro hf
      funext a
      apply Fin.ext
      have := hf a
      have := h a
      simp only
      omega
  · rename_i h
    constructor
    · intro hf
      cases hf
    · intro hf
      refine absurd (fun a => ?_) h
      have := hf a
      have := (i a).isLt
      constructor <;> omega

/-- A point falls in voxel `v` exactly when the signed value of its word is `v`. -/
theorem cell_eq_some_iff (lin : SN.Idx → BitVec 32) (n : SN.Idx) (v : Fin 16777216) :
    cell lin n = some v ↔ (lin n).toInt = (v.val : Int) := by
  unfold cell
  split
  · rename_i h
    rw [Option.some.injEq, Fin.ext_iff]
    simp only
    omega
  · rename_i h
    constructor
    · intro hf
      cases hf
    · intro hf
      have := v.isLt
      exact absurd (by constructor <;> omega) h

/-! ## The flat operand -/

/-- The start index of point `j` is read at row `j`, column zero, of the index array. -/
theorem flat_siIdx (wf) (j : SN.Idx) (c) :
    (⟨[], [0], [0], 1, wf⟩ : ScatterDims SV SN1 SN).siIdx j c = ix2 (j 0) 0 := by
  funext b
  match b with
  | ⟨0, _⟩ =>
    unfold ScatterDims.siIdx
    rw [dif_neg (by show ¬ (0 : ℕ) = 1; omega)]
    unfold ScatterDims.siCoord
    apply Fin.ext
    simp only [Fin.coe_cast]
    exact congrArg (fun k : Fin 1 => (j k).val) (fin1_eq _)
  | ⟨1, _⟩ =>
    unfold ScatterDims.siIdx
    rw [dif_pos (by rfl)]
    apply Fin.ext
    have hc : c.val < 1 := c.isLt
    show c.val = 0
    omega

/-- On the one axis the window starts at the point's index word, read signed. -/
theorem flat_start (wf) (j : SN.Idx) (idx : IVec SN1 32) (a : Fin 1) :
    (⟨[], [0], [0], 1, wf⟩ : ScatterDims SV SN1 SN).start j idx a = (idx (ix2 (j 0) 0)).toInt := by
  unfold ScatterDims.start
  have ha : a ∈ ([0] : List (Fin 1)) := by simp [fin1_eq a]
  rw [dif_pos ha, flat_siIdx]
  rfl

/-- The one axis is inserted: its window coordinate is zero. -/
theorem flat_window (wf) (j : SN.Idx) (a : Fin 1) :
    (⟨[], [0], [0], 1, wf⟩ : ScatterDims SV SN1 SN).window j a = 0 := by
  unfold ScatterDims.window
  have hk : SV.kept [0] = [] := by decide
  rw [dif_neg (by show a ∉ SV.kept [0]; rw [hk]; simp)]

/-- Point `a`'s update lands at `v` exactly when the point falls in voxel `v`. -/
theorem flat_resultIdx (d : ScatterDims SV SN1 SN)
    (h1 : d.updateWindowDims = []) (h2 : d.insertedWindowDims = [0]) (h3 : d.scatterDimsToOperandDims = [0]) (h4 : d.indexVectorDim = 1)
    (lin : SN.Idx → BitVec 32) (idx : IVec SN1 32) (hidx : ∀ n : Fin 100000, idx (ix2 n 0) = lin (ix1 n))
    (a : Fin 100000) (v : Fin 16777216) :
    d.resultIdx? (ix1 a) idx = some (ix1 v) ↔ cell lin (ix1 a) = some v := by
  obtain ⟨uw, iw, sd, iv, wf⟩ := d
  dsimp only at h1 h2 h3 h4
  subst h1 h2 h3 h4
  rw [resultIdx?_eq_some_iff, cell_eq_some_iff]
  have hs : ∀ k : Fin 1, (⟨[], [0], [0], 1, wf⟩ : ScatterDims SV SN1 SN).start (ix1 a) idx k
      + ((⟨[], [0], [0], 1, wf⟩ : ScatterDims SV SN1 SN).window (ix1 a) k : Int) = (lin (ix1 a)).toInt := by
    intro k
    rw [flat_start, flat_window, ← hidx a]
    simp
  constructor
  · intro h
    have := h 0
    rw [hs 0] at this
    exact this
  · intro h k
    rw [hs k, fin1_eq k]
    exact h

/-! ## An operand with a trailing axis of channels -/

/-- The grid with `C` channels. -/
abbrev SVC (C : ℕ) : Shape := ⟨2, ![16777216, C]⟩
/-- `C` numbers per point. -/
abbrev SNC (C : ℕ) : Shape := ⟨2, ![100000, C]⟩

/-- The start index of the update at `(point, channel)` is read at the point's row, column zero, of the index array. -/
theorem rows_siIdx (C : ℕ) (wf) (j : (SNC C).Idx) (c) :
    (⟨[1], [0], [0], 1, wf⟩ : ScatterDims (SVC C) SN1 (SNC C)).siIdx j c = ix2 (j 0) 0 := by
  funext b
  match b with
  | ⟨0, _⟩ =>
    unfold ScatterDims.siIdx
    rw [dif_neg (by show ¬ (0 : ℕ) = 1; omega)]
    unfold ScatterDims.siCoord
    apply Fin.ext
    simp only [Fin.coe_cast]
    have hk : (SNC C).kept [1] = [0] := by
      show (List.finRange 2).filter (fun x => x ∉ ([1] : List (Fin 2))) = [0]
      decide
    exact congrArg (fun k : Fin 2 => (j k).val) (getElem_of_eq_singleton _ 0 hk _ _)
  | ⟨1, _⟩ =>
    unfold ScatterDims.siIdx
    rw [dif_pos (by rfl)]
    apply Fin.ext
    have hc : c.val < 1 := c.isLt
    show c.val = 0
    omega

/-- On the leading axis the window starts at the point's index word, read signed. -/
theorem rows_start0 (C : ℕ) (wf) (j : (SNC C).Idx) (idx : IVec SN1 32) :
    (⟨[1], [0], [0], 1, wf⟩ : ScatterDims (SVC C) SN1 (SNC C)).start j idx 0 = (idx (ix2 (j 0) 0)).toInt := by
  unfold ScatterDims.start
  rw [dif_pos (by show (0 : Fin 2) ∈ ([0] : List (Fin 2)); decide), rows_siIdx]
  rfl

/-- On the channel axis the window starts at zero. -/
theorem rows_start1 (C : ℕ) (wf) (j : (SNC C).Idx) (idx : IVec SN1 32) :
    (⟨[1], [0], [0], 1, wf⟩ : ScatterDims (SVC C) SN1 (SNC C)).start j idx 1 = 0 := by
  unfold ScatterDims.start
  rw [dif_neg (by show (1 : Fin 2) ∉ ([0] : List (Fin 2)); decide)]

/-- The operand's axes that are not inserted: the channel axis alone. -/
theorem rows_kept (C : ℕ) : (SVC C).kept [0] = [1] := by
  show (List.finRange 2).filter (fun x => x ∉ ([0] : List (Fin 2))) = [1]
  decide

/-- The leading axis is inserted: its window coordinate is zero. -/
theorem rows_window0 (C : ℕ) (wf) (j : (SNC C).Idx) :
    (⟨[1], [0], [0], 1, wf⟩ : ScatterDims (SVC C) SN1 (SNC C)).window j 0 = 0 := by
  unfold ScatterDims.window
  rw [dif_neg (by rw [show (⟨[1], [0], [0], 1, wf⟩ : ScatterDims (SVC C) SN1 (SNC C)).sKept = [1] from rows_kept C]; show (0 : Fin 2) ∉ ([1] : List (Fin 2)); decide)]

/-- On the channel axis the window coordinate is the update's channel. -/
theorem rows_window1 (C : ℕ) (wf) (j : (SNC C).Idx) :
    (⟨[1], [0], [0], 1, wf⟩ : ScatterDims (SVC C) SN1 (SNC C)).window j 1 = (j 1).val := by
  unfold ScatterDims.window
  rw [dif_pos (by rw [show (⟨[1], [0], [0], 1, wf⟩ : ScatterDims (SVC C) SN1 (SNC C)).sKept = [1] from rows_kept C]; show (1 : Fin 2) ∈ ([1] : List (Fin 2)); decide)]
  exact congrArg (fun k : Fin 2 => (j k).val) (getElem_of_eq_singleton [1] 1 rfl _ _)

/-- The update at `(a, b)` lands at `(v, c)` exactly when point `a` falls in voxel `v` and the channels agree. -/
theorem rows_resultIdx (C : ℕ) (d : ScatterDims (SVC C) SN1 (SNC C))
    (h1 : d.updateWindowDims = [1]) (h2 : d.insertedWindowDims = [0]) (h3 : d.scatterDimsToOperandDims = [0]) (h4 : d.indexVectorDim = 1)
    (lin : SN.Idx → BitVec 32) (idx : IVec SN1 32) (hidx : ∀ n : Fin 100000, idx (ix2 n 0) = lin (ix1 n))
    (a : Fin 100000) (b : Fin C) (v : Fin 16777216) (c : Fin C) :
    d.resultIdx? (ix2 a b) idx = some (ix2 v c) ↔ cell lin (ix1 a) = some v ∧ b = c := by
  obtain ⟨uw, iw, sd, iv, wf⟩ := d
  dsimp only at h1 h2 h3 h4
  subst h1 h2 h3 h4
  rw [resultIdx?_eq_some_iff, cell_eq_some_iff, Fin.ext_iff]
  have e0 : (⟨[1], [0], [0], 1, wf⟩ : ScatterDims (SVC C) SN1 (SNC C)).start (ix2 a b) idx 0
      + ((⟨[1], [0], [0], 1, wf⟩ : ScatterDims (SVC C) SN1 (SNC C)).window (ix2 a b) 0 : Int) = (lin (ix1 a)).toInt := by
    rw [rows_start0, rows_window0]
    show (idx (ix2 a 0)).toInt + ((0 : ℕ) : Int) = (lin (ix1 a)).toInt
    rw [hidx a]
    omega
  have e1 : (⟨[1], [0], [0], 1, wf⟩ : ScatterDims (SVC C) SN1 (SNC C)).start (ix2 a b) idx 1
      + ((⟨[1], [0], [0], 1, wf⟩ : ScatterDims (SVC C) SN1 (SNC C)).window (ix2 a b) 1 : Int) = (b.val : Int) := by
    rw [rows_start1, rows_window1]
    show (0 : Int) + ((b.val : ℕ) : Int) = (b.val : Int)
    omega
  constructor
  · intro h
    have g0 := h 0
    have g1 := h 1
    rw [e0] at g0
    rw [e1] at g1
    exact ⟨g0, by exact_mod_cast g1⟩
  · rintro ⟨g0, g1⟩ k
    match k with
    | ⟨0, _⟩ => exact e0.trans g0
    | ⟨1, _⟩ => exact e1.trans (by exact_mod_cast g1)

/-- Scatter-add of `C` numbers per point into the rows of the `C`-channel grid: the updates landing at `(v, c)`
    are matched with the points of voxel `v`, each by its channel-`c` update. -/
theorem scatter_rows (C : ℕ) (d : ScatterDims (SVC C) SN1 (SNC C))
    (h1 : d.updateWindowDims = [1]) (h2 : d.insertedWindowDims = [0]) (h3 : d.scatterDimsToOperandDims = [0]) (h4 : d.indexVectorDim = 1)
    (x : (SVC C).Idx → EReal) (lin : SN.Idx → BitVec 32) (idx : IVec SN1 32) (hidx : ∀ n : Fin 100000, idx (ix2 n 0) = lin (ix1 n))
    (upd : (SNC C).Idx → EReal) (v : Fin 16777216) (c : Fin C) :
    Ideal.hostScatterAdd d x idx upd (ix2 v c) = x (ix2 v c) + binSum lin (fun n => upd (ix2 (n 0) c)) v := by
  unfold Ideal.hostScatterAdd binSum
  refine congrArg (fun t => x (ix2 v c) + t) ?_
  refine Finset.sum_nbij' (fun j : (SNC C).Idx => (ix1 (j 0) : SN.Idx)) (fun n : SN.Idx => (ix2 (n 0) c : (SNC C).Idx)) ?_ ?_ ?_ ?_ ?_
  · intro j hj
    obtain ⟨a, b, rfl⟩ : ∃ (a : Fin 100000) (b : Fin C), j = ix2 a b := ⟨j 0, j 1, eq_ix2 j⟩
    rw [Finset.mem_filter] at hj ⊢
    exact ⟨Finset.mem_univ _, ((rows_resultIdx C d h1 h2 h3 h4 lin idx hidx a b v c).1 hj.2).1⟩
  · intro n hn
    obtain ⟨a, rfl⟩ : ∃ a : Fin 100000, n = ix1 a := ⟨n 0, eq_ix1 n⟩
    rw [Finset.mem_filter] at hn ⊢
    exact ⟨Finset.mem_univ _, (rows_resultIdx C d h1 h2 h3 h4 lin idx hidx a c v c).2 ⟨hn.2, rfl⟩⟩
  · intro j hj
    obtain ⟨a, b, rfl⟩ : ∃ (a : Fin 100000) (b : Fin C), j = ix2 a b := ⟨j 0, j 1, eq_ix2 j⟩
    rw [Finset.mem_filter] at hj
    have hb : b = c := ((rows_resultIdx C d h1 h2 h3 h4 lin idx hidx a b v c).1 hj.2).2
    subst hb
    rfl
  · intro n hn
    obtain ⟨a, rfl⟩ : ∃ a : Fin 100000, n = ix1 a := ⟨n 0, eq_ix1 n⟩
    rfl
  · intro j hj
    obtain ⟨a, b, rfl⟩ : ∃ (a : Fin 100000) (b : Fin C), j = ix2 a b := ⟨j 0, j 1, eq_ix2 j⟩
    rw [Finset.mem_filter] at hj
    have hb : b = c := ((rows_resultIdx C d h1 h2 h3 h4 lin idx hidx a b v c).1 hj.2).2
    subst hb
    rfl

end Scatter

/-- Scatter-add of one number per point into the flat grid. -/
theorem scatter_flat (d : ScatterDims SV SN1 SN)
    (h1 : d.updateWindowDims = []) (h2 : d.insertedWindowDims = [0]) (h3 : d.scatterDimsToOperandDims = [0]) (h4 : d.indexVectorDim = 1)
    (x : SV.Idx → EReal) (lin : SN.Idx → BitVec 32) (idx : IVec SN1 32) (hidx : ∀ n : Fin 100000, idx (ix2 n 0) = lin (ix1 n))
    (upd : SN.Idx → EReal) (v : Fin 16777216) :
    Ideal.hostScatterAdd d x idx upd (ix1 v) = x (ix1 v) + binSum lin upd v := by
  unfold Ideal.hostScatterAdd binSum
  refine congrArg (fun t => x (ix1 v) + t) ?_
  refine Finset.sum_congr (Finset.filter_congr ?_) (fun _ _ => rfl)
  intro j _
  obtain ⟨a, rfl⟩ : ∃ a : Fin 100000, j = ix1 a := ⟨j 0, eq_ix1 j⟩
  exact Scatter.flat_resultIdx d h1 h2 h3 h4 lin idx hidx a v

/-- Scatter-add of eight numbers per point into the rows of the eight-channel grid. -/
theorem scatter_rows8 (d : ScatterDims SV8 SN1 SN8)
    (h1 : d.updateWindowDims = [1]) (h2 : d.insertedWindowDims = [0]) (h3 : d.scatterDimsToOperandDims = [0]) (h4 : d.indexVectorDim = 1)
    (x : SV8.Idx → EReal) (lin : SN.Idx → BitVec 32) (idx : IVec SN1 32) (hidx : ∀ n : Fin 100000, idx (ix2 n 0) = lin (ix1 n))
    (upd : SN8.Idx → EReal) (v : Fin 16777216) (c : Fin 8) :
    Ideal.hostScatterAdd d x idx upd (ix2 v c) = x (ix2 v c) + binSum lin (fun n => upd (ix2 (n 0) c)) v :=
  Scatter.scatter_rows 8 d h1 h2 h3 h4 x lin idx hidx upd v c

/-- Scatter-add of one number per point into the rows of the one-channel grid. -/
theorem scatter_rows1 (d : ScatterDims SV1 SN1 SN1)
    (h1 : d.updateWindowDims = [1]) (h2 : d.insertedWindowDims = [0]) (h3 : d.scatterDimsToOperandDims = [0]) (h4 : d.indexVectorDim = 1)
    (x : SV1.Idx → EReal) (lin : SN.Idx → BitVec 32) (idx : IVec SN1 32) (hidx : ∀ n : Fin 100000, idx (ix2 n 0) = lin (ix1 n))
    (upd : SN1.Idx → EReal) (v : Fin 16777216) :
    Ideal.hostScatterAdd d x idx upd (ix2 v 0) = x (ix2 v 0) + binSum lin (fun n => upd (ix2 (n 0) 0)) v :=
  Scatter.scatter_rows 1 d h1 h2 h3 h4 x lin idx hidx upd v 0

end Cert.VoxelSpec

end
-- ==== Proof.KIPrefix.lean ====
/-
  The nine grids the voxel kernel reads, in the specification's words.

  Before the kernel runs, the host scatters each of the eight feature columns of the point cloud, and a column
  of ones, into a flat grid of 16777216 zeros at the points' flat voxel words, and re-lays each flat grid as a
  256 x 256 x 256 cube. Read at a cube index (x, y, z), the re-laying picks flat position
  x * 65536 + y * 256 + z, the scatter adds to the zero there the column's entries of the points whose word
  is that position, so the entry is the specification's bin sum: channel by channel the grid of feature sums,
  and for the column of ones the grid of point counts.
-/
import proofs.«163846_j35338990912022_1_alg».proof.Proof.KIGrids
import proofs.«163846_j35338990912022_1_alg».proof.Proof.ScatterRows
import Idealize.ShloMosaic.Lib.StableHlo.Run
import Idealize.ShloMosaic.Lib.Pipeline.Value
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo Idealize.ShloMosaic.ValueIdx Cert.VoxelSpec

variable (m : (ℓ : Loc nD τ sig) → Buf (Elt Ideal) ℓ)

/-! ## One scatter, read at a cube index -/

/-- One number per point scattered (added) into the flat grid of zeros at the points' words, re-laid as the cube. -/
def gridOf (lin : (⟨S100000, .i32⟩ : BufTy).Contents (Elt Ideal)) (col : (⟨S100000, .f32⟩ : BufTy).Contents (Elt Ideal)) :
    (⟨S256x256x256, .f32⟩ : BufTy).Contents (Elt Ideal) :=
  shapeCast S256x256x256
    (Host.scatterAdd (F := Ideal) scatter_S16777216_S100000x1_S100000_n_0_0_1
      (broadcastInDim S16777216 ![] bcast_S_S16777216 (constant (F := Ideal) S_ .f32 0x00000000#32))
      (broadcastInDim S100000x1 ![0] bcast_S100000_S100000x1_0 lin) col)
    shapeCasts_S16777216_S256x256x256

/-- A column of the point cloud's features as one number per point. -/
def colOf (feats : (⟨S100000x8, .f32⟩ : BufTy).Contents (Elt Ideal)) (off : Fin 2 → Nat) (h : S100000x8.Slices off S100000x1) :
    (⟨S100000, .f32⟩ : BufTy).Contents (Elt Ideal) :=
  shapeCast S100000 (extractStridedSlice S100000x1 off feats h) shapeCasts_S100000x1_S100000

/-- The cube entry at (x, y, z) is the bin sum of the column at flat position x * 65536 + y * 256 + z: the re-laying
    keeps row-major positions, the flat grid starts at zero, and the index column holds each point's word. -/
theorem gridOf_apply (lin : IVec S100000 32) (col : S100000.Idx → EReal) (x y z : Fin 256) :
    gridOf lin col (ix3 x y z) = binSum lin col (flat x y z) := by
  unfold gridOf
  refine (shapeCast_apply _ _ (ix3 x y z) (ix1 (flat x y z)) ?_).trans ?_
  · rw [Shape.rowMajor_val_one, Shape.rowMajor_val_three]
    show x.val * 65536 + y.val * 256 + z.val = (x.val * 256 + y.val) * 256 + z.val
    omega
  · show Ideal.hostScatterAdd _ _ _ _ _ = _
    rw [scatter_flat scatter_S16777216_S100000x1_S100000_n_0_0_1 rfl rfl rfl rfl _ lin _ ?_ col]
    · have e : broadcastInDim S16777216 ![] bcast_S_S16777216 (constant (F := Ideal) S_ .f32 0x00000000#32) (ix1 (flat x y z)) = 0 := by
        refine (broadcastInDim_apply _ bcast_S_S16777216 _ _ ix0 (fun a => a.elim0)).trans ?_
        rw [constant_apply, Ideal.ofBits_zero_f32]
      rw [e, zero_add]
    · intro n
      exact broadcastInDim_apply _ _ lin (ix2 n 0) (ix1 n) (fun a => match a with | ⟨0, _⟩ => rfl)

/-- Column `k` of the features at point `p` is the feature array's entry (p, k). -/
theorem colOf_apply (feats : S100000x8.Idx → EReal) (kk : Nat) (hk : kk < 8) (h : S100000x8.Slices ![0, kk] S100000x1)
    (p : Fin 100000) : colOf feats ![0, kk] h (ix1 p) = feats (ix2 p ⟨kk, hk⟩) := by
  unfold colOf
  refine (shapeCast_apply _ _ (ix1 p) (ix2 p 0) ?_).trans ?_
  · rw [Shape.rowMajor_val_two, Shape.rowMajor_val_one]
    show p.val * 1 + 0 = p.val
    omega
  · exact extractStridedSlice_apply _ feats h (ix2 p 0) (ix2 p ⟨kk, hk⟩) (fun a => match a with
      | ⟨0, _⟩ => by show p.val = 0 + p.val; omega
      | ⟨1, _⟩ => by show kk = kk + 0; omega)

/-- A grid that is the scatter of feature column `k` is the specification's grid of sums of channel `k`. -/
theorem sums_of_raw (lin : IVec S100000 32) (feats : S100000x8.Idx → EReal) (kk : Nat) (hk : kk < 8)
    (h : S100000x8.Slices ![0, kk] S100000x1) (G : S256x256x256.Idx → EReal)
    (hG : G = gridOf lin (colOf feats ![0, kk] h)) : G = sumsOf lin feats ⟨kk, hk⟩ := by
  subst hG
  funext i
  obtain ⟨x, y, z, rfl⟩ : ∃ x y z, i = ix3 x y z := ⟨i 0, i 1, i 2, eq_ix3 i⟩
  rw [gridOf_apply]
  show binSum lin _ (flat x y z) = binSum lin (fun n => feats (ix2 (n 0) ⟨kk, hk⟩)) (flat x y z)
  congr 1
  funext n
  obtain ⟨p, rfl⟩ : ∃ p, n = ix1 p := ⟨n 0, eq_ix1 n⟩
  exact colOf_apply feats kk hk h p

/-- A grid that is the scatter of a column of ones is the specification's grid of counts. -/
theorem cnt_of_raw (lin : IVec S100000 32) (G : S256x256x256.Idx → EReal)
    (hG : G = gridOf lin (broadcastInDim S100000 ![] bcast_S_S100000 (constant (F := Ideal) S_ .f32 0x3F800000#32))) :
    G = cntOf lin := by
  subst hG
  funext i
  obtain ⟨x, y, z, rfl⟩ : ∃ x y z, i = ix3 x y z := ⟨i 0, i 1, i 2, eq_ix3 i⟩
  rw [gridOf_apply]
  show binSum lin _ (flat x y z) = binSum lin (fun _ => one) (flat x y z)
  exact congrArg (fun f => binSum lin f (flat x y z))
    (funext fun n => broadcastInDim_apply _ bcast_S_S100000 _ n ix0 (fun a => a.elim0))

/-! ## The nine grids as the host leaves them

Each is the last of four host operations on the point words and one column; the operations before them are followed
through to the launch memory on both sides of each equation. -/

set_option maxHeartbeats 4000000 in
/-- Channel 0's grid is the scatter of the point cloud's feature column 0. -/
theorem v29_raw (c : Dev nD) :
    (Fr.V m c main_v29 : S256x256x256.Idx → EReal) = gridOf (Fr.V m c main_v23)
      (colOf (m ((c.tc : Thread nD τ).loc main_arg1)) ![0, 0] slices_S100000x8_S100000x1_0_0) := by
  unfold gridOf colOf
  dsimp only [Fr.V, Fr.V0]
  simp only [hostOps0, hostOps0_1, hostOps0_2, List.flatten_cons, List.flatten_nil, List.append_nil, List.cons_append, List.nil_append]
  after_results_simp
  rfl

set_option maxHeartbeats 4000000 in
/-- Channel 1's grid is the scatter of the point cloud's feature column 1. -/
theorem v35_raw (c : Dev nD) :
    (Fr.V m c main_v35 : S256x256x256.Idx → EReal) = gridOf (Fr.V m c main_v23)
      (colOf (m ((c.tc : Thread nD τ).loc main_arg1)) ![0, 1] slices_S100000x8_S100000x1_0_1) := by
  unfold gridOf colOf
  dsimp only [Fr.V, Fr.V0]
  simp only [hostOps0, hostOps0_1, hostOps0_2, List.flatten_cons, List.flatten_nil, List.append_nil, List.cons_append, List.nil_append]
  after_results_simp
  rfl

set_option maxHeartbeats 4000000 in
/-- Channel 2's grid is the scatter of the point cloud's feature column 2. -/
theorem v41_raw (c : Dev nD) :
    (Fr.V m c main_v41 : S256x256x256.Idx → EReal) = gridOf (Fr.V m c main_v23)
      (colOf (m ((c.tc : Thread nD τ).loc main_arg1)) ![0, 2] slices_S100000x8_S100000x1_0_2) := by
  unfold gridOf colOf
  dsimp only [Fr.V, Fr.V0]
  simp only [hostOps0, hostOps0_1, hostOps0_2, List.flatten_cons, List.flatten_nil, List.append_nil, List.cons_append, List.nil_append]
  after_results_simp
  rfl

set_option maxHeartbeats 4000000 in
/-- Channel 3's grid is the scatter of the point cloud's feature column 3. -/
theorem v47_raw (c : Dev nD) :
    (Fr.V m c main_v47 : S256x256x256.Idx → EReal) = gridOf (Fr.V m c main_v23)
      (colOf (m ((c.tc : Thread nD τ).loc main_arg1)) ![0, 3] slices_S100000x8_S100000x1_0_3) := by
  unfold gridOf colOf
  dsimp only [Fr.V, Fr.V0]
  simp only [hostOps0, hostOps0_1, hostOps0_2, List.flatten_cons, List.flatten_nil, List.append_nil, List.cons_append, List.nil_append]
  after_results_simp
  rfl

set_option maxHeartbeats 4000000 in
/-- Channel 4's grid is the scatter of the point cloud's feature column 4. -/
theorem v53_raw (c : Dev nD) :
    (Fr.V m c main_v53 : S256x256x256.Idx → EReal) = gridOf (Fr.V m c main_v23)
      (colOf (m ((c.tc : Thread nD τ).loc main_arg1)) ![0, 4] slices_S100000x8_S100000x1_0_4) := by
  unfold gridOf colOf
  dsimp only [Fr.V, Fr.V0]
  simp only [hostOps0, hostOps0_1, hostOps0_2, List.flatten_cons, List.flatten_nil, List.append_nil, List.cons_append, List.nil_append]
  after_results_simp
  rfl

set_option maxHeartbeats 4000000 in
/-- Channel 5's grid is the scatter of the point cloud's feature column 5. -/
theorem v59_raw (c : Dev nD) :
    (Fr.V m c main_v59 : S256x256x256.Idx → EReal) = gridOf (Fr.V m c main_v23)
      (colOf (m ((c.tc : Thread nD τ).loc main_arg1)) ![0, 5] slices_S100000x8_S100000x1_0_5) := by
  unfold gridOf colOf
  dsimp only [Fr.V, Fr.V0]
  simp only [hostOps0, hostOps0_1, hostOps0_2, List.flatten_cons, List.flatten_nil, List.append_nil, List.cons_append, List.nil_append]
  after_results_simp
  rfl

set_option maxHeartbeats 4000000 in
/-- Channel 6's grid is the scatter of the point cloud's feature column 6. -/
theorem v65_raw (c : Dev nD) :
    (Fr.V m c main_v65 : S256x256x256.Idx → EReal) = gridOf (Fr.V m c main_v23)
      (colOf (m ((c.tc : Thread nD τ).loc main_arg1)) ![0, 6] slices_S100000x8_S100000x1_0_6) := by
  unfold gridOf colOf
  dsimp only [Fr.V, Fr.V0]
  simp only [hostOps0, hostOps0_1, hostOps0_2, List.flatten_cons, List.flatten_nil, List.append_nil, List.cons_append, List.nil_append]
  after_results_simp
  rfl

set_option maxHeartbeats 4000000 in
/-- Channel 7's grid is the scatter of the point cloud's feature column 7. -/
theorem v71_raw (c : Dev nD) :
    (Fr.V m c main_v71 : S256x256x256.Idx → EReal) = gridOf (Fr.V m c main_v23)
      (colOf (m ((c.tc : Thread nD τ).loc main_arg1)) ![0, 7] slices_S100000x8_S100000x1_0_7) := by
  unfold gridOf colOf
  dsimp only [Fr.V, Fr.V0]
  simp only [hostOps0, hostOps0_1, hostOps0_2, List.flatten_cons, List.flatten_nil, List.append_nil, List.cons_append, List.nil_append]
  after_results_simp
  rfl

set_option maxHeartbeats 4000000 in
/-- The grid of counts is the scatter of a column of ones. -/
theorem v76_raw (c : Dev nD) :
    (Fr.V m c main_v76 : S256x256x256.Idx → EReal) = gridOf (Fr.V m c main_v23)
      (broadcastInDim S100000 ![] bcast_S_S100000 (constant (F := Ideal) S_ .f32 0x3F800000#32)) := by
  unfold gridOf
  dsimp only [Fr.V, Fr.V0]
  simp only [hostOps0, hostOps0_1, hostOps0_2, List.flatten_cons, List.flatten_nil, List.append_nil, List.cons_append, List.nil_append]
  after_results_simp
  rfl

/-! ## The two statements -/

/-- Channel `ch`'s grid, as the region finds it, is the specification's grid of sums over the points' words. -/
theorem sumsK_eq (c : Dev nD) (ch : Fin 8) :
    sumsK m c ch = Cert.VoxelSpec.sumsOf (Fr.V m c main_v23) (m ((c.tc : Thread nD τ).loc main_arg1)) ch :=
  match ch with
  | ⟨0, _⟩ => sums_of_raw _ _ 0 (by omega) _ _ (v29_raw m c)
  | ⟨1, _⟩ => sums_of_raw _ _ 1 (by omega) _ _ (v35_raw m c)
  | ⟨2, _⟩ => sums_of_raw _ _ 2 (by omega) _ _ (v41_raw m c)
  | ⟨3, _⟩ => sums_of_raw _ _ 3 (by omega) _ _ (v47_raw m c)
  | ⟨4, _⟩ => sums_of_raw _ _ 4 (by omega) _ _ (v53_raw m c)
  | ⟨5, _⟩ => sums_of_raw _ _ 5 (by omega) _ _ (v59_raw m c)
  | ⟨6, _⟩ => sums_of_raw _ _ 6 (by omega) _ _ (v65_raw m c)
  | ⟨7, _⟩ => sums_of_raw _ _ 7 (by omega) _ _ (v71_raw m c)

/-- The grid of counts, as the region finds it, is the specification's grid of counts over the points' words. -/
theorem cntK_eq (c : Dev nD) : cntK m c = Cert.VoxelSpec.cntOf (Fr.V m c main_v23) :=
  cnt_of_raw _ _ (v76_raw m c)

end Cert.KernelIdeal.Val

end
-- ==== Proof.LibNary3.lean ====
/-
  Result lemmas for a StableHLO operation over a LITERAL family of THREE operand references
  (a `stablehlo.concatenate` of three operands): the companion, for three, of the library's lemma
  for four. The value written at the result reference is the operation's function applied to the
  family that holds, at each position, the contents found at that position's own reference.

  With them: the three components of a dependent triple built by `Fin.cons`, read at the literal
  positions `0`, `1`, `2`; and the congruence of a three-piece concatenation in its pieces, which
  reduces an equation between two such concatenations to one equation per piece.
-/
import Idealize.ShloMosaic.Lib.StableHlo.Run

universe u

noncomputable section

namespace Idealize.ShloMosaic.StableHlo

variable {nD : Nat} {τ : Topo} {sig : RefSig} {Val : EltTy → Type}
variable {x a b y : Ref sig .tc}

/-- An operation over the literal family `![x, a, b]` of three references writes, at its result
    reference `y`, the value of its function at the family of operand contents spelled position
    by position: `Fin.cons (F ↑x) (Fin.cons (F ↑a) (Fin.cons (F ↑b) _))` rather than
    `fun k => F ↑(![x, a, b] k)`. Each operand's contents then stand at a literal reference, so a
    further rewriting of those contents (when the operands are themselves computed) can go on;
    under the binder the reference `![x, a, b] k` is no literal and nothing rewrites it. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same statement as `nary3_result` with the result reference kept out of the term index
    (`no_index`), the form under which a simplification pass can match it: the value at the result
    reference of an operation over `![x, a, b]` is its function at the position-by-position family of
    the three operands' contents. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-! ## A dependent triple read at its three positions -/

/-- The component at position `0` of a dependent triple `Fin.cons x p` is `x`. -/
theorem cons3_zero {α : Fin 3 → Sort u} (x : α 0) (p : (i : Fin 2) → α i.succ) :
    (Fin.cons x p : (i : Fin 3) → α i) 0 = x := rfl

/-- The component at position `1` of a dependent triple `Fin.cons x (Fin.cons a q)` is `a`. -/
theorem cons3_one {α : Fin 3 → Sort u} (x : α 0) (a : α 1) (q : (i : Fin 1) → α i.succ.succ) :
    (Fin.cons x (Fin.cons (α := fun i : Fin 2 => α i.succ) a q) : (i : Fin 3) → α i) 1 = a := rfl

/-- The component at position `2` of a dependent triple `Fin.cons x (Fin.cons a (Fin.cons b r))` is `b`. -/
theorem cons3_two {α : Fin 3 → Sort u} (x : α 0) (a : α 1) (b : α 2) (r : (i : Fin 0) → α i.succ.succ.succ) :
    (Fin.cons x (Fin.cons (α := fun i : Fin 2 => α i.succ) a (Fin.cons (α := fun i : Fin 1 => α i.succ.succ) b r)) :
      (i : Fin 3) → α i) 2 = b := rfl

/-! ## A three-piece concatenation is a function of its pieces -/

/-- Two concatenations of three pieces of the same shapes, along the same axis into the same shape, are
    equal when their pieces are equal one by one. (The side condition on the shapes does not see the
    pieces' contents, so it holds of either list as soon as it holds of one.) -/
theorem concatenate3_congr {β : Type} {t : Shape} (a : Fin t.rank) {s₁ s₂ s₃ : Shape}
    {x₁ y₁ : s₁.Idx → β} {x₂ y₂ : s₂.Idx → β} {x₃ y₃ : s₃.Idx → β}
    (h : Shape.Concatenates (([⟨s₁, x₁⟩, ⟨s₂, x₂⟩, ⟨s₃, x₃⟩] : List ((s : Shape) × (s.Idx → β))).map (·.1)) t a)
    (h' : Shape.Concatenates (([⟨s₁, y₁⟩, ⟨s₂, y₂⟩, ⟨s₃, y₃⟩] : List ((s : Shape) × (s.Idx → β))).map (·.1)) t a)
    (e₁ : x₁ = y₁) (e₂ : x₂ = y₂) (e₃ : x₃ = y₃) :
    concatenate t a [⟨s₁, x₁⟩, ⟨s₂, x₂⟩, ⟨s₃, x₃⟩] h = concatenate t a [⟨s₁, y₁⟩, ⟨s₂, y₂⟩, ⟨s₃, y₃⟩] h' := by
  subst e₁ e₂ e₃; rfl

end Idealize.ShloMosaic.StableHlo
-- ==== Proof.KITail.lean ====
/-
  What the result buffers hold after the seven host operations that follow the kernel.

  The kernel leaves three arrays: the running maximum along the first spatial axis, laid (channel, y, z), and the
  two row-maxima arrays, laid (x, channel, z) and (x, channel, y). The host gives the first a leading unit axis,
  swaps the first two axes of the other two and gives them a leading unit axis as well, and stacks the three along
  the new axis: so slice 0 of the first result is the first array as it is, slices 1 and 2 are the other two read
  with their first two coordinates exchanged. The second result is the third argument three times over.
-/
import proofs.«163846_j35338990912022_1_alg».proof.Proof.KIGrids
import proofs.«163846_j35338990912022_1_alg».proof.Proof.LibNary3
import Idealize.ShloMosaic.Lib.StableHlo.Run
import Idealize.ShloMosaic.Lib.Pipeline.Value
import Idealize.ShloMosaic.Lib.Pipeline.FrameSuffix

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The core's buffers after the host operations that follow the region: those operations run from the region's
    exit contents, the kernel's arrays as the region leaves them and every other buffer as the region found it. -/
abbrev T (c : Dev nD) (b : Ref sig .tc) : Buf (Elt Ideal) ((c.tc : Thread nD τ).loc b) :=
  Pipeline.afterTail₀ cfgs (Fr.dats m) 0 (Fr.V0 m) [hostOps1] c b

/-- No host operation before the region writes the third argument: the region finds it as launched. -/
theorem V0_arg2 (c : Dev nD) : Fr.V0 m c (Proc.devRef .tc main_arg2) = m ((c.tc : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- The second result: the third argument, which neither the host nor the kernel writes, three times over. -/
theorem tail84 (c : Dev nD) : T m c main_v84 = concatenate S3 0 [⟨S1, m ((c.tc : Thread nD τ).loc main_arg2)⟩, ⟨S1, m ((c.tc : Thread nD τ).loc main_arg2)⟩, ⟨S1, m ((c.tc : Thread nD τ).loc main_arg2)⟩] concatenates_S1_S1_S1_S3_d0 := by
  unfold T Pipeline.afterTail₀
  show StableHlo.after hostOps1 _ (Proc.devRef .tc main_v84) = _
  simp only [after_cons, after_nil]
  rw [nary3_result]
  repeat (first
    | (rw [nary_result_ne]; rotate_left; decide)
    | (rw [unary_result_ne]; rotate_left; decide))
  rw [Pipeline.withArrays_of_ne _ _ _ _ main_arg2 (by decide)]
  rw [V0_arg2]
  rfl

/-- The first array with a leading unit axis. -/
def pieceX (c : Dev nD) : S1x8x256x256.Idx → EReal :=
  broadcastInDim S1x8x256x256 ![1, 2, 3] bcast_S8x256x256_S1x8x256x256_1_2_3 ((Fr.dats m 0 c).arrAt 9 cfg0.N)
/-- The second array, its first two axes exchanged, with a leading unit axis. -/
def pieceY (c : Dev nD) : S1x8x256x256.Idx → EReal :=
  broadcastInDim S1x8x256x256 ![1, 2, 3] bcast_S8x256x256_S1x8x256x256_1_2_3
    (transpose S8x256x256 [1, 0, 2] ((Fr.dats m 0 c).arrAt 10 cfg0.N) transposes_S256x8x256_S8x256x256_1_0_2)
/-- The third array, its first two axes exchanged, with a leading unit axis. -/
def pieceZ (c : Dev nD) : S1x8x256x256.Idx → EReal :=
  broadcastInDim S1x8x256x256 ![1, 2, 3] bcast_S8x256x256_S1x8x256x256_1_2_3
    (transpose S8x256x256 [1, 0, 2] ((Fr.dats m 0 c).arrAt 11 cfg0.N) transposes_S256x8x256_S8x256x256_1_0_2)

set_option maxHeartbeats 4000000 in
/-- The first result as the host's operations compose it from the three arrays the kernel leaves: the three pieces
    stacked along the new leading axis. -/
theorem tail83_raw (c : Dev nD) : (T m c main_v83 : S3x8x256x256.Idx → EReal) =
    concatenate S3x8x256x256 0
      [⟨S1x8x256x256, pieceX m c⟩, ⟨S1x8x256x256, pieceY m c⟩, ⟨S1x8x256x256, pieceZ m c⟩]
      concatenates_S1x8x256x256_S1x8x256x256_S1x8x256x256_S3x8x256x256_d0 := by
  have e9 : Pipeline.withArrays (cfgs 0).spec c (Fr.V0 m c) (fun w => (Fr.dats m 0 c).arrAt w (cfgs 0).N) (Proc.devRef .tc main_v77_0)
      = (Fr.dats m 0 c).arrAt 9 cfg0.N := Pipeline.withArrays_arr spec0 launch0.win.arr_inj c _ _ 9
  have e10 : Pipeline.withArrays (cfgs 0).spec c (Fr.V0 m c) (fun w => (Fr.dats m 0 c).arrAt w (cfgs 0).N) (Proc.devRef .tc main_v77_1)
      = (Fr.dats m 0 c).arrAt 10 cfg0.N := Pipeline.withArrays_arr spec0 launch0.win.arr_inj c _ _ 10
  have e11 : Pipeline.withArrays (cfgs 0).spec c (Fr.V0 m c) (fun w => (Fr.dats m 0 c).arrAt w (cfgs 0).N) (Proc.devRef .tc main_v77_2)
      = (Fr.dats m 0 c).arrAt 11 cfg0.N := Pipeline.withArrays_arr spec0 launch0.win.arr_inj c _ _ 11
  unfold T Pipeline.afterTail₀ pieceX pieceY pieceZ
  show StableHlo.after hostOps1 _ (Proc.devRef .tc main_v83) = _
  simp only [after_cons, after_nil]
  rw [nary_result_ne]; rotate_left; decide
  rw [nary3_result]
  repeat (first
    | rw [unary_result]
    | (rw [unary_result_ne]; rotate_left; decide))
  rw [e9, e10, e11]
  rfl

set_option maxHeartbeats 1000000 in
/-- The first result read slice by slice: slice 0 is the first array, slices 1 and 2 the other two with their first two
    coordinates exchanged. -/
theorem tail83 (c : Dev nD) : T m c main_v83 = fun i : S3x8x256x256.Idx => match i 0 with
    | ⟨0, _⟩ => (Fr.dats m 0 c).arrAt 9 cfg0.N (ix3 (i 1) (i 2) (i 3))
    | ⟨1, _⟩ => (Fr.dats m 0 c).arrAt 10 cfg0.N (ix3 (i 2) (i 1) (i 3))
    | ⟨2, _⟩ => (Fr.dats m 0 c).arrAt 11 cfg0.N (ix3 (i 2) (i 1) (i 3)) := by
  refine (tail83_raw m c).trans ?_
  funext i
  obtain ⟨s, a, y, z, rfl⟩ : ∃ s a y z, i = ix4 s a y z := ⟨i 0, i 1, i 2, i 3, eq_ix4 i⟩
  have hoff : ∀ b : Fin 4, b.cast (rfl : S1x8x256x256.rank = S3x8x256x256.rank) ≠ (0 : Fin 4) →
      ((ix4 (0 : Fin 1) a y z : S1x8x256x256.Idx) b).val = ((ix4 s a y z : S3x8x256x256.Idx) (b.cast rfl)).val :=
    fun b hb => match b with | ⟨0, _⟩ => absurd rfl hb | ⟨1, _⟩ => rfl | ⟨2, _⟩ => rfl | ⟨3, _⟩ => rfl
  have hbc : ∀ X : S8x256x256.Idx → EReal,
      broadcastInDim S1x8x256x256 ![1, 2, 3] bcast_S8x256x256_S1x8x256x256_1_2_3 X (ix4 (0 : Fin 1) a y z) = X (ix3 a y z) :=
    fun X => broadcastInDim_apply _ bcast_S8x256x256_S1x8x256x256_1_2_3 X (ix4 (0 : Fin 1) a y z) (ix3 a y z)
      (fun b => match b with | ⟨0, _⟩ => rfl | ⟨1, _⟩ => rfl | ⟨2, _⟩ => rfl)
  have htr : ∀ X : S256x8x256.Idx → EReal,
      transpose S8x256x256 [1, 0, 2] X transposes_S256x8x256_S8x256x256_1_0_2 (ix3 a y z) = X (ix3 y a z) :=
    fun X => transpose_apply _ X transposes_S256x8x256_S8x256x256_1_0_2 (ix3 a y z) (ix3 y a z)
      (fun b => match b with | ⟨0, _⟩ => rfl | ⟨1, _⟩ => rfl | ⟨2, _⟩ => rfl)
  match s with
  | ⟨0, h0⟩ =>
    show _ = (Fr.dats m 0 c).arrAt 9 cfg0.N (ix3 a y z)
    refine (concatenate_apply_piece (α := EReal) (t := S3x8x256x256) (0 : Fin 4)
      [⟨S1x8x256x256, pieceX m c⟩, ⟨S1x8x256x256, pieceY m c⟩, ⟨S1x8x256x256, pieceZ m c⟩]
      concatenates_S1x8x256x256_S1x8x256x256_S1x8x256x256_S3x8x256x256_d0 (ix4 (⟨0, h0⟩ : Fin 3) a y z)
      0 (by show (0 : Nat) < 3; omega) S1x8x256x256 (pieceX m c) rfl rfl 0 rfl (ix4 (0 : Fin 1) a y z) hoff rfl).trans ?_
    exact hbc _
  | ⟨1, h1⟩ =>
    show _ = (Fr.dats m 0 c).arrAt 10 cfg0.N (ix3 y a z)
    refine (concatenate_apply_piece (α := EReal) (t := S3x8x256x256) (0 : Fin 4)
      [⟨S1x8x256x256, pieceX m c⟩, ⟨S1x8x256x256, pieceY m c⟩, ⟨S1x8x256x256, pieceZ m c⟩]
      concatenates_S1x8x256x256_S1x8x256x256_S1x8x256x256_S3x8x256x256_d0 (ix4 (⟨1, h1⟩ : Fin 3) a y z)
      1 (by show (1 : Nat) < 3; omega) S1x8x256x256 (pieceY m c) rfl rfl 1 rfl (ix4 (0 : Fin 1) a y z) hoff rfl).trans ?_
    exact (hbc _).trans (htr _)
  | ⟨2, h2⟩ =>
    show _ = (Fr.dats m 0 c).arrAt 11 cfg0.N (ix3 y a z)
    refine (concatenate_apply_piece (α := EReal) (t := S3x8x256x256) (0 : Fin 4)
      [⟨S1x8x256x256, pieceX m c⟩, ⟨S1x8x256x256, pieceY m c⟩, ⟨S1x8x256x256, pieceZ m c⟩]
      concatenates_S1x8x256x256_S1x8x256x256_S1x8x256x256_S3x8x256x256_d0 (ix4 (⟨2, h2⟩ : Fin 3) a y z)
      2 (by show (2 : Nat) < 3; omega) S1x8x256x256 (pieceZ m c) rfl rfl 2 rfl (ix4 (0 : Fin 1) a y z) hoff rfl).trans ?_
    exact (hbc _).trans (htr _)

end Cert.KernelIdeal.Val

end
-- ==== Proof.KIValue.lean ====
/-
  The idealized kernel program's run with its results named.

  After the region the three output arrays hold the projections of the voxel grid (the maximum of the voxel values
  along the first, the second and the third spatial axis), the host operations after it re-lay the second and
  the third and stack the three; the nine grids the region reads are the per-channel sums and the counts of the
  points that fall in each voxel. So the first result is `viewMask` of the voxel values of the cloud, the second
  the class label three times, and the arguments are as launched.
-/
import proofs.«163846_j35338990912022_1_alg».proof.Proof.KIFrame
import proofs.«163846_j35338990912022_1_alg».proof.Proof.KIArrays
import proofs.«163846_j35338990912022_1_alg».proof.Proof.KIPrefix
import proofs.«163846_j35338990912022_1_alg».proof.Proof.KITail

noncomputable section

namespace Cert.KernelIdeal.Val

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- Three arrays that hold the three projections of `v` (the second and the third with the channel on their middle
    axis), re-laid and stacked on a leading axis, are `viewMask v`. -/
theorem stack_eq (v : Fin 256 → Fin 8 → Fin 256 → Fin 256 → EReal)
    (A9 : S8x256x256.Idx → EReal) (A10 A11 : S256x8x256.Idx → EReal)
    (h9 : A9 = fun i => Cert.VoxelSpec.projX v (i 0) (i 1) (i 2))
    (h10 : A10 = fun i => Cert.VoxelSpec.projY v (i 1) (i 0) (i 2))
    (h11 : A11 = fun i => Cert.VoxelSpec.projZ v (i 1) (i 0) (i 2)) :
    (fun i : S3x8x256x256.Idx => match i 0 with
      | ⟨0, _⟩ => A9 (ix3 (i 1) (i 2) (i 3))
      | ⟨1, _⟩ => A10 (ix3 (i 2) (i 1) (i 3))
      | ⟨2, _⟩ => A11 (ix3 (i 2) (i 1) (i 3))) = Cert.VoxelSpec.viewMask v := by
  subst h9 h10 h11
  funext i
  unfold Cert.VoxelSpec.viewMask
  split
  · next h => rw [h]
  · next h => rw [h]
  · next h => rw [h]

/-- The voxel values computed from the nine grids the region reads are the voxel values of the cloud. -/
theorem voxOf_grids (c : Dev nD) :
    Cert.VoxelSpec.voxOf (sumsK m c) (cntK m c)
      = Cert.VoxelSpec.vox (Fr.V m c main_v23) (m ((c.tc : Thread nD τ).loc main_arg1)) :=
  show Cert.VoxelSpec.voxOf (sumsK m c) (cntK m c)
      = Cert.VoxelSpec.voxOf (Cert.VoxelSpec.sumsOf (Fr.V m c main_v23) (m ((c.tc : Thread nD τ).loc main_arg1)))
          (Cert.VoxelSpec.cntOf (Fr.V m c main_v23)) from
    congrArg₂ Cert.VoxelSpec.voxOf (funext fun ch => sumsK_eq m c ch) (cntK_eq m c)

/-- The first result after the host operations that follow the region: the three projections, stacked. -/
theorem result_eq (c : Dev nD) :
    Pipeline.afterTail₀ cfgs (Fr.dats m) 0 (Fr.V0 m) [hostOps1] c main_v83
      = Cert.VoxelSpec.viewMask (Cert.VoxelSpec.vox (Fr.V m c main_v23) (m ((c.tc : Thread nD τ).loc main_arg1))) :=
  (tail83 m c).trans ((stack_eq _ _ _ _ (arrX m c) (arrY m c) (arrZ m c)).trans
    (congrArg Cert.VoxelSpec.viewMask (voxOf_grids m c)))

/-- Every weakly fair execution of the idealized kernel program ends with the first result at the stacked
    projections of the cloud's voxel values, the second at the label three times, the arguments unchanged. -/
theorem run_value :
    θ_run defs (onTc (τ := τ) (main (F := Ideal))) ⟨m, fun _ => 0, ρ⟩ (fun r => ∀ c : Dev nD,
      r.2.mem ((c.tc : Thread nD τ).loc main_v83)
        = Cert.VoxelSpec.viewMask (Cert.VoxelSpec.vox (Fr.V m c main_v23) (m ((c.tc : Thread nD τ).loc main_arg1)))
      ∧ r.2.mem ((c.tc : Thread nD τ).loc main_v84)
        = concatenate S3 0 [⟨S1, m ((c.tc : Thread nD τ).loc main_arg2)⟩, ⟨S1, m ((c.tc : Thread nD τ).loc main_arg2)⟩, ⟨S1, m ((c.tc : Thread nD τ).loc main_arg2)⟩] concatenates_S1_S1_S1_S3_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Fr.post_rest m h c).1.trans (result_eq m c), (Fr.post_rest m h c).2.1.trans (tail84 m c),
      (Fr.post_rest m h c).2.2.1, (Fr.post_rest m h c).2.2.2.1, (Fr.post_rest m h c).2.2.2.2⟩) (Fr.run_main m ρ)

end Cert.KernelIdeal.Val

end
-- ==== Proof.RefValue.lean ====
/-
  The reference program's first result is the three projections of the voxel grid.

  The reference scatters the points' features, and a count of ones, into the flat grid of 256 x 256 x 256 voxels,
  divides the sums by the larger of the count and one, reshapes the flat grid to its three spatial axes (with a unit
  leading axis and the eight channels trailing), takes the maximum along each spatial axis from minus infinity,
  moves the channels in front of the two remaining spatial axes, and stacks the three results on a new leading axis.

  Read at an index, step by step: a stacked result at leading coordinate `k` is piece `k`; a piece at `(0, c, a, b)` is
  its reduction at `(0, a, b, c)`; a reduction along one axis is the fold of `max` from the bottom over that axis's
  coordinate; the reshaped grid at `(0, x, y, z, c)` is the flat grid at row `x * 65536 + y * 256 + z`, column `c`;
  there the quotient is the sum of the features of the points in that voxel over the larger of their number and one,
  because each scatter adds into a zero array, row by row, the updates of the points whose voxel word is that row.
  That is the voxel's value of the specification, and the three folds are its three projections.
-/
import proofs.«163846_j35338990912022_1_alg».proof.Proof.RefRead
import proofs.«163846_j35338990912022_1_alg».proof.Proof.VoxelSpec
import proofs.«163846_j35338990912022_1_alg».proof.Proof.ScatterRows
import Idealize.ShloMosaic.Lib.Pipeline.Value
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.ReadP Cert.VoxelSpec
open Idealize.ShloMosaic Idealize.ShloMosaic.ValueIdx Idealize.ShloMosaic.TcCoe Idealize.SL.Sem

/-! ## The constants -/

/-- The float word of minus infinity is the bottom of the extended reals. -/
theorem negInf_eq_bot : Ideal.ofBits .f32 0xFF800000#32 = (⊥ : EReal) := by
  simp [Ideal.ofBits, Ideal.ieee]

/-! ## A maximum along one spatial axis is a fold of `max` from the bottom -/

/-- The maximum along the first spatial axis of a grid with a unit leading axis and trailing channels, taken from an
    initial value that is minus infinity: the fold of `max` from the bottom over that axis. -/
theorem reduce_axis1 (g : S1x256x256x256x8.Idx → EReal) (init : S_.Idx → EReal) (hinit : ∀ i, init i = ⊥)
    (c : Fin 8) (y z : Fin 256) :
    Host.reduce (FloatOps.maximumf (F := Ideal) (φ := .f32)) g init reducesTo_S1x256x256x256x8_S1x256x256x8_d1 h_S_
        (ix4 0 y z c)
      = (Finset.univ : Finset (Fin 256)).fold max ⊥ (fun x => g (ix5 0 x y z c)) := by
  rw [Host.reduce_eq_fold_single _ g init _ (by decide : S1x256x256x256x8.Reduces [1] S1x256x256x8) h_S_ (ix4 0 y z c), hinit]
  have hl : ∀ x : Fin 256,
      (by decide : S1x256x256x256x8.Reduces [1] S1x256x256x8).lift (ix4 0 y z c) x = ix5 0 x y z c := by
    intro x; funext a
    match a with
    | ⟨0, _⟩ => exact Fin.ext rfl
    | ⟨1, _⟩ => exact Fin.ext rfl
    | ⟨2, _⟩ => exact Fin.ext rfl
    | ⟨3, _⟩ => exact Fin.ext rfl
    | ⟨4, _⟩ => exact Fin.ext rfl
  have hf : (g ∘ (by decide : S1x256x256x256x8.Reduces [1] S1x256x256x8).lift (ix4 0 y z c))
      = fun x : Fin 256 => g (ix5 0 x y z c) := funext fun k => congrArg g (hl k)
  rw [hf]
  rfl

/-- The maximum along the second spatial axis, likewise. -/
theorem reduce_axis2 (g : S1x256x256x256x8.Idx → EReal) (init : S_.Idx → EReal) (hinit : ∀ i, init i = ⊥)
    (c : Fin 8) (x z : Fin 256) :
    Host.reduce (FloatOps.maximumf (F := Ideal) (φ := .f32)) g init reducesTo_S1x256x256x256x8_S1x256x256x8_d2 h_S_
        (ix4 0 x z c)
      = (Finset.univ : Finset (Fin 256)).fold max ⊥ (fun y => g (ix5 0 x y z c)) := by
  rw [Host.reduce_eq_fold_single _ g init _ (by decide : S1x256x256x256x8.Reduces [2] S1x256x256x8) h_S_ (ix4 0 x z c), hinit]
  have hl : ∀ y : Fin 256,
      (by decide : S1x256x256x256x8.Reduces [2] S1x256x256x8).lift (ix4 0 x z c) y = ix5 0 x y z c := by
    intro y; funext a
    match a with
    | ⟨0, _⟩ => exact Fin.ext rfl
    | ⟨1, _⟩ => exact Fin.ext rfl
    | ⟨2, _⟩ => exact Fin.ext rfl
    | ⟨3, _⟩ => exact Fin.ext rfl
    | ⟨4, _⟩ => exact Fin.ext rfl
  have hf : (g ∘ (by decide : S1x256x256x256x8.Reduces [2] S1x256x256x8).lift (ix4 0 x z c))
      = fun y : Fin 256 => g (ix5 0 x y z c) := funext fun k => congrArg g (hl k)
  rw [hf]
  rfl

/-- The maximum along the third spatial axis, likewise. -/
theorem reduce_axis3 (g : S1x256x256x256x8.Idx → EReal) (init : S_.Idx → EReal) (hinit : ∀ i, init i = ⊥)
    (c : Fin 8) (x y : Fin 256) :
    Host.reduce (FloatOps.maximumf (F := Ideal) (φ := .f32)) g init reducesTo_S1x256x256x256x8_S1x256x256x8_d3 h_S_
        (ix4 0 x y c)
      = (Finset.univ : Finset (Fin 256)).fold max ⊥ (fun z => g (ix5 0 x y z c)) := by
  rw [Host.reduce_eq_fold_single _ g init _ (by decide : S1x256x256x256x8.Reduces [3] S1x256x256x8) h_S_ (ix4 0 x y c), hinit]
  have hl : ∀ z : Fin 256,
      (by decide : S1x256x256x256x8.Reduces [3] S1x256x256x8).lift (ix4 0 x y c) z = ix5 0 x y z c := by
    intro z; funext a
    match a with
    | ⟨0, _⟩ => exact Fin.ext rfl
    | ⟨1, _⟩ => exact Fin.ext rfl
    | ⟨2, _⟩ => exact Fin.ext rfl
    | ⟨3, _⟩ => exact Fin.ext rfl
    | ⟨4, _⟩ => exact Fin.ext rfl
  have hf : (g ∘ (by decide : S1x256x256x256x8.Reduces [3] S1x256x256x8).lift (ix4 0 x y c))
      = fun z : Fin 256 => g (ix5 0 x y z c) := funext fun k => congrArg g (hl k)
  rw [hf]
  rfl

/-! ## Three pieces stacked on a leading axis, read at an index -/

/-- A concatenation, along the leading axis, of three pieces with a unit leading axis, read at an index whose leading
    coordinate is `0`: piece `0` at the other three coordinates. -/
theorem concat3_at0 (p0 p1 p2 : S1x8x256x256.Idx → EReal) (i : S3x8x256x256.Idx) (h0 : (i 0).val = 0) :
    concatenate S3x8x256x256 0 [⟨S1x8x256x256, p0⟩, ⟨S1x8x256x256, p1⟩, ⟨S1x8x256x256, p2⟩]
        concatenates_S1x8x256x256_S1x8x256x256_S1x8x256x256_S3x8x256x256_d0 i
      = p0 (ix4 0 (i 1) (i 2) (i 3)) :=
  concatenate_apply_piece (0 : Fin 4) _ _ i 0 (by show (0 : Nat) < 3; omega) S1x8x256x256 p0 rfl rfl 0 rfl (ix4 0 (i 1) (i 2) (i 3))
    (fun b hb => match b, hb with
      | ⟨0, _⟩, hb => absurd rfl hb
      | ⟨1, _⟩, _ => rfl
      | ⟨2, _⟩, _ => rfl
      | ⟨3, _⟩, _ => rfl)
    (by show 0 + 0 = (i 0).val; rw [h0])

/-- A concatenation, along the leading axis, of three pieces with a unit leading axis, read at an index whose leading
    coordinate is `1`: piece `1` at the other three coordinates. -/
theorem concat3_at1 (p0 p1 p2 : S1x8x256x256.Idx → EReal) (i : S3x8x256x256.Idx) (h0 : (i 0).val = 1) :
    concatenate S3x8x256x256 0 [⟨S1x8x256x256, p0⟩, ⟨S1x8x256x256, p1⟩, ⟨S1x8x256x256, p2⟩]
        concatenates_S1x8x256x256_S1x8x256x256_S1x8x256x256_S3x8x256x256_d0 i
      = p1 (ix4 0 (i 1) (i 2) (i 3)) :=
  concatenate_apply_piece (0 : Fin 4) _ _ i 1 (by show (1 : Nat) < 3; omega) S1x8x256x256 p1 rfl rfl 1 rfl (ix4 0 (i 1) (i 2) (i 3))
    (fun b hb => match b, hb with
      | ⟨0, _⟩, hb => absurd rfl hb
      | ⟨1, _⟩, _ => rfl
      | ⟨2, _⟩, _ => rfl
      | ⟨3, _⟩, _ => rfl)
    (by show 1 + 0 = (i 0).val; rw [h0])

/-- A concatenation, along the leading axis, of three pieces with a unit leading axis, read at an index whose leading
    coordinate is `2`: piece `2` at the other three coordinates. -/
theorem concat3_at2 (p0 p1 p2 : S1x8x256x256.Idx → EReal) (i : S3x8x256x256.Idx) (h0 : (i 0).val = 2) :
    concatenate S3x8x256x256 0 [⟨S1x8x256x256, p0⟩, ⟨S1x8x256x256, p1⟩, ⟨S1x8x256x256, p2⟩]
        concatenates_S1x8x256x256_S1x8x256x256_S1x8x256x256_S3x8x256x256_d0 i
      = p2 (ix4 0 (i 1) (i 2) (i 3)) :=
  concatenate_apply_piece (0 : Fin 4) _ _ i 2 (by show (2 : Nat) < 3; omega) S1x8x256x256 p2 rfl rfl 2 rfl (ix4 0 (i 1) (i 2) (i 3))
    (fun b hb => match b, hb with
      | ⟨0, _⟩, hb => absurd rfl hb
      | ⟨1, _⟩, _ => rfl
      | ⟨2, _⟩, _ => rfl
      | ⟨3, _⟩, _ => rfl)
    (by show 2 + 0 = (i 0).val; rw [h0])

/-! ## The two scatters, each into a zero array -/

/-- The scatter of the points' feature rows into a zero array: row `v`, channel `c` holds the sum of the
    channel-`c` updates of the points whose voxel word is `v`. -/
theorem sums_at (lin : SN.Idx → BitVec 32) (idx : IVec SN1 32) (hidx : ∀ n : Fin 100000, idx (ix2 n 0) = lin (ix1 n))
    (x : SV8.Idx → EReal) (hx : ∀ i, x i = 0) (upd : SN8.Idx → EReal) (v : Fin 16777216) (c : Fin 8) :
    Host.scatterAdd (F := Ideal) (φ := .f32) scatter_S16777216x8_S100000x1_S100000x8_1_0_0_1 x idx upd (ix2 v c)
      = binSum lin (fun n => upd (ix2 (n 0) c)) v := by
  show Ideal.hostScatterAdd scatter_S16777216x8_S100000x1_S100000x8_1_0_0_1 x idx upd (ix2 v c) = _
  rw [scatter_rows8 _ rfl rfl rfl rfl x lin idx hidx upd v c, hx, zero_add]

/-- The scatter of one number per point into a zero column: row `v` holds the sum of the updates of the points
    whose voxel word is `v`. -/
theorem cnt_at (lin : SN.Idx → BitVec 32) (idx : IVec SN1 32) (hidx : ∀ n : Fin 100000, idx (ix2 n 0) = lin (ix1 n))
    (x : SV1.Idx → EReal) (hx : ∀ i, x i = 0) (upd : SN1.Idx → EReal) (v : Fin 16777216) :
    Host.scatterAdd (F := Ideal) (φ := .f32) scatter_S16777216x1_S100000x1_S100000x1_1_0_0_1 x idx upd (ix2 v 0)
      = binSum lin (fun n => upd (ix2 (n 0) 0)) v := by
  show Ideal.hostScatterAdd scatter_S16777216x1_S100000x1_S100000x1_1_0_0_1 x idx upd (ix2 v 0) = _
  rw [scatter_rows1 _ rfl rfl rfl rfl x lin idx hidx upd v, hx, zero_add]

/-! ## The reference's stages at an index -/

section Stages

variable (x0 : (⟨S100000x4, .f32⟩ : BufTy).Contents (Elt Ideal)) (x1 : (⟨S100000x8, .f32⟩ : BufTy).Contents (Elt Ideal))

/-- The index array of the first scatter holds, in its one column, the points' voxel words. -/
theorem v25_col (n : Fin 100000) :
    val_main_v25 (F := Ideal) x0 (ix2 n 0) = val_main_v23 (F := Ideal) x0 (ix1 n) := by
  rw [val_main_v25_apply]
  exact congrArg (val_main_v23 (F := Ideal) x0) (funext fun a => match a with | ⟨0, _⟩ => rfl)

/-- So does the index array of the second. -/
theorem v30_col (n : Fin 100000) :
    val_main_v30 (F := Ideal) x0 (ix2 n 0) = val_main_v23 (F := Ideal) x0 (ix1 n) := by
  rw [val_main_v30_apply]
  exact congrArg (val_main_v23 (F := Ideal) x0) (funext fun a => match a with | ⟨0, _⟩ => rfl)

/-- The grid of sums: row `v`, channel `c` is the sum of the channel-`c` features of the points in voxel `v`. -/
theorem v26_at (v : Fin 16777216) (c : Fin 8) :
    val_main_v26 (F := Ideal) x0 x1 (ix2 v c)
      = binSum (val_main_v23 (F := Ideal) x0) (fun n => x1 (ix2 (n 0) c)) v := by
  unfold val_main_v26
  exact sums_at _ _ (v25_col x0) _
    (fun i => by rw [val_main_v24_apply, val_main_cst_4_apply]; exact Ideal.ofBits_zero_f32) x1 v c

/-- The grid of counts: row `v` is the number of points in voxel `v`, each counted as the float one. -/
theorem v31_at (v : Fin 16777216) :
    val_main_v31 (F := Ideal) x0 (ix2 v 0) = binSum (val_main_v23 (F := Ideal) x0) (fun _ => one) v := by
  unfold val_main_v31
  rw [cnt_at _ _ (v30_col x0) _
    (fun i => by rw [val_main_v29_apply, val_main_cst_6_apply]; exact Ideal.ofBits_zero_f32) _ v]
  exact congrArg (fun f => binSum (val_main_v23 (F := Ideal) x0) f v)
    (funext fun n => by rw [val_main_v28_apply, val_main_cst_5_apply]; rfl)

/-- The quotient grid: the sum over the larger of the count and one. -/
theorem v35_at (v : Fin 16777216) (c : Fin 8) :
    val_main_v35 (F := Ideal) x0 x1 (ix2 v c)
      = Ideal.div (binSum (val_main_v23 (F := Ideal) x0) (fun n => x1 (ix2 (n 0) c)) v)
          (max (binSum (val_main_v23 (F := Ideal) x0) (fun _ => one) v) one) := by
  rw [val_main_v35_apply, v26_at, val_main_v34_apply,
      show idx_main_v34 (ix2 v c) = ix2 v 0 from funext fun a => match a with
        | ⟨0, _⟩ => rfl | ⟨1, _⟩ => rfl,
      val_main_v33_apply, v31_at, val_main_v32_apply, val_main_cst_7_apply]
  rfl

/-- The reshaped grid at `(0, x, y, z, c)` is the specification's voxel value: the flat row of `(x, y, z)` is
    `x * 65536 + y * 256 + z`. -/
theorem v36_at (x y z : Fin 256) (c : Fin 8) :
    val_main_v36 (F := Ideal) x0 x1 (ix5 0 x y z c) = vox (val_main_v23 (F := Ideal) x0) x1 x c y z := by
  rw [val_main_v36_apply,
      show idx_main_v36 (ix5 (0 : Fin 1) x y z c) = ix2 (flat x y z) c from funext fun a => match a with
        | ⟨0, _⟩ => Fin.ext (by
            show ((((0 * 256 + x.val) * 256 + y.val) * 256 + z.val) * 8 + c.val) / 8 = x.val * 65536 + y.val * 256 + z.val
            have := c.isLt; omega)
        | ⟨1, _⟩ => Fin.ext (by
            show ((((0 * 256 + x.val) * 256 + y.val) * 256 + z.val) * 8 + c.val) % 8 = c.val
            have := c.isLt; omega),
      v35_at]
  rfl

/-- The first piece at `(0, c, y, z)`: the maximum of the voxel values along the first spatial axis. -/
theorem pieceX (c : Fin 8) (y z : Fin 256) :
    val_main_v38 (F := Ideal) x0 x1 (ix4 0 c y z)
      = projX (vox (val_main_v23 (F := Ideal) x0) x1) c y z := by
  rw [val_main_v38_apply,
      show idx_main_v38 (ix4 (0 : Fin 1) c y z) = ix4 0 y z c from funext fun a => match a with
        | ⟨0, _⟩ => rfl | ⟨1, _⟩ => rfl | ⟨2, _⟩ => rfl | ⟨3, _⟩ => rfl]
  unfold val_main_v37
  rw [reduce_axis1 _ _ (fun i => by rw [val_main_cst_8_apply]; exact negInf_eq_bot) c y z]
  unfold projX
  exact congrArg (fun f => (Finset.univ : Finset (Fin 256)).fold max ⊥ f) (funext fun x => v36_at x0 x1 x y z c)

/-- The second piece at `(0, c, x, z)`: the maximum along the second spatial axis. -/
theorem pieceY (c : Fin 8) (x z : Fin 256) :
    val_main_v40 (F := Ideal) x0 x1 (ix4 0 c x z)
      = projY (vox (val_main_v23 (F := Ideal) x0) x1) c x z := by
  rw [val_main_v40_apply,
      show idx_main_v40 (ix4 (0 : Fin 1) c x z) = ix4 0 x z c from funext fun a => match a with
        | ⟨0, _⟩ => rfl | ⟨1, _⟩ => rfl | ⟨2, _⟩ => rfl | ⟨3, _⟩ => rfl]
  unfold val_main_v39
  rw [reduce_axis2 _ _ (fun i => by rw [val_main_cst_9_apply]; exact negInf_eq_bot) c x z]
  unfold projY
  exact congrArg (fun f => (Finset.univ : Finset (Fin 256)).fold max ⊥ f) (funext fun y => v36_at x0 x1 x y z c)

/-- The third piece at `(0, c, x, y)`: the maximum along the third spatial axis. -/
theorem pieceZ (c : Fin 8) (x y : Fin 256) :
    val_main_v42 (F := Ideal) x0 x1 (ix4 0 c x y)
      = projZ (vox (val_main_v23 (F := Ideal) x0) x1) c x y := by
  rw [val_main_v42_apply,
      show idx_main_v42 (ix4 (0 : Fin 1) c x y) = ix4 0 x y c from funext fun a => match a with
        | ⟨0, _⟩ => rfl | ⟨1, _⟩ => rfl | ⟨2, _⟩ => rfl | ⟨3, _⟩ => rfl]
  unfold val_main_v41
  rw [reduce_axis3 _ _ (fun i => by rw [val_main_cst_10_apply]; exact negInf_eq_bot) c x y]
  unfold projZ
  exact congrArg (fun f => (Finset.univ : Finset (Fin 256)).fold max ⊥ f) (funext fun z => v36_at x0 x1 x y z c)

end Stages

/-! ## The stacked projections at an index -/

/-- The stacked projections at an index whose leading coordinate is `0`: projection `0` at the other three. -/
theorem viewMask_at0 (v : Fin 256 → Fin 8 → Fin 256 → Fin 256 → EReal) (i : SOut.Idx) (h : (i 0).val = 0) :
    viewMask v i = projX v (i 1) (i 2) (i 3) := by
  unfold viewMask
  split
  · rfl
  · next heq => rw [heq] at h; exact absurd h Nat.one_ne_zero
  · next heq => rw [heq] at h; exact absurd h (Nat.succ_ne_zero 1)

/-- The stacked projections at an index whose leading coordinate is `1`: projection `1` at the other three. -/
theorem viewMask_at1 (v : Fin 256 → Fin 8 → Fin 256 → Fin 256 → EReal) (i : SOut.Idx) (h : (i 0).val = 1) :
    viewMask v i = projY v (i 1) (i 2) (i 3) := by
  unfold viewMask
  split
  · next heq => rw [heq] at h; exact absurd h Nat.zero_ne_one
  · rfl
  · next heq => rw [heq] at h; exact absurd h (by decide : (2 : Nat) ≠ 1)

/-- The stacked projections at an index whose leading coordinate is `2`: projection `2` at the other three. -/
theorem viewMask_at2 (v : Fin 256 → Fin 8 → Fin 256 → Fin 256 → EReal) (i : SOut.Idx) (h : (i 0).val = 2) :
    viewMask v i = projZ v (i 1) (i 2) (i 3) := by
  unfold viewMask
  split
  · next heq => rw [heq] at h; exact absurd h (by decide : (0 : Nat) ≠ 2)
  · next heq => rw [heq] at h; exact absurd h (by decide : (1 : Nat) ≠ 2)
  · rfl

/-! ## The result -/

/-- The stacked result is the stacked projections of the specification's voxel grid, as functions of the two arrays. -/
theorem val_main_v43_eq_viewMask (x0 : (⟨S100000x4, .f32⟩ : BufTy).Contents (Elt Ideal))
    (x1 : (⟨S100000x8, .f32⟩ : BufTy).Contents (Elt Ideal)) :
    val_main_v43 (F := Ideal) x0 x1 = viewMask (vox (val_main_v23 (F := Ideal) x0) x1) := by
  funext i
  unfold val_main_v43
  have h3 : (i 0).val < 3 := (i 0).isLt
  have hk : (i 0).val = 0 ∨ (i 0).val = 1 ∨ (i 0).val = 2 := by omega
  rcases hk with h | h | h
  · rw [concat3_at0 _ _ _ i h, viewMask_at0 _ i h]; exact pieceX x0 x1 (i 1) (i 2) (i 3)
  · rw [concat3_at1 _ _ _ i h, viewMask_at1 _ i h]; exact pieceY x0 x1 (i 1) (i 2) (i 3)
  · rw [concat3_at2 _ _ _ i h, viewMask_at2 _ i h]; exact pieceZ x0 x1 (i 1) (i 2) (i 3)

/-- **The reference's first result**, as the run states it, is the three projections of the voxel grid built from the
    points' voxel words (the reference's own, computed from the coordinates) and the points' features. -/
theorem res_eq (m : (ℓ : Loc nD τ sig) → Buf (Elt Ideal) ℓ) (c : Dev nD) :
    Cert.ReferenceIdeal.ValueP.res_main_v43 (F := Ideal) m c
      = Cert.VoxelSpec.viewMask (Cert.VoxelSpec.vox (Cert.ReferenceIdeal.ReadP.val_main_v23 (F := Ideal) (m ((c.tc : Thread nD τ).loc main_arg0))) (m ((c.tc : Thread nD τ).loc main_arg1))) := by
  rw [Cert.ReferenceIdeal.ReadP.val_main_v43_eq]
  exact val_main_v43_eq_viewMask _ _

end Cert.ReferenceIdeal.RefValue

end
-- ==== Proof.Claims.lean ====
/-
  The five claims of the voxelizer certificate.

  Both programs turn the first three coordinate columns of a point into a voxel of the 256 x 256 x 256 grid by
  the SAME integer chain (scale by 256, floor, convert, clamp to 0 … 255, then the batch word times 256 plus x,
  times 256 plus y, times 256 plus z, in 32-bit words): `lin_eq` says the kernel program's host prefix and the
  reference compute one function of the coordinates. Given that, the kernel program's first result and the
  reference's are both `viewMask` of the voxel values of the cloud: the kernel's by its run read through the
  pipeline, the reference's by its run read operation by operation. The second result is the label three times
  on both sides. The frames are the runs with the results dropped; the idealization rewrote nothing.
-/
import proofs.«163846_j35338990912022_1_alg».proof.Defs
import proofs.«163846_j35338990912022_1_alg».proof.Proof.Gen.Pre_finite_inputs
import proofs.«163846_j35338990912022_1_alg».proof.Proof.KFrame
import proofs.«163846_j35338990912022_1_alg».proof.Proof.KIValue
import proofs.«163846_j35338990912022_1_alg».proof.Proof.RefValue

set_option maxRecDepth 16384

noncomputable section

namespace Cert.Proof.VoxelClaims

open Idealize.ShloMosaic Idealize.ShloMosaic.TcCoe Idealize.SL.Sem Idealize.ShloMosaic.StableHlo

section Lin

open Cert.KernelIdeal Cert.KernelIdeal.Gen

variable {F : FTy → Type} [FloatOps F]

set_option maxHeartbeats 4000000 in
/-- The word per point the kernel program's host prefix leaves (the flat voxel index) is the reference's function
    of the coordinates: the two integer chains are one text. -/
theorem lin_eq (m : (ℓ : Loc nD τ sig) → Buf (Elt F) ℓ) (c : Dev nD) :
    (Cert.KernelIdeal.Fr.V m c main_v23 : IVec S100000 32)
      = Cert.ReferenceIdeal.ReadP.val_main_v23 (F := F) (m ((c.tc : Thread nD τ).loc main_arg0)) := by
  dsimp only [Cert.KernelIdeal.Fr.V, Cert.KernelIdeal.Fr.V0]
  simp only [hostOps0, hostOps0_1, hostOps0_2, List.flatten_cons, List.flatten_nil, List.append_nil, List.cons_append, List.nil_append]
  after_results_simp
  rfl

end Lin

/-- The word-level kernel program runs, faults nowhere and leaves its arguments as launched. -/
theorem frame_k : Cert.frame_Kernel (hKernel := Cert.Kernel.Gen.facts) (hPre_finite_inputs := Cert.Pre_finite_inputs.Gen.facts) :=
  fun m ρ _ => Cert.Kernel.Fr.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- And the reference: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.ValueP.run (F := Ideal) m ρ)

/-- From memories that agree on the arguments the two idealized programs end with equal results: the stacked
    projections of the cloud's voxel values, and the label three times. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Val.run_value m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.RefValue.res_eq m' c, (hagree c).1, (hagree c).2.1, ← lin_eq m c]
  · rw [(hagree c).2.2]

end Cert.Proof.VoxelClaims

end
-- ==== Proof.lean ====
/-
  The voxelizer: a cloud of 100000 points with eight features each is binned into a 256 x 256 x 256 grid of
  voxels (each voxel the mean of the features of the points that fall in it, an empty one zero), and the grid is
  projected by the maximum along each of its three spatial axes.

  The kernel program scatters each feature channel and the point count into flat grids on the host, runs one
  pipelined kernel over sixty-four tiles of four planes that divides, keeps a running maximum along the first
  axis in a resident output and writes the row maxima along the other two per tile, and stacks the three on the
  host. The reference scatters all channels at once, divides, and reduces three times. Over the extended reals
  the two are one function of the cloud: the scatter-add of a channel is the same sum of the same points
  whichever way the channels are laid, the division is pointwise, and a maximum taken tile by tile from minus
  infinity is the maximum (`max` is associative, commutative, idempotent, with minus infinity its identity);
  no law here needs the inputs finite, so the precondition is never opened.

  `Claims.lean` proves the five claims; the facts are the generated modules'.
-/
import proofs.«163846_j35338990912022_1_alg».proof.Defs
import proofs.«163846_j35338990912022_1_alg».proof.Proof.Gen.Kernel
import proofs.«163846_j35338990912022_1_alg».proof.Proof.Gen.KernelIdeal
import proofs.«163846_j35338990912022_1_alg».proof.Proof.Gen.ReferenceIdeal
import proofs.«163846_j35338990912022_1_alg».proof.Proof.Gen.Pre_finite_inputs
import proofs.«163846_j35338990912022_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    VoxelClaims.frame_k, VoxelClaims.frame_ki, VoxelClaims.frame_ri, trivial, VoxelClaims.algebraic⟩

end Cert.Proof

end
